-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x50x256 : Shape := ⟨3, ![8192, 50, 256]⟩
abbrev S8192x32 : Shape := ⟨2, ![8192, 32]⟩
abbrev S8192x7 : Shape := ⟨2, ![8192, 7]⟩
abbrev S7 : Shape := ⟨1, ![7]⟩
abbrev S8192x8 : Shape := ⟨2, ![8192, 8]⟩
abbrev S32 : Shape := ⟨1, ![32]⟩
abbrev S256x327 : Shape := ⟨2, ![256, 327]⟩
abbrev S256 : Shape := ⟨1, ![256]⟩
abbrev S8192 : Shape := ⟨1, ![8192]⟩
abbrev S_ : Shape := ⟨0, ![]⟩
abbrev S1 : Shape := ⟨1, ![1]⟩

class Facts : Prop where
  bcast_S_S8192x50x256 : S_.BroadcastsInDim S8192x50x256 (![] : Fin 0 → Fin S8192x50x256.rank)
  reducesTo_S8192x50x256_S_d0_1_2 : S8192x50x256.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192x7 : S_.BroadcastsInDim S8192x7 (![] : Fin 0 → Fin S8192x7.rank)
  reducesTo_S8192x7_S_d0_1 : S8192x7.ReducesTo [0, 1] S_
  bcast_S_S7 : S_.BroadcastsInDim S7 (![] : Fin 0 → Fin S7.rank)
  reducesTo_S7_S_d0 : S7.ReducesTo [0] S_
  bcast_S_S8192x8 : S_.BroadcastsInDim S8192x8 (![] : Fin 0 → Fin S8192x8.rank)
  reducesTo_S8192x8_S_d0_1 : S8192x8.ReducesTo [0, 1] S_
  bcast_S_S32 : S_.BroadcastsInDim S32 (![] : Fin 0 → Fin S32.rank)
  reducesTo_S32_S_d0 : S32.ReducesTo [0] S_
  bcast_S_S256x327 : S_.BroadcastsInDim S256x327 (![] : Fin 0 → Fin S256x327.rank)
  reducesTo_S256x327_S_d0_1 : S256x327.ReducesTo [0, 1] S_
  bcast_S_S256 : S_.BroadcastsInDim S256 (![] : Fin 0 → Fin S256.rank)
  reducesTo_S256_S_d0 : S256.ReducesTo [0] S_
  slices_S8192_S1_0 : S8192.Slices ![0] S1
  shapeCasts_S1_S_ : S1.ShapeCasts S_

variable [Facts]

def fn_part4 {F : FTy → Type} [FloatOps F] (main_v65 : IVec S_ 1) (main_v67 : IVec S7 1) (main_c_25 : IVec S_ 1) : IVec S_ 1 :=
  let main_v68 : IVec S_ 1 := (fun x v => Host.reduce IntOp.andi x v reducesTo_S7_S_d0 h_S_) main_v67 main_c_25
  let main_v69 : IVec S_ 1 := andi main_v65 main_v68
  main_v69

def fn_part3 {F : FTy → Type} [FloatOps F] (main_arg3 : FVec F S7 .f32) (main_arg8 : FVec F S32 .f32) (main_arg11 : IVec S8192 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : IVec S1 32 := (extractStridedSlice S1 ![0] · slices_S8192_S1_0) main_arg11
  let main_v55 : IVec S_ 32 := shapeCast S_ main_v54 shapeCasts_S1_S_
  let main_c_20 : IVec S_ 32 := constantI S_ 32 0#32
  let main_v56 : IVec S_ 1 := cmpi .sge main_v55 main_c_20
  let main_v57 : IVec S_ 1 := andi main_v53 main_v56
  let main_v58 : IVec S1 32 := (extractStridedSlice S1 ![0] · slices_S8192_S1_0) main_arg11
  let main_v59 : IVec S_ 32 := shapeCast S_ main_v58 shapeCasts_S1_S_
  let main_c_21 : IVec S_ 32 := constantI S_ 32 50#32
  let main_v60 : IVec S_ 1 := cmpi .slt main_v59 main_c_21
  let main_v61 : IVec S_ 1 := andi main_v57 main_v60
  let main_cst_22 : FVec F S_ .f32 := constant S_ .f32 0x00000000#32
  let main_v62 : FVec F S32 .f32 := broadcastInDim S32 ![] bcast_S_S32 main_cst_22
  let main_v63 : IVec S32 1 := cmpf .une main_arg8 main_v62
  let main_c_23 : IVec S_ 1 := constantI S_ 1 1#1
  let main_v64 : IVec S_ 1 := (fun x v => Host.reduce IntOp.andi x v reducesTo_S32_S_d0 h_S_) main_v63 main_c_23
  let main_v65 : IVec S_ 1 := andi main_v61 main_v64
  let main_cst_24 : FVec F S_ .f32 := constant S_ .f32 0x00000000#32
  let main_v66 : FVec F S7 .f32 := broadcastInDim S7 ![] bcast_S_S7 main_cst_24
  let main_v67 : IVec S7 1 := cmpf .une main_arg3 main_v66
  let main_c_25 : IVec S_ 1 := constantI S_ 1 1#1
  fn_part4 (F := F) main_v65 main_v67 main_c_25

def fn_part2 {F : FTy → Type} [FloatOps F] (main_arg3 : FVec F S7 .f32) (main_arg7 : FVec F S8192x8 .f32) (main_arg8 : FVec F S32 .f32) (main_arg9 : FVec F S256x327 .f32) (main_arg10 : FVec F S256 .f32) (main_arg11 : IVec S8192 32) (main_v33 : IVec S_ 1) : IVec S_ 1 :=
  let main_v34 : FVec F S8192x8 .f32 := Host.absf main_arg7
  let main_cst_12 : FVec F S_ .f32 := constant S_ .f32 0x7F800000#32
  let main_v35 : FVec F S8192x8 .f32 := broadcastInDim S8192x8 ![] bcast_S_S8192x8 main_cst_12
  let main_v36 : IVec S8192x8 1 := cmpf .olt main_v34 main_v35
  let main_c_13 : IVec S_ 1 := constantI S_ 1 1#1
  let main_v37 : IVec S_ 1 := (fun x v => Host.reduce IntOp.andi x v reducesTo_S8192x8_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S256x327 .f32 := Host.absf main_arg9
  let main_cst_16 : FVec F S_ .f32 := constant S_ .f32 0x7F800000#32
  let main_v45 : FVec F S256x327 .f32 := broadcastInDim S256x327 ![] bcast_S_S256x327 main_cst_16
  let main_v46 : IVec S256x327 1 := cmpf .olt main_v44 main_v45
  let main_c_17 : IVec S_ 1 := constantI S_ 1 1#1
  let main_v47 : IVec S_ 1 := (fun x v => Host.reduce IntOp.andi x v reducesTo_S256x327_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg3 main_arg8 main_arg11 main_v48 main_v49 main_v50

def fn_part1 {F : FTy → Type} [FloatOps F] (main_arg3 : FVec F S7 .f32) (main_arg4 : FVec F S8192x8 .f32) (main_arg5 : FVec F S8192x8 .f32) (main_arg6 : FVec F S8192x8 .f32) (main_arg7 : FVec F S8192x8 .f32) (main_arg8 : FVec F S32 .f32) (main_arg9 : FVec F S256x327 .f32) (main_arg10 : FVec F S256 .f32) (main_arg11 : IVec S8192 32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S8192x8 .f32 := Host.absf main_arg4
  let main_cst_6 : FVec F S_ .f32 := constant S_ .f32 0x7F800000#32
  let main_v20 : FVec F S8192x8 .f32 := broadcastInDim S8192x8 ![] bcast_S_S8192x8 main_cst_6
  let main_v21 : IVec S8192x8 1 := cmpf .olt main_v19 main_v20
  let main_c_7 : IVec S_ 1 := constantI S_ 1 1#1
  let main_v22 : IVec S_ 1 := (fun x v => Host.reduce IntOp.andi x v reducesTo_S8192x8_S_d0_1 h_S_) main_v21 main_c_7
  let main_v23 : IVec S_ 1 := andi main_v18 main_v22
  let main_v24 : FVec F S8192x8 .f32 := Host.absf main_arg5
  let main_cst_8 : FVec F S_ .f32 := constant S_ .f32 0x7F800000#32
  let main_v25 : FVec F S8192x8 .f32 := broadcastInDim S8192x8 ![] bcast_S_S8192x8 main_cst_8
  let main_v26 : IVec S8192x8 1 := cmpf .olt main_v24 main_v25
  let main_c_9 : IVec S_ 1 := constantI S_ 1 1#1
  let main_v27 : IVec S_ 1 := (fun x v => Host.reduce IntOp.andi x v reducesTo_S8192x8_S_d0_1 h_S_) main_v26 main_c_9
  let main_v28 : IVec S_ 1 := andi main_v23 main_v27
  let main_v29 : FVec F S8192x8 .f32 := Host.absf main_arg6
  let main_cst_10 : FVec F S_ .f32 := constant S_ .f32 0x7F800000#32
  let main_v30 : FVec F S8192x8 .f32 := broadcastInDim S8192x8 ![] bcast_S_S8192x8 main_cst_10
  let main_v31 : IVec S8192x8 1 := cmpf .olt main_v29 main_v30
  let main_c_11 : IVec S_ 1 := constantI S_ 1 1#1
  let main_v32 : IVec S_ 1 := (fun x v => Host.reduce IntOp.andi x v reducesTo_S8192x8_S_d0_1 h_S_) main_v31 main_c_11
  let main_v33 : IVec S_ 1 := andi main_v28 main_v32
  fn_part2 (F := F) main_arg3 main_arg7 main_arg8 main_arg9 main_arg10 main_arg11 main_v33

def fn {F : FTy → Type} [FloatOps F] (main_arg0 : FVec F S8192x50x256 .f32) (main_arg1 : FVec F S8192x32 .f32) (main_arg2 : FVec F S8192x7 .f32) (main_arg3 : FVec F S7 .f32) (main_arg4 : FVec F S8192x8 .f32) (main_arg5 : FVec F S8192x8 .f32) (main_arg6 : FVec F S8192x8 .f32) (main_arg7 : FVec F S8192x8 .f32) (main_arg8 : FVec F S32 .f32) (main_arg9 : FVec F S256x327 .f32) (main_arg10 : FVec F S256 .f32) (main_arg11 : IVec S8192 32) : IVec S_ 1 :=
  let main_v0 : FVec F S8192x50x256 .f32 := Host.absf main_arg0
  let main_cst : FVec F S_ .f32 := constant S_ .f32 0x7F800000#32
  let main_v1 : FVec F S8192x50x256 .f32 := broadcastInDim S8192x50x256 ![] bcast_S_S8192x50x256 main_cst
  let main_v2 : IVec S8192x50x256 1 := cmpf .olt main_v0 main_v1
  let main_c : IVec S_ 1 := constantI S_ 1 1#1
  let main_v3 : IVec S_ 1 := (fun x v => Host.reduce IntOp.andi x v reducesTo_S8192x50x256_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x7 .f32 := Host.absf main_arg2
  let main_cst_2 : FVec F S_ .f32 := constant S_ .f32 0x7F800000#32
  let main_v10 : FVec F S8192x7 .f32 := broadcastInDim S8192x7 ![] bcast_S_S8192x7 main_cst_2
  let main_v11 : IVec S8192x7 1 := cmpf .olt main_v9 main_v10
  let main_c_3 : IVec S_ 1 := constantI S_ 1 1#1
  let main_v12 : IVec S_ 1 := (fun x v => Host.reduce IntOp.andi x v reducesTo_S8192x7_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg3 main_arg4 main_arg5 main_arg6 main_arg7 main_arg8 main_arg9 main_arg10 main_arg11 main_v13 main_v16
-- ==== Kernel.lean ====
abbrev S8192x50x256 : Shape := ⟨3, ![8192, 50, 256]⟩
abbrev S8192x32 : Shape := ⟨2, ![8192, 32]⟩
abbrev S8192x7 : Shape := ⟨2, ![8192, 7]⟩
abbrev S7 : Shape := ⟨1, ![7]⟩
abbrev S8192x8 : Shape := ⟨2, ![8192, 8]⟩
abbrev S32 : Shape := ⟨1, ![32]⟩
abbrev S256x327 : Shape := ⟨2, ![256, 327]⟩
abbrev S256 : Shape := ⟨1, ![256]⟩
abbrev S8192 : Shape := ⟨1, ![8192]⟩
abbrev S1 : Shape := ⟨1, ![1]⟩
abbrev S_ : Shape := ⟨0, ![]⟩
abbrev S256x71 : Shape := ⟨2, ![256, 71]⟩
abbrev S71x256 : Shape := ⟨2, ![71, 256]⟩
abbrev S256x256 : Shape := ⟨2, ![256, 256]⟩
abbrev S32x256 : Shape := ⟨2, ![32, 256]⟩
abbrev S32x1 : Shape := ⟨2, ![32, 1]⟩
abbrev S7x256 : Shape := ⟨2, ![7, 256]⟩
abbrev S7x1 : Shape := ⟨2, ![7, 1]⟩
abbrev S8x256 : Shape := ⟨2, ![8, 256]⟩
abbrev S8192x256 : Shape := ⟨2, ![8192, 256]⟩
abbrev S2048x32 : Shape := ⟨2, ![2048, 32]⟩
abbrev S2048x7 : Shape := ⟨2, ![2048, 7]⟩
abbrev S2048x8 : Shape := ⟨2, ![2048, 8]⟩
abbrev S2048x256 : Shape := ⟨2, ![2048, 256]⟩
abbrev S2048x1x256 : Shape := ⟨3, ![2048, 1, 256]⟩
abbrev S1x256 : Shape := ⟨2, ![1, 256]⟩

abbrev nBuf : Space → Nat
  | .hbm => 50
  | .vmem => 23
  | .smem => 1
  | _ => 0

abbrev bufTy : (tb : Table) → Fin (tcTables nBuf tb) → BufTy
  | .hbm, ⟨0, _⟩ => ⟨S8192x50x256, .f32⟩
  | .hbm, ⟨1, _⟩ => ⟨S8192x32, .f32⟩
  | .hbm, ⟨2, _⟩ => ⟨S8192x7, .f32⟩
  | .hbm, ⟨3, _⟩ => ⟨S7, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S32, .f32⟩
  | .hbm, ⟨9, _⟩ => ⟨S256x327, .f32⟩
  | .hbm, ⟨10, _⟩ => ⟨S256, .f32⟩
  | .hbm, ⟨11, _⟩ => ⟨S8192, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S256x71, .f32⟩
  | .hbm, ⟨21, _⟩ => ⟨S71x256, .f32⟩
  | .hbm, ⟨22, _⟩ => ⟨S256x256, .f32⟩
  | .hbm, ⟨23, _⟩ => ⟨S256x256, .f32⟩
  | .hbm, ⟨24, _⟩ => ⟨S32x256, .f32⟩
  | .hbm, ⟨25, _⟩ => ⟨S32x1, .f32⟩
  | .hbm, ⟨26, _⟩ => ⟨S32x256, .f32⟩
  | .hbm, ⟨27, _⟩ => ⟨S32x256, .f32⟩
  | .hbm, ⟨28, _⟩ => ⟨S32x256, .bf16⟩
  | .hbm, ⟨29, _⟩ => ⟨S7x256, .f32⟩
  | .hbm, ⟨30, _⟩ => ⟨S7x1, .f32⟩
  | .hbm, ⟨31, _⟩ => ⟨S7x256, .f32⟩
  | .hbm, ⟨32, _⟩ => ⟨S7x256, .f32⟩
  | .hbm, ⟨33, _⟩ => ⟨S7x256, .bf16⟩
  | .hbm, ⟨34, _⟩ => ⟨S8x256, .f32⟩
  | .hbm, ⟨35, _⟩ => ⟨S8x256, .bf16⟩
  | .hbm, ⟨36, _⟩ => ⟨S8x256, .f32⟩
  | .hbm, ⟨37, _⟩ => ⟨S8x256, .bf16⟩
  | .hbm, ⟨38, _⟩ => ⟨S8x256, .f32⟩
  | .hbm, ⟨39, _⟩ => ⟨S_, .f32⟩
  | .hbm, ⟨40, _⟩ => ⟨S8x256, .f32⟩
  | .hbm, ⟨41, _⟩ => ⟨S8x256, .f32⟩
  | .hbm, ⟨42, _⟩ => ⟨S8x256, .bf16⟩
  | .hbm, ⟨43, _⟩ => ⟨S8x256, .f32⟩
  | .hbm, ⟨44, _⟩ => ⟨S_, .f32⟩
  | .hbm, ⟨45, _⟩ => ⟨S8x256, .f32⟩
  | .hbm, ⟨46, _⟩ => ⟨S8x256, .f32⟩
  | .hbm, ⟨47, _⟩ => ⟨S8x256, .bf16⟩
  | .hbm, ⟨48, _⟩ => ⟨S256x256, .bf16⟩
  | .hbm, ⟨49, _⟩ => ⟨S8192x256, .f32⟩
  | .local _ .vmem, ⟨0, _⟩ => ⟨S2048x32, .f32⟩
  | .local _ .vmem, ⟨1, _⟩ => ⟨S2048x32, .f32⟩
  | .local _ .vmem, ⟨2, _⟩ => ⟨S2048x7, .f32⟩
  | .local _ .vmem, ⟨3, _⟩ => ⟨S2048x7, .f32⟩
  | .local _ .vmem, ⟨4, _⟩ => ⟨S2048x8, .f32⟩
  | .local _ .vmem, ⟨5, _⟩ => ⟨S2048x8, .f32⟩
  | .local _ .vmem, ⟨6, _⟩ => ⟨S2048x8, .f32⟩
  | .local _ .vmem, ⟨7, _⟩ => ⟨S2048x8, .f32⟩
  | .local _ .vmem, ⟨8, _⟩ => ⟨S2048x8, .f32⟩
  | .local _ .vmem, ⟨9, _⟩ => ⟨S2048x8, .f32⟩
  | .local _ .vmem, ⟨10, _⟩ => ⟨S2048x8, .f32⟩
  | .local _ .vmem, ⟨11, _⟩ => ⟨S2048x8, .f32⟩
  | .local _ .vmem, ⟨12, _⟩ => ⟨S32x256, .bf16⟩
  | .local _ .vmem, ⟨13, _⟩ => ⟨S7x256, .bf16⟩
  | .local _ .vmem, ⟨14, _⟩ => ⟨S8x256, .bf16⟩
  | .local _ .vmem, ⟨15, _⟩ => ⟨S8x256, .bf16⟩
  | .local _ .vmem, ⟨16, _⟩ => ⟨S8x256, .bf16⟩
  | .local _ .vmem, ⟨17, _⟩ => ⟨S8x256, .bf16⟩
  | .local _ .vmem, ⟨18, _⟩ => ⟨S256x256, .bf16⟩
  | .local _ .vmem, ⟨19, _⟩ => ⟨S256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .smem, ⟨0, _⟩ => ⟨S1, .i32⟩
  | _, _ => ⟨S8192x50x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_off1 (i : grid0.Coords) (v2 : BitVec 32) : Fin 3 → Nat :=
  let arg0 : BitVec 32 := BitVec.ofNat 32 (i 0).val
  let c2048_i32 : BitVec 32 := 2048#32
  let v0 : BitVec 32 := Scalar.muli arg0 c2048_i32
  let v1 : BitVec 32 := v0
  let c0_i32 : BitVec 32 := 0#32
  ![v1.toNat, v2.toNat, 0]

def k0_chk1 (i : grid0.Coords) (v2 : BitVec 32) : Prop :=
  (∀ a, (k0_off1 i v2) a + S2048x1x256.size a ≤ S8192x50x256.size a)
instance k0_chk1.dec : ∀ (i : grid0.Coords) (v2 : BitVec 32), Decidable (k0_chk1 i v2) := fun i v2 => decidable_of_iff' _ (Iff.of_eq (k0_chk1.eq_1 i v2))
theorem k0_off1_inb : ∀ (i : grid0.Coords) (v2 : BitVec 32) (k0_hw1 : k0_chk1 i v2), ∀ a, (k0_off1 i v2) a + S2048x1x256.size a ≤ S8192x50x256.size a := fun i v2 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S8192_S1_0 : S8192.Slices ![0] S1
  shapeCasts_S1_S_ : S1.ShapeCasts S_
  bcast_S_S1 : S_.BroadcastsInDim S1 (![] : Fin 0 → Fin S1.rank)
  slices_S256x327_S256x71_0_0 : S256x327.Slices ![0, 0] S256x71
  transposes_S256x71_S71x256_1_0 : S256x71.Transposes [1, 0] S71x256
  slices_S256x327_S256x256_0_71 : S256x327.Slices ![0, 71] S256x256
  transposes_S256x256_S256x256_1_0 : S256x256.Transposes [1, 0] S256x256
  slices_S71x256_S32x256_0_0 : S71x256.Slices ![0, 0] S32x256
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bitsLt_bf16_f32 : FTy.bits .bf16 < FTy.bits .f32
  slices_S71x256_S7x256_32_0 : S71x256.Slices ![32, 0] S7x256
  bcast_S7_S7x1_0 : S7.BroadcastsInDim S7x1 (![0] : Fin 1 → Fin S7x1.rank)
  bcast_S7x1_S7x256_0_1 : S7x1.BroadcastsInDim S7x256 (![0, 1] : Fin 2 → Fin S7x256.rank)
  slices_S71x256_S8x256_39_0 : S71x256.Slices ![39, 0] S8x256
  slices_S71x256_S8x256_47_0 : S71x256.Slices ![47, 0] S8x256
  slices_S71x256_S8x256_55_0 : S71x256.Slices ![55, 0] S8x256
  bcast_S_S8x256 : S_.BroadcastsInDim S8x256 (![] : Fin 0 → Fin S8x256.rank)
  slices_S71x256_S8x256_63_0 : S71x256.Slices ![63, 0] S8x256
  inb_S1_S1_0 : ∀ a, (![0] : Fin 1 → Nat) a + S1.size a ≤ S1.size a
  numel1_S1 : S1.numel = 1
  squeezes_S2048x1x256_S2048x256 : S2048x1x256.Squeezes S2048x256
  inb_S2048x32_S2048x32_0_0 : ∀ a, (![0, 0] : Fin 2 → Nat) a + S2048x32.size a ≤ S2048x32.size a
  h_S2048x32 : 0 < S2048x32.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S2048x7_S2048x7_0_0 : ∀ a, (![0, 0] : Fin 2 → Nat) a + S2048x7.size a ≤ S2048x7.size a
  h_S2048x7 : 0 < S2048x7.numel
  inb_S7x256_S7x256_0_0 : ∀ a, (![0, 0] : Fin 2 → Nat) a + S7x256.size a ≤ S7x256.size a
  h_S7x256 : 0 < S7x256.numel
  shapeCasts_S7x256_S7x256 : S7x256.ShapeCasts S7x256
  inb_S2048x8_S2048x8_0_0 : ∀ a, (![0, 0] : Fin 2 → Nat) a + S2048x8.size a ≤ S2048x8.size a
  h_S2048x8 : 0 < S2048x8.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  dot_S2048x32_S32x256_S2048x256_1_0_0_1_n_n_wf : DotDims.WF S2048x32 S32x256 S2048x256 [1] [0] [0] [1] [] []
  dot_S2048x7_S7x256_S2048x256_1_0_0_1_n_n_wf : DotDims.WF S2048x7 S7x256 S2048x256 [1] [0] [0] [1] [] []
  dot_S2048x8_S8x256_S2048x256_1_0_0_1_n_n_wf : DotDims.WF S2048x8 S8x256 S2048x256 [1] [0] [0] [1] [] []
  dot_S2048x256_S256x256_S2048x256_1_0_0_1_n_n_wf : DotDims.WF S2048x256 S256x256 S2048x256 [1] [0] [0] [1] [] []
  hcc0_scratch1 : 22 + S_.numel ≤ 23
  hrank0 : 0 < grid0.rank
  k0_mult1_dvd : ∀ i : grid0.Coords, 2048 ∣ (k0_mult1 i).toNat
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S2048x32.size a ≤ S8192x32.size a
  hwx0_0 : ∀ i : grid0.Coords, EltTy.bits .f32 = 32 ∨ (Rect.block (s := S8192x32) S2048x32.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S2048x7.size a ≤ S8192x7.size a
  hwx0_1 : ∀ i : grid0.Coords, EltTy.bits .f32 = 32 ∨ (Rect.block (s := S8192x7) S2048x7.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S2048x8.size a ≤ S8192x8.size a
  hwx0_2 : ∀ i : grid0.Coords, EltTy.bits .f32 = 32 ∨ (Rect.block (s := S8192x8) S2048x8.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S2048x8.size a ≤ S8192x8.size a
  hwx0_3 : ∀ i : grid0.Coords, EltTy.bits .f32 = 32 ∨ (Rect.block (s := S8192x8) S2048x8.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S2048x8.size a ≤ S8192x8.size a
  hwx0_4 : ∀ i : grid0.Coords, EltTy.bits .f32 = 32 ∨ (Rect.block (s := S8192x8) S2048x8.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S2048x8.size a ≤ S8192x8.size a
  hwx0_5 : ∀ i : grid0.Coords, EltTy.bits .f32 = 32 ∨ (Rect.block (s := S8192x8) S2048x8.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S32x256.size a ≤ S32x256.size a
  hwx0_6 : ∀ i : grid0.Coords, EltTy.bits .bf16 = 32 ∨ (Rect.block (s := S32x256) S32x256.size (cc0_transform_7 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S7x256.size a ≤ S7x256.size a
  hwx0_7 : ∀ i : grid0.Coords, EltTy.bits .bf16 = 32 ∨ (Rect.block (s := S7x256) S7x256.size (cc0_transform_8 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_9 i = cc0_transform_9 i'
  hinb0_8 : ∀ (i : grid0.Coords) a, (cc0_transform_9 i a + 1) * S8x256.size a ≤ S8x256.size a
  hwx0_8 : ∀ i : grid0.Coords, EltTy.bits .bf16 = 32 ∨ (Rect.block (s := S8x256) S8x256.size (cc0_transform_9 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_10 i = cc0_transform_10 i'
  hinb0_9 : ∀ (i : grid0.Coords) a, (cc0_transform_10 i a + 1) * S8x256.size a ≤ S8x256.size a
  hwx0_9 : ∀ i : grid0.Coords, EltTy.bits .bf16 = 32 ∨ (Rect.block (s := S8x256) S8x256.size (cc0_transform_10 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_11 i = cc0_transform_11 i'
  hinb0_10 : ∀ (i : grid0.Coords) a, (cc0_transform_11 i a + 1) * S8x256.size a ≤ S8x256.size a
  hwx0_10 : ∀ i : grid0.Coords, EltTy.bits .bf16 = 32 ∨ (Rect.block (s := S8x256) S8x256.size (cc0_transform_11 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_12 i = cc0_transform_12 i'
  hinb0_11 : ∀ (i : grid0.Coords) a, (cc0_transform_12 i a + 1) * S8x256.size a ≤ S8x256.size a
  hwx0_11 : ∀ i : grid0.Coords, EltTy.bits .bf16 = 32 ∨ (Rect.block (s := S8x256) S8x256.size (cc0_transform_12 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_13 i = cc0_transform_13 i'
  hinb0_12 : ∀ (i : grid0.Coords) a, (cc0_transform_13 i a + 1) * S256x256.size a ≤ S256x256.size a
  hwx0_12 : ∀ i : grid0.Coords, EltTy.bits .bf16 = 32 ∨ (Rect.block (s := S256x256) S256x256.size (cc0_transform_13 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_14 i = cc0_transform_14 i'
  hinb0_13 : ∀ (i : grid0.Coords) a, (cc0_transform_14 i a + 1) * S256.size a ≤ S256.size a
  hwx0_13 : ∀ i : grid0.Coords, EltTy.bits .f32 = 32 ∨ (Rect.block (s := S256) S256.size (cc0_transform_14 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_15 i = cc0_transform_15 i'
  hinb0_14 : ∀ (i : grid0.Coords) a, (cc0_transform_15 i a + 1) * S2048x256.size a ≤ S8192x256.size a
  hwx0_14 : ∀ i : grid0.Coords, EltTy.bits .f32 = 32 ∨ (Rect.block (s := S8192x256) S2048x256.size (cc0_transform_15 i) (hinb0_14 i)).WholeWords (EltTy.packing .f32)

variable [Facts₀]

abbrev cc0_scratch1 : DmaSems sig S_ := SemArray.consecutive 22 S_ hcc0_scratch1
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S2048x7_S7x256_S2048x256_1_0_0_1_n_n : DotDims S2048x7 S7x256 S2048x256 where
  lhsContracting := [1]
  rhsContracting := [0]
  lhsNonContracting := [0]
  rhsNonContracting := [1]
  lhsBatch := []
  rhsBatch := []
  wf := dot_S2048x7_S7x256_S2048x256_1_0_0_1_n_n_wf
def dot_S2048x8_S8x256_S2048x256_1_0_0_1_n_n : DotDims S2048x8 S8x256 S2048x256 where
  lhsContracting := [1]
  rhsContracting := [0]
  lhsNonContracting := [0]
  rhsNonContracting := [1]
  lhsBatch := []
  rhsBatch := []
  wf := dot_S2048x8_S8x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev spec0_0 : Pipeline.WinSpec sig grid0.rank :=
  Pipeline.WinSpec.ofSpec (Memref.whole main_arg1) S2048x32.size reads0_0 false false 2 stage0_0 sem0_0 nbuf0_0 hstage0_0

abbrev spec0_1 : Pipeline.WinSpec sig grid0.rank :=
  Pipeline.WinSpec.ofSpec (Memref.whole main_arg2) S2048x7.size reads0_1 false false 2 stage0_1 sem0_1 nbuf0_1 hstage0_1

abbrev spec0_2 : Pipeline.WinSpec sig grid0.rank :=
  Pipeline.WinSpec.ofSpec (Memref.whole main_arg4) S2048x8.size reads0_2 false false 2 stage0_2 sem0_2 nbuf0_2 hstage0_2

abbrev spec0_3 : Pipeline.WinSpec sig grid0.rank :=
  Pipeline.WinSpec.ofSpec (Memref.whole main_arg5) S2048x8.size reads0_3 false false 2 stage0_3 sem0_3 nbuf0_3 hstage0_3

abbrev spec0_4 : Pipeline.WinSpec sig grid0.rank :=
  Pipeline.WinSpec.ofSpec (Memref.whole main_arg6) S2048x8.size reads0_4 false false 2 stage0_4 sem0_4 nbuf0_4 hstage0_4

abbrev spec0_5 : Pipeline.WinSpec sig grid0.rank :=
  Pipeline.WinSpec.ofSpec (Memref.whole main_arg7) S2048x8.size reads0_5 false false 2 stage0_5 sem0_5 nbuf0_5 hstage0_5

abbrev spec0_6 : Pipeline.WinSpec sig grid0.rank :=
  Pipeline.WinSpec.ofSpec (Memref.whole main_v12) S32x256.size reads0_6 false true 1 stage0_6 sem0_6 nbuf0_6 hstage0_6

abbrev spec0_7 : Pipeline.WinSpec sig grid0.rank :=
  Pipeline.WinSpec.ofSpec (Memref.whole main_v17) S7x256.size reads0_7 false true 1 stage0_7 sem0_7 nbuf0_7 hstage0_7

abbrev spec0_8 : Pipeline.WinSpec sig grid0.rank :=
  Pipeline.WinSpec.ofSpec (Memref.whole main_v19) S8x256.size reads0_8 false true 1 stage0_8 sem0_8 nbuf0_8 hstage0_8

abbrev spec0_9 : Pipeline.WinSpec sig grid0.rank :=
  Pipeline.WinSpec.ofSpec (Memref.whole main_v21) S8x256.size reads0_9 false true 1 stage0_9 sem0_9 nbuf0_9 hstage0_9

abbrev spec0_10 : Pipeline.WinSpec sig grid0.rank :=
  Pipeline.WinSpec.ofSpec (Memref.whole main_v25) S8x256.size reads0_10 false true 1 stage0_10 sem0_10 nbuf0_10 hstage0_10

abbrev spec0_11 : Pipeline.WinSpec sig grid0.rank :=
  Pipeline.WinSpec.ofSpec (Memref.whole main_v29) S8x256.size reads0_11 false true 1 stage0_11 sem0_11 nbuf0_11 hstage0_11

abbrev spec0_12 : Pipeline.WinSpec sig grid0.rank :=
  Pipeline.WinSpec.ofSpec (Memref.whole main_v30) S256x256.size reads0_12 false true 1 stage0_12 sem0_12 nbuf0_12 hstage0_12

abbrev spec0_13 : Pipeline.WinSpec sig grid0.rank :=
  Pipeline.WinSpec.ofSpec (Memref.whole main_arg10) S256.size reads0_13 false true 1 stage0_13 sem0_13 nbuf0_13 hstage0_13

abbrev spec0_14 : Pipeline.WinSpec sig grid0.rank :=
  Pipeline.WinSpec.ofSpec (Memref.whole main_v31) S2048x256.size reads0_14 true false 2 stage0_14 sem0_14 nbuf0_14 hstage0_14

abbrev spec0 : Fin 15 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | ⟨_ + 15, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | ⟨_ + 15, h⟩ => absurd h (Nat.not_lt.2 (Nat.le_add_left _ _))
abbrev ix0 (pf : pre0.Contents (Elt F)) : (w : Fin 15) → grid0.Coords → Fin (spec0 w).shape.rank → Nat := fun | 0 => cc0_transform_1 | 1 => cc0_transform_2 | 2 => cc0_transform_3 | 3 => cc0_transform_4 | 4 => cc0_transform_5 | 5 => cc0_transform_6 | 6 => cc0_transform_7 | 7 => cc0_transform_8 | 8 => cc0_transform_9 | 9 => cc0_transform_10 | 10 => cc0_transform_11 | 11 => cc0_transform_12 | 12 => cc0_transform_13 | 13 => cc0_transform_14 | 14 => cc0_transform_15 | ⟨_ + 15, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | 13 => hreads0_13 | 14 => hreads0_14 | ⟨_ + 15, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | 13 => hinb0_13 | 14 => hinb0_14 | ⟨_ + 15, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | 13 => hwx0_13 | 14 => hwx0_14 | ⟨_ + 15, h⟩ => absurd h (Nat.not_lt.2 (Nat.le_add_left _ _))

class Facts : Prop extends Facts₀ where
  harr0 : ∀ w, (spec0 w).arr.IsWhole

variable [Facts]
-- ==== ReferenceIdeal.lean ====
abbrev S8192x50x256 : Shape := ⟨3, ![8192, 50, 256]⟩
abbrev S8192x32 : Shape := ⟨2, ![8192, 32]⟩
abbrev S8192x7 : Shape := ⟨2, ![8192, 7]⟩
abbrev S7 : Shape := ⟨1, ![7]⟩
abbrev S8192x8 : Shape := ⟨2, ![8192, 8]⟩
abbrev S32 : Shape := ⟨1, ![32]⟩
abbrev S256x327 : Shape := ⟨2, ![256, 327]⟩
abbrev S256 : Shape := ⟨1, ![256]⟩
abbrev S8192 : Shape := ⟨1, ![8192]⟩
abbrev S1 : Shape := ⟨1, ![1]⟩
abbrev S_ : Shape := ⟨0, ![]⟩
abbrev S8192x256 : Shape := ⟨2, ![8192, 256]⟩
abbrev S1x32 : Shape := ⟨2, ![1, 32]⟩
abbrev S1x7 : Shape := ⟨2, ![1, 7]⟩
abbrev S8192x71 : Shape := ⟨2, ![8192, 71]⟩
abbrev S8192x327 : Shape := ⟨2, ![8192, 327]⟩
abbrev S327x256 : Shape := ⟨2, ![327, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S8192x50x256, .f32⟩
  | .hbm, ⟨1, _⟩ => ⟨S8192x32, .f32⟩
  | .hbm, ⟨2, _⟩ => ⟨S8192x7, .f32⟩
  | .hbm, ⟨3, _⟩ => ⟨S7, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S32, .f32⟩
  | .hbm, ⟨9, _⟩ => ⟨S256x327, .f32⟩
  | .hbm, ⟨10, _⟩ => ⟨S256, .f32⟩
  | .hbm, ⟨11, _⟩ => ⟨S8192, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1, .i1⟩
  | .hbm, ⟨24, _⟩ => ⟨S1, .i1⟩
  | .hbm, ⟨25, _⟩ => ⟨S1, .i1⟩
  | .hbm, ⟨26, _⟩ => ⟨S_, .i1⟩
  | .hbm, ⟨27, _⟩ => ⟨S_, .i1⟩
  | .hbm, ⟨28, _⟩ => ⟨S8192x256, .f32⟩
  | .hbm, ⟨29, _⟩ => ⟨S8192x256, .i1⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S1x32, .f32⟩
  | .hbm, ⟨34, _⟩ => ⟨S8192x32, .f32⟩
  | .hbm, ⟨35, _⟩ => ⟨S8192x32, .f32⟩
  | .hbm, ⟨36, _⟩ => ⟨S1x7, .f32⟩
  | .hbm, ⟨37, _⟩ => ⟨S8192x7, .f32⟩
  | .hbm, ⟨38, _⟩ => ⟨S8192x7, .f32⟩
  | .hbm, ⟨39, _⟩ => ⟨S_, .f32⟩
  | .hbm, ⟨40, _⟩ => ⟨S8192x8, .f32⟩
  | .hbm, ⟨41, _⟩ => ⟨S8192x8, .f32⟩
  | .hbm, ⟨42, _⟩ => ⟨S_, .f32⟩
  | .hbm, ⟨43, _⟩ => ⟨S8192x8, .f32⟩
  | .hbm, ⟨44, _⟩ => ⟨S8192x8, .f32⟩
  | .hbm, ⟨45, _⟩ => ⟨S8192x71, .f32⟩
  | .hbm, ⟨46, _⟩ => ⟨S8192x327, .f32⟩
  | .hbm, ⟨47, _⟩ => ⟨S327x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | _, _ => ⟨S8192x50x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_c_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_c_2 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_c_3 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_cst : Ref sig .tc := ⟨.hbm, 30, rfl⟩
abbrev main_call0_v11 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_cst_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]

class Facts₀ : Prop where
  slices_S8192_S1_0 : S8192.Slices ![0] S1
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S8192x256 : S_.BroadcastsInDim S8192x256 (![] : Fin 0 → Fin S8192x256.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  bcast_S_S8192x8 : S_.BroadcastsInDim S8192x8 (![] : Fin 0 → Fin S8192x8.rank)
  concatenates_S8192x32_S8192x7_S8192x8_S8192x8_S8192x8_S8192x8_S8192x71_d1 : Shape.Concatenates [S8192x32, S8192x7, S8192x8, S8192x8, S8192x8, S8192x8] S8192x71 1
  concatenates_S8192x71_S8192x256_S8192x327_d1 : Shape.Concatenates [S8192x71, S8192x256] S8192x327 1
  transposes_S256x327_S327x256_1_0 : S256x327.Transposes [1, 0] S327x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  gather_S8192x50x256_S1_S8192x256_01_1_n_n_1_0_81921256_wf : GatherDims.WF S8192x50x256 S1 S8192x256 [0, 1] [1] [] [1] [] 0 ![8192, 1, 256]
  dot_S8192x327_S327x256_S8192x256_1_0_0_1_n_n_wf : DotDims.WF S8192x327 S327x256 S8192x256 [1] [0] [0] [1] [] []

variable [Facts₀]

def gather_S8192x50x256_S1_S8192x256_01_1_n_n_1_0_81921256 : GatherDims S8192x50x256 S1 S8192x256 where
  offsetDims := [0, 1]
  collapsedSliceDims := [1]
  operandBatchingDims := []
  startIndicesBatchingDims := []
  startIndexMap := [1]
  indexVectorDim := 0
  sliceSizes := ![8192, 1, 256]
  wf := gather_S8192x50x256_S1_S8192x256_01_1_n_n_1_0_81921256_wf
def dot_S8192x327_S327x256_S8192x256_1_0_0_1_n_n : DotDims S8192x327 S327x256 S8192x256 where
  lhsContracting := [1]
  rhsContracting := [0]
  lhsNonContracting := [0]
  rhsNonContracting := [1]
  lhsBatch := []
  rhsBatch := []
  wf := dot_S8192x327_S327x256_S8192x256_1_0_0_1_n_n_wf

class Facts : Prop extends Facts₀ where

variable [Facts]
-- ==== Proof.Spec.lean ====
/-
  The value both programs compute, over the extended reals, as a function of the argument arrays and of the
  row `τ` of the sequence axis that the time step selects.

  For a batch row `r` and an output column `k` the result is the bias `b k` plus the product of a 327-entry
  context row with row `k` of `W`.  The context row is six groups of normalised features — the residual
  capacities divided by `cap`, the long-crane capacities divided by `tlc`, two groups taken as they are, two
  groups divided by 8 — followed by the 256 entries of `lat r τ`.

  `Gr` writes it that way: one sum over the 327 columns.  `Gk` writes the arrangement in which each divisor
  has been moved from the feature onto the weight, and the long sum is cut into its seven groups, added from
  the left.  `Gk_eq_Gr` says the two are one function when no divisor is zero: a quotient by a nonzero `c` is
  the product with `c⁻¹`, products of extended reals commute and associate, and a sum over `Fin 327` splits at
  32, 39, 47, 55, 63 and 71.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The divisor of the last two feature groups: the float 8.0. -/
abbrev eight : EReal := Ideal.ofBits .f32 0x41000000#32

/-- The pattern `0x41000000` is the real number 8: exponent field 130, fraction 0. -/
private theorem eight_eq : eight = ((8 : ℝ) : EReal) := by
  simp [eight, Ideal.ofBits, Ideal.ieee]
  rw [← EReal.coe_mul]
  norm_num

private theorem eight_ne_zero : eight ≠ 0 := by
  rw [eight_eq]
  exact_mod_cast (by norm_num : (8 : ℝ) ≠ 0)

/-- A quotient by a nonzero `c` is the product with `c⁻¹`, so the divisor moves from one factor of a
    product to the other. -/
private theorem div_mul_eq_mul_div (a w c : EReal) (hc : c ≠ 0) :
    Ideal.div a c * w = a * Ideal.div w c := by
  unfold Ideal.div
  rw [if_neg hc, if_neg hc, mul_assoc, mul_comm c⁻¹ w]

/-- A sum over `Fin n` with `n = a + b` is the sum over the first `a` indices plus the sum over the last `b`. -/
private theorem sum_split {n : ℕ} (a b : ℕ) (h : n = a + b) (f : Fin n → EReal) :
    ∑ q : Fin n, f q
      = (∑ q : Fin a, f ⟨q.val, by omega⟩) + ∑ q : Fin b, f ⟨a + q.val, by omega⟩ := by
  subst h
  rw [Fin.sum_univ_add]
  rfl

/-- A sum over `Fin 327` cut at 32, 39, 47, 55, 63 and 71, the seven pieces added from the left. -/
private theorem sum327 (f : Fin 327 → EReal) :
    ∑ q : Fin 327, f q =
      ((((((∑ q : Fin 32, f ⟨q.val, by omega⟩) + ∑ q : Fin 7, f ⟨32 + q.val, by omega⟩)
        + ∑ q : Fin 8, f ⟨39 + q.val, by omega⟩) + ∑ q : Fin 8, f ⟨47 + q.val, by omega⟩)
        + ∑ q : Fin 8, f ⟨55 + q.val, by omega⟩) + ∑ q : Fin 8, f ⟨63 + q.val, by omega⟩)
        + ∑ q : Fin 256, f ⟨71 + q.val, by omega⟩ := by
  rw [sum_split (n := 327) 71 256 rfl f, sum_split (n := 71) 63 8 rfl, sum_split (n := 63) 55 8 rfl,
    sum_split (n := 55) 47 8 rfl, sum_split (n := 47) 39 8 rfl, sum_split (n := 39) 32 7 rfl]

section
variable (lat : (⟨3, ![8192, 50, 256]⟩ : Shape).Idx → EReal)
  (rc : (⟨2, ![8192, 32]⟩ : Shape).Idx → EReal) (rlc : (⟨2, ![8192, 7]⟩ : Shape).Idx → EReal)
  (tlc : (⟨1, ![7]⟩ : Shape).Idx → EReal)
  (lcg vcg pol pod : (⟨2, ![8192, 8]⟩ : Shape).Idx → EReal)
  (cap : (⟨1, ![32]⟩ : Shape).Idx → EReal)
  (W : (⟨2, ![256, 327]⟩ : Shape).Idx → EReal) (b : (⟨1, ![256]⟩ : Shape).Idx → EReal)

/-- The weight-side arrangement: seven partial products over the seven column groups of `W`, each divisor on
    the weight, added from the left, then the bias. -/
def Gk (τ : Fin 50) (r : Fin 8192) (k : Fin 256) : EReal :=
  (((((((∑ q : Fin 32, rc (ix2 r q) * Ideal.div (W (ix2 k ⟨q.val, by omega⟩)) (cap (ix1 q)))
    + ∑ q : Fin 7, rlc (ix2 r q) * Ideal.div (W (ix2 k ⟨32 + q.val, by omega⟩)) (tlc (ix1 q)))
    + ∑ q : Fin 8, lcg (ix2 r q) * W (ix2 k ⟨39 + q.val, by omega⟩))
    + ∑ q : Fin 8, vcg (ix2 r q) * W (ix2 k ⟨47 + q.val, by omega⟩))
    + ∑ q : Fin 8, pol (ix2 r q) * Ideal.div (W (ix2 k ⟨55 + q.val, by omega⟩)) eight)
    + ∑ q : Fin 8, pod (ix2 r q) * Ideal.div (W (ix2 k ⟨63 + q.val, by omega⟩)) eight)
    + ∑ e : Fin 256, lat (ix3 r τ e) * W (ix2 k ⟨71 + e.val, by omega⟩))
  + b (ix1 k)

/-- Entry `q` of the context row of batch row `r`: the normalised features, then `lat r τ`. -/
def ctx (τ : Fin 50) (r : Fin 8192) (q : Fin 327) : EReal :=
  if h0 : q.val < 32 then Ideal.div (rc (ix2 r ⟨q.val, h0⟩)) (cap (ix1 ⟨q.val, h0⟩))
  else if h1 : q.val < 39 then Ideal.div (rlc (ix2 r ⟨q.val - 32, by omega⟩)) (tlc (ix1 ⟨q.val - 32, by omega⟩))
  else if h2 : q.val < 47 then lcg (ix2 r ⟨q.val - 39, by omega⟩)
  else if h3 : q.val < 55 then vcg (ix2 r ⟨q.val - 47, by omega⟩)
  else if h4 : q.val < 63 then Ideal.div (pol (ix2 r ⟨q.val - 55, by omega⟩)) eight
  else if h5 : q.val < 71 then Ideal.div (pod (ix2 r ⟨q.val - 63, by omega⟩)) eight
  else lat (ix3 r τ ⟨q.val - 71, by omega⟩)

/-- The context row on its seven column groups. -/
private theorem ctx_g1 (τ : Fin 50) (r : Fin 8192) (q : Fin 32) (h : q.val < 327) :
    ctx lat rc rlc tlc lcg vcg pol pod cap τ r ⟨q.val, h⟩ = Ideal.div (rc (ix2 r q)) (cap (ix1 q)) := by
  unfold ctx
  rw [dif_pos (show (⟨q.val, h⟩ : Fin 327).val < 32 from q.isLt)]

private theorem ctx_g2 (τ : Fin 50) (r : Fin 8192) (q : Fin 7) (h : 32 + q.val < 327) :
    ctx lat rc rlc tlc lcg vcg pol pod cap τ r ⟨32 + q.val, h⟩ = Ideal.div (rlc (ix2 r q)) (tlc (ix1 q)) := by
  have e : ∀ h', (⟨32 + q.val - 32, h'⟩ : Fin 7) = q := fun _ => Fin.ext (Nat.add_sub_cancel_left ..)
  unfold ctx
  rw [dif_neg (show ¬ (⟨32 + q.val, h⟩ : Fin 327).val < 32 from by simp),
    dif_pos (show (⟨32 + q.val, h⟩ : Fin 327).val < 39 from by have := q.isLt; simp; omega)]
  simp only [e]

private theorem ctx_g3 (τ : Fin 50) (r : Fin 8192) (q : Fin 8) (h : 39 + q.val < 327) :
    ctx lat rc rlc tlc lcg vcg pol pod cap τ r ⟨39 + q.val, h⟩ = lcg (ix2 r q) := by
  have e : ∀ h', (⟨39 + q.val - 39, h'⟩ : Fin 8) = q := fun _ => Fin.ext (Nat.add_sub_cancel_left ..)
  unfold ctx
  rw [dif_neg (show ¬ (⟨39 + q.val, h⟩ : Fin 327).val < 32 from by simp; omega),
    dif_neg (show ¬ (⟨39 + q.val, h⟩ : Fin 327).val < 39 from by simp),
    dif_pos (show (⟨39 + q.val, h⟩ : Fin 327).val < 47 from by have := q.isLt; simp; omega)]
  simp only [e]

private theorem ctx_g4 (τ : Fin 50) (r : Fin 8192) (q : Fin 8) (h : 47 + q.val < 327) :
    ctx lat rc rlc tlc lcg vcg pol pod cap τ r ⟨47 + q.val, h⟩ = vcg (ix2 r q) := by
  have e : ∀ h', (⟨47 + q.val - 47, h'⟩ : Fin 8) = q := fun _ => Fin.ext (Nat.add_sub_cancel_left ..)
  unfold ctx
  rw [dif_neg (show ¬ (⟨47 + q.val, h⟩ : Fin 327).val < 32 from by simp; omega),
    dif_neg (show ¬ (⟨47 + q.val, h⟩ : Fin 327).val < 39 from by simp; omega),
    dif_neg (show ¬ (⟨47 + q.val, h⟩ : Fin 327).val < 47 from by simp),
    dif_pos (show (⟨47 + q.val, h⟩ : Fin 327).val < 55 from by have := q.isLt; simp; omega)]
  simp only [e]

private theorem ctx_g5 (τ : Fin 50) (r : Fin 8192) (q : Fin 8) (h : 55 + q.val < 327) :
    ctx lat rc rlc tlc lcg vcg pol pod cap τ r ⟨55 + q.val, h⟩ = Ideal.div (pol (ix2 r q)) eight := by
  have e : ∀ h', (⟨55 + q.val - 55, h'⟩ : Fin 8) = q := fun _ => Fin.ext (Nat.add_sub_cancel_left ..)
  unfold ctx
  rw [dif_neg (show ¬ (⟨55 + q.val, h⟩ : Fin 327).val < 32 from by simp; omega),
    dif_neg (show ¬ (⟨55 + q.val, h⟩ : Fin 327).val < 39 from by simp; omega),
    dif_neg (show ¬ (⟨55 + q.val, h⟩ : Fin 327).val < 47 from by simp; omega),
    dif_neg (show ¬ (⟨55 + q.val, h⟩ : Fin 327).val < 55 from by simp),
    dif_pos (show (⟨55 + q.val, h⟩ : Fin 327).val < 63 from by have := q.isLt; simp; omega)]
  simp only [e]

private theorem ctx_g6 (τ : Fin 50) (r : Fin 8192) (q : Fin 8) (h : 63 + q.val < 327) :
    ctx lat rc rlc tlc lcg vcg pol pod cap τ r ⟨63 + q.val, h⟩ = Ideal.div (pod (ix2 r q)) eight := by
  have e : ∀ h', (⟨63 + q.val - 63, h'⟩ : Fin 8) = q := fun _ => Fin.ext (Nat.add_sub_cancel_left ..)
  unfold ctx
  rw [dif_neg (show ¬ (⟨63 + q.val, h⟩ : Fin 327).val < 32 from by simp; omega),
    dif_neg (show ¬ (⟨63 + q.val, h⟩ : Fin 327).val < 39 from by simp; omega),
    dif_neg (show ¬ (⟨63 + q.val, h⟩ : Fin 327).val < 47 from by simp; omega),
    dif_neg (show ¬ (⟨63 + q.val, h⟩ : Fin 327).val < 55 from by simp; omega),
    dif_neg (show ¬ (⟨63 + q.val, h⟩ : Fin 327).val < 63 from by simp),
    dif_pos (show (⟨63 + q.val, h⟩ : Fin 327).val < 71 from by have := q.isLt; simp; omega)]
  simp only [e]

private theorem ctx_g7 (τ : Fin 50) (r : Fin 8192) (q : Fin 256) (h : 71 + q.val < 327) :
    ctx lat rc rlc tlc lcg vcg pol pod cap τ r ⟨71 + q.val, h⟩ = lat (ix3 r τ q) := by
  have e : ∀ h', (⟨71 + q.val - 71, h'⟩ : Fin 256) = q := fun _ => Fin.ext (Nat.add_sub_cancel_left ..)
  unfold ctx
  rw [dif_neg (show ¬ (⟨71 + q.val, h⟩ : Fin 327).val < 32 from by simp; omega),
    dif_neg (show ¬ (⟨71 + q.val, h⟩ : Fin 327).val < 39 from by simp; omega),
    dif_neg (show ¬ (⟨71 + q.val, h⟩ : Fin 327).val < 47 from by simp; omega),
    dif_neg (show ¬ (⟨71 + q.val, h⟩ : Fin 327).val < 55 from by simp; omega),
    dif_neg (show ¬ (⟨71 + q.val, h⟩ : Fin 327).val < 63 from by simp; omega),
    dif_neg (show ¬ (⟨71 + q.val, h⟩ : Fin 327).val < 71 from by simp)]
  simp only [e]

/-- The feature-side arrangement: the context row times row `k` of `W`, plus the bias. -/
def Gr (τ : Fin 50) (r : Fin 8192) (k : Fin 256) : EReal :=
  (∑ q : Fin 327, ctx lat rc rlc tlc lcg vcg pol pod cap τ r q * W (ix2 k q)) + b (ix1 k)

/-- With no zero divisor the two arrangements are one function. -/
theorem Gk_eq_Gr (hcap : ∀ q : Fin 32, cap (ix1 q) ≠ 0) (htlc : ∀ q : Fin 7, tlc (ix1 q) ≠ 0)
    (τ : Fin 50) (r : Fin 8192) (k : Fin 256) :
    Gk lat rc rlc tlc lcg vcg pol pod cap W b τ r k = Gr lat rc rlc tlc lcg vcg pol pod cap W b τ r k := by
  unfold Gk Gr
  rw [sum327]
  simp only [ctx_g1, ctx_g2, ctx_g3, ctx_g4, ctx_g5, ctx_g6, ctx_g7,
    div_mul_eq_mul_div _ _ _ (hcap _), div_mul_eq_mul_div _ _ _ (htlc _),
    div_mul_eq_mul_div _ _ _ eight_ne_zero]

end

end Cert.Spec

end
-- ==== Proof.PreFacts.lean ====
/-
  What the precondition says beyond finiteness, read off its printed predicate: the time step's first word is
  one of 0, …, 49, and no capacity and no long-crane target is zero.  The predicate is a conjunction whose last
  four conjuncts are these facts; only they are opened.
-/
import proofs.«402649_j67920612818961_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

variable [Cert.Pre_finite_inputs.Facts]

open Cert.Pre_finite_inputs.Facts in
/-- The last four conjuncts of the printed predicate, read at its one index. -/
theorem conj_of_pre {F : FTy → Type} [FloatOps F]
    (a0 : FVec F S8192x50x256 .f32) (a1 : FVec F S8192x32 .f32) (a2 : FVec F S8192x7 .f32) (a3 : FVec F S7 .f32)
    (a4 a5 a6 a7 : FVec F S8192x8 .f32) (a8 : FVec F S32 .f32) (a9 : FVec F S256x327 .f32) (a10 : FVec F S256 .f32)
    (a11 : IVec S8192 32)
    (h : Cert.Pre_finite_inputs.fn (F := F) a0 a1 a2 a3 a4 a5 a6 a7 a8 a9 a10 a11 = fun _ => 1#1) :
    (IntOp.cmpi .sge (shapeCast S_ (extractStridedSlice S1 ![0] a11 slices_S8192_S1_0) shapeCasts_S1_S_ ix0) 0#32 = 1#1
      ∧ IntOp.cmpi .slt (shapeCast S_ (extractStridedSlice S1 ![0] a11 slices_S8192_S1_0) shapeCasts_S1_S_ ix0) 50#32 = 1#1)
    ∧ Host.reduce IntOp.andi (cmpf .une a8 (broadcastInDim S32 ![] bcast_S_S32 (constant S_ .f32 0x00000000#32)))
        (constantI S_ 1 1#1) reducesTo_S32_S_d0 h_S_ ix0 = 1#1
    ∧ Host.reduce IntOp.andi (cmpf .une a3 (broadcastInDim S7 ![] bcast_S_S7 (constant S_ .f32 0x00000000#32)))
        (constantI S_ 1 1#1) reducesTo_S7_S_d0 h_S_ ix0 = 1#1 := by
  have h0 : IntOp.andi _ _ = 1#1 := congrFun h ix0
  obtain ⟨h65, h68⟩ := IntOp.andi_eq_one.1 h0
  clear h0
  have h65' : IntOp.andi _ _ = 1#1 := h65
  obtain ⟨h61, h64⟩ := IntOp.andi_eq_one.1 h65'
  clear h65 h65'
  have h61' : IntOp.andi _ _ = 1#1 := h61
  obtain ⟨h57, h60⟩ := IntOp.andi_eq_one.1 h61'
  clear h61 h61'
  have h57' : IntOp.andi _ _ = 1#1 := h57
  obtain ⟨h53, h56⟩ := IntOp.andi_eq_one.1 h57'
  clear h57 h57' h53
  exact ⟨⟨h56, h60⟩, h64, h68⟩

local instance : Subsingleton S_.Idx := ⟨fun a b => funext fun d => d.elim0⟩

local instance : Subsingleton S1.Idx :=
  ⟨fun a b => funext fun d => match d with | ⟨0, _⟩ => Subsingleton.elim (α := Fin 1) _ _⟩

open Cert.Pre_finite_inputs.Facts in
/-- The scalar cut out of the time-step array is its first word. -/
theorem step_word (a11 : IVec S8192 32) :
    shapeCast S_ (extractStridedSlice S1 ![0] a11 slices_S8192_S1_0) shapeCasts_S1_S_ ix0 = a11 (ix1 (0 : Fin 8192)) := by
  unfold shapeCast
  -- the one-element slice has one index, so the reshaped position is it; the slice starts at offset 0
  rw [Subsingleton.elim (Shape.reshapeEquiv shapeCasts_S1_S_ ix0) (ix1 (0 : Fin 1))]
  unfold extractStridedSlice
  refine congrArg a11 (funext fun a => Fin.ext ?_)
  match a with
  | ⟨0, _⟩ => rfl

/-- A 32-bit word that read signed is at least 0 and below 50 is one of the numbers 0, …, 49. -/
theorem word_lt_50 (w : BitVec 32) (h0 : (0#32 : BitVec 32).toInt ≤ w.toInt) (h1 : w.toInt < (50#32 : BitVec 32).toInt) :
    ∃ s : Fin 50, w = BitVec.ofNat 32 s.val := by
  have c0 : (0#32 : BitVec 32).toInt = 0 := by decide
  have c50 : (50#32 : BitVec 32).toInt = 50 := by decide
  rw [c0] at h0; rw [c50] at h1
  have hlt := w.isLt
  rw [BitVec.toInt_eq_toNat_cond] at h0 h1
  have hw : w.toNat < 50 := by
    split at h1 <;> omega
  refine ⟨⟨w.toNat, hw⟩, ?_⟩
  apply BitVec.eq_of_toNat_eq
  rw [BitVec.toNat_ofNat]
  exact (Nat.mod_eq_of_lt (by omega)).symm

/-- A scalar broadcast to any shape reads the scalar at every index. -/
theorem bcast_scalar {α : Type} {t : Shape} (dims : Fin S_.rank → Fin t.rank) (hb : S_.BroadcastsInDim t dims) (x : S_.Idx → α)
    (j : t.Idx) : broadcastInDim t dims hb x j = x ix0 := by
  unfold broadcastInDim
  exact congrArg x (Subsingleton.elim _ _)

/-- At the extended reals, "unordered or not equal to the zero constant" answering 1 says the number is not zero. -/
theorem ne_zero_of_une (x : Ideal .f32) (h : FloatOps.cmpf .une x (Ideal.ofBits .f32 0x00000000#32) = 1#1) : x ≠ 0 := by
  rw [Ideal.cmpf_def, Ideal.ofBits_zero_f32] at h
  have h' : BitVec.ofBool (decide (x ≠ 0)) = 1#1 := h
  intro hx
  rw [decide_eq_false (fun hne => hne hx)] at h'
  exact absurd h' (by decide)

/-- The first word of the time-step array is a number below 50 (read signed it is neither negative nor 50 or more). -/
theorem step_of_pre {F : FTy → Type} [FloatOps F]
    (a0 : FVec F S8192x50x256 .f32) (a1 : FVec F S8192x32 .f32) (a2 : FVec F S8192x7 .f32) (a3 : FVec F S7 .f32)
    (a4 a5 a6 a7 : FVec F S8192x8 .f32) (a8 : FVec F S32 .f32) (a9 : FVec F S256x327 .f32) (a10 : FVec F S256 .f32)
    (a11 : IVec S8192 32)
    (h : Cert.Pre_finite_inputs.fn (F := F) a0 a1 a2 a3 a4 a5 a6 a7 a8 a9 a10 a11 = fun _ => 1#1) :
    ∃ s : Fin 50, a11 (ix1 (0 : Fin 8192)) = BitVec.ofNat 32 s.val := by
  obtain ⟨⟨h56, h60⟩, -, -⟩ := conj_of_pre a0 a1 a2 a3 a4 a5 a6 a7 a8 a9 a10 a11 h
  rw [step_word] at h56 h60
  exact word_lt_50 _ (IntOp.cmpi_sge.1 h56) (IntOp.cmpi_slt.1 h60)

open Cert.Pre_finite_inputs.Facts in
/-- No capacity is zero. -/
theorem cap_ne_of_pre
    (a0 : FVec Ideal S8192x50x256 .f32) (a1 : FVec Ideal S8192x32 .f32) (a2 : FVec Ideal S8192x7 .f32) (a3 : FVec Ideal S7 .f32)
    (a4 a5 a6 a7 : FVec Ideal S8192x8 .f32) (a8 : FVec Ideal S32 .f32) (a9 : FVec Ideal S256x327 .f32) (a10 : FVec Ideal S256 .f32)
    (a11 : IVec S8192 32)
    (h : Cert.Pre_finite_inputs.fn (F := Ideal) a0 a1 a2 a3 a4 a5 a6 a7 a8 a9 a10 a11 = fun _ => 1#1) :
    ∀ q : Fin 32, a8 (ix1 q) ≠ 0 := by
  intro q
  obtain ⟨-, h64, -⟩ := conj_of_pre a0 a1 a2 a3 a4 a5 a6 a7 a8 a9 a10 a11 h
  have hq := Host.reduce_andi_all _ _ reducesTo_S32_S_d0 h_S_ ix0 h64 (ix1 q)
  rw [cmpf_apply, bcast_scalar, constant_apply] at hq
  exact ne_zero_of_une _ hq

open Cert.Pre_finite_inputs.Facts in
/-- No long-crane target is zero. -/
theorem tlc_ne_of_pre
    (a0 : FVec Ideal S8192x50x256 .f32) (a1 : FVec Ideal S8192x32 .f32) (a2 : FVec Ideal S8192x7 .f32) (a3 : FVec Ideal S7 .f32)
    (a4 a5 a6 a7 : FVec Ideal S8192x8 .f32) (a8 : FVec Ideal S32 .f32) (a9 : FVec Ideal S256x327 .f32) (a10 : FVec Ideal S256 .f32)
    (a11 : IVec S8192 32)
    (h : Cert.Pre_finite_inputs.fn (F := Ideal) a0 a1 a2 a3 a4 a5 a6 a7 a8 a9 a10 a11 = fun _ => 1#1) :
    ∀ q : Fin 7, a3 (ix1 q) ≠ 0 := by
  intro q
  obtain ⟨-, -, h68⟩ := conj_of_pre a0 a1 a2 a3 a4 a5 a6 a7 a8 a9 a10 a11 h
  have hq := Host.reduce_andi_all _ _ reducesTo_S7_S_d0 h_S_ ix0 h68 (ix1 q)
  rw [cmpf_apply, bcast_scalar, constant_apply] at hq
  exact ne_zero_of_une _ hq

end Cert.PreFacts

end
-- ==== Proof.TblK.lean ====
/-
  The one word of the prefetched table — the time step's first word clamped into [0, 49] by the host — and the
  side condition the kernel body assumes of it: the 2048 × 1 × 256 slice that the body copies out of the
  sequence array, starting at row 2048·i of the batch and at the word's row of the sequence axis, lies inside
  the 8192 × 50 × 256 array at each of the four grid points.  When the time step's first word is the number
  `s < 50` the clamp leaves it alone and the word is `s`.
-/
import proofs.«402649_j67920612818961_3_alg».proof.Proof.Gen.Kernel.Frame
import Idealize.ShloMosaic.Lib.ValueIdx
import Idealize.ShloMosaic.Lib.StableHlo.Run
import Idealize.ShloMosaic.Lib.Pipeline.Value

noncomputable section

namespace Cert.Kernel.Tbl

open Cert.Kernel Cert.Kernel.Gen Idealize.ShloMosaic Idealize.ShloMosaic.ValueIdx Idealize.SL.Sem
open Idealize.ShloMosaic.StableHlo

variable {F : FTy → Type} [FloatOps F]

/-- The word the body loads from the table, as the generated frame spells it. -/
abbrev word (m : (ℓ : Loc nD τ sig) → Buf (Elt F) ℓ) : BitVec 32 :=
  tbM0_0.view.readAt (Elt F) (Rect.unit (s := S1) ![0] S1.size inb_S1_S1_0).toLoadRect (tbl m 0) (Shape.Idx.first (numel1_S1.symm ▸ Nat.one_pos))

/-- No index map reads the table, so the pipeline's side condition on it is empty. -/
theorem ok (m : (ℓ : Loc nD τ sig) → Buf (Elt F) ℓ) : Ok m := trivial

/-- The table is the host's clamp of the time step's first word, broadcast to the table's one entry: of the
    host operations before the region only the slice, the reshape, the two constants, the clamp's maximum and
    minimum and the broadcast write the buffers the table depends on. -/
theorem tbl_eq (m : (ℓ : Loc nD τ sig) → Buf (Elt F) ℓ) :
    (tbl m 0 : IVec S1 32) = broadcastInDim S1 ![] bcast_S_S1
      (minsi (constantI S_ 32 49#32)
        (maxsi (constantI S_ 32 0#32)
          (shapeCast S_ (extractStridedSlice S1 ![0] (m ((0 : Dev nD).tc.loc main_arg11) : IVec S8192 32) slices_S8192_S1_0) shapeCasts_S1_S_))) := by
  unfold tbl
  show V m 0 main_v3 = _
  dsimp only [V]
  simp only [hostOps0, hostOps0_1, hostOps0_2, List.flatten_cons, List.flatten_nil, List.append_nil, List.cons_append, List.nil_append]
  after_results
  rfl

/-- The load through the whole table at its first coordinate reads the contents' one entry. -/
theorem word_at (f : IVec S1 32) :
    tbM0_0.view.readAt (Elt F) (Rect.unit (s := S1) ![0] S1.size inb_S1_S1_0).toLoadRect f (Shape.Idx.first (numel1_S1.symm ▸ Nat.one_pos)) = f (ix1 0) := by
  change f _ = f _
  exact congrArg f ((eq_ix1 _).trans (congrArg ix1 (Subsingleton.elim _ _)))

/-- The one entry of the broadcast clamp of the first word of `a` is the clamp of `a 0`: min(49, max(0, a 0)). -/
theorem entry_eq (a : IVec S8192 32) :
    broadcastInDim S1 ![] bcast_S_S1
      (minsi (constantI S_ 32 49#32)
        (maxsi (constantI S_ 32 0#32)
          (shapeCast S_ (extractStridedSlice S1 ![0] a slices_S8192_S1_0) shapeCasts_S1_S_))) (ix1 0)
      = IntOp.minsi 49#32 (IntOp.maxsi 0#32 (a (ix1 0))) := by
  rw [broadcastInDim_apply (![] : Fin 0 → Fin S1.rank) bcast_S_S1 _ (ix1 0) ValueIdx.ix0 (fun a => a.elim0)]
  show IntOp.minsi 49#32 (IntOp.maxsi 0#32 (shapeCast S_ _ shapeCasts_S1_S_ ValueIdx.ix0)) = _
  have h1 : ((S1.rowMajor (ix1 (0 : Fin 1))).val) = (S_.rowMajor ValueIdx.ix0).val := by
    rw [Shape.rowMajor_val_one]
    have h0 : (S_.rowMajor ValueIdx.ix0).val < 1 := lt_of_lt_of_eq (S_.rowMajor ValueIdx.ix0).isLt rfl
    exact (Nat.lt_one_iff.mp h0).symm
  rw [shapeCast_apply _ shapeCasts_S1_S_ ValueIdx.ix0 (ix1 (0 : Fin 1)) h1]
  rw [extractStridedSlice_apply ![0] a slices_S8192_S1_0 (ix1 (0 : Fin 1)) (ix1 (0 : Fin 8192)) (fun d => by
    match d with | ⟨0, _⟩ => rfl)]

/-- A number below 50 is its own clamp into [0, 49], as signed 32-bit words. -/
theorem clamp_id : ∀ s : Fin 50, IntOp.minsi 49#32 (IntOp.maxsi 0#32 (BitVec.ofNat 32 s.val)) = BitVec.ofNat 32 s.val := by
  decide

/-- With the time step's first word the number `s < 50`, the table's word is `s`. -/
theorem word_eq (m : (ℓ : Loc nD τ sig) → Buf (Elt F) ℓ) (s : Fin 50)
    (hs : ∀ c : Dev nD, (m ((c.tc : Thread nD τ).loc main_arg11) : IVec S8192 32) (ix1 (0 : Fin 8192)) = BitVec.ofNat 32 s.val) :
    word m = BitVec.ofNat 32 s.val := by
  refine (word_at (tbl m 0)).trans ?_
  rw [tbl_eq m, entry_eq, hs 0]
  exact clamp_id s

/-- With the word a number below 50, the slice of 2048 rows from row 2048·i, one row of the sequence axis at the
    word, and all 256 columns lies inside the 8192 × 50 × 256 array, at each of the four grid points. -/
theorem chk_closed : ∀ (t : Fin grid0.N) (s : Fin 50), k0_chk1 (grid0.coords t) (BitVec.ofNat 32 s.val) := by
  decide

/-- The slice the body copies lies inside the sequence array at every grid point. -/
theorem hyps (m : (ℓ : Loc nD τ sig) → Buf (Elt F) ℓ) (s : Fin 50)
    (hs : ∀ c : Dev nD, (m ((c.tc : Thread nD τ).loc main_arg11) : IVec S8192 32) (ix1 (0 : Fin 8192)) = BitVec.ofNat 32 s.val) :
    Hyps m (ok m) := by
  refine Hyps.of fun c t => ?_
  show k0_chk1 (grid0.coords t) (word m)
  rw [word_eq m s hs]
  exact chk_closed t s

end Cert.Kernel.Tbl

end
-- ==== Proof.TblKI.lean ====
/-
  The one word of the prefetched table — the time step's first word clamped into [0, 49] by the host — and the
  side condition the kernel body assumes of it: the 2048 × 1 × 256 slice that the body copies out of the
  sequence array, starting at row 2048·i of the batch and at the word's row of the sequence axis, lies inside
  the 8192 × 50 × 256 array at each of the four grid points.  When the time step's first word is the number
  `s < 50` the clamp leaves it alone and the word is `s`.
-/
import proofs.«402649_j67920612818961_3_alg».proof.Proof.Gen.KernelIdeal.Frame
import Idealize.ShloMosaic.Lib.ValueIdx
import Idealize.ShloMosaic.Lib.StableHlo.Run
import Idealize.ShloMosaic.Lib.Pipeline.Value

noncomputable section

namespace Cert.KernelIdeal.Tbl

open Cert.KernelIdeal Cert.KernelIdeal.Gen Idealize.ShloMosaic Idealize.ShloMosaic.ValueIdx Idealize.SL.Sem
open Idealize.ShloMosaic.StableHlo

variable {F : FTy → Type} [FloatOps F]

/-- The word the body loads from the table, as the generated frame spells it. -/
abbrev word (m : (ℓ : Loc nD τ sig) → Buf (Elt F) ℓ) : BitVec 32 :=
  tbM0_0.view.readAt (Elt F) (Rect.unit (s := S1) ![0] S1.size inb_S1_S1_0).toLoadRect (tbl m 0) (Shape.Idx.first (numel1_S1.symm ▸ Nat.one_pos))

/-- No index map reads the table, so the pipeline's side condition on it is empty. -/
theorem ok (m : (ℓ : Loc nD τ sig) → Buf (Elt F) ℓ) : Ok m := trivial

/-- The table is the host's clamp of the time step's first word, broadcast to the table's one entry: of the
    host operations before the region only the slice, the reshape, the two constants, the clamp's maximum and
    minimum and the broadcast write the buffers the table depends on. -/
theorem tbl_eq (m : (ℓ : Loc nD τ sig) → Buf (Elt F) ℓ) :
    (tbl m 0 : IVec S1 32) = broadcastInDim S1 ![] bcast_S_S1
      (minsi (constantI S_ 32 49#32)
        (maxsi (constantI S_ 32 0#32)
          (shapeCast S_ (extractStridedSlice S1 ![0] (m ((0 : Dev nD).tc.loc main_arg11) : IVec S8192 32) slices_S8192_S1_0) shapeCasts_S1_S_))) := by
  unfold tbl
  show V m 0 main_v3 = _
  dsimp only [V]
  simp only [hostOps0, hostOps0_1, hostOps0_2, List.flatten_cons, List.flatten_nil, List.append_nil, List.cons_append, List.nil_append]
  after_results
  rfl

/-- The load through the whole table at its first coordinate reads the contents' one entry. -/
theorem word_at (f : IVec S1 32) :
    tbM0_0.view.readAt (Elt F) (Rect.unit (s := S1) ![0] S1.size inb_S1_S1_0).toLoadRect f (Shape.Idx.first (numel1_S1.symm ▸ Nat.one_pos)) = f (ix1 0) := by
  change f _ = f _
  exact congrArg f ((eq_ix1 _).trans (congrArg ix1 (Subsingleton.elim _ _)))

/-- The one entry of the broadcast clamp of the first word of `a` is the clamp of `a 0`: min(49, max(0, a 0)). -/
theorem entry_eq (a : IVec S8192 32) :
    broadcastInDim S1 ![] bcast_S_S1
      (minsi (constantI S_ 32 49#32)
        (maxsi (constantI S_ 32 0#32)
          (shapeCast S_ (extractStridedSlice S1 ![0] a slices_S8192_S1_0) shapeCasts_S1_S_))) (ix1 0)
      = IntOp.minsi 49#32 (IntOp.maxsi 0#32 (a (ix1 0))) := by
  rw [broadcastInDim_apply (![] : Fin 0 → Fin S1.rank) bcast_S_S1 _ (ix1 0) ValueIdx.ix0 (fun a => a.elim0)]
  show IntOp.minsi 49#32 (IntOp.maxsi 0#32 (shapeCast S_ _ shapeCasts_S1_S_ ValueIdx.ix0)) = _
  have h1 : ((S1.rowMajor (ix1 (0 : Fin 1))).val) = (S_.rowMajor ValueIdx.ix0).val := by
    rw [Shape.rowMajor_val_one]
    have h0 : (S_.rowMajor ValueIdx.ix0).val < 1 := lt_of_lt_of_eq (S_.rowMajor ValueIdx.ix0).isLt rfl
    exact (Nat.lt_one_iff.mp h0).symm
  rw [shapeCast_apply _ shapeCasts_S1_S_ ValueIdx.ix0 (ix1 (0 : Fin 1)) h1]
  rw [extractStridedSlice_apply ![0] a slices_S8192_S1_0 (ix1 (0 : Fin 1)) (ix1 (0 : Fin 8192)) (fun d => by
    match d with | ⟨0, _⟩ => rfl)]

/-- A number below 50 is its own clamp into [0, 49], as signed 32-bit words. -/
theorem clamp_id : ∀ s : Fin 50, IntOp.minsi 49#32 (IntOp.maxsi 0#32 (BitVec.ofNat 32 s.val)) = BitVec.ofNat 32 s.val := by
  decide

/-- With the time step's first word the number `s < 50`, the table's word is `s`. -/
theorem word_eq (m : (ℓ : Loc nD τ sig) → Buf (Elt F) ℓ) (s : Fin 50)
    (hs : ∀ c : Dev nD, (m ((c.tc : Thread nD τ).loc main_arg11) : IVec S8192 32) (ix1 (0 : Fin 8192)) = BitVec.ofNat 32 s.val) :
    word m = BitVec.ofNat 32 s.val := by
  refine (word_at (tbl m 0)).trans ?_
  rw [tbl_eq m, entry_eq, hs 0]
  exact clamp_id s

/-- With the word a number below 50, the slice of 2048 rows from row 2048·i, one row of the sequence axis at the
    word, and all 256 columns lies inside the 8192 × 50 × 256 array, at each of the four grid points. -/
theorem chk_closed : ∀ (t : Fin grid0.N) (s : Fin 50), k0_chk1 (grid0.coords t) (BitVec.ofNat 32 s.val) := by
  decide

/-- The slice the body copies lies inside the sequence array at every grid point. -/
theorem hyps (m : (ℓ : Loc nD τ sig) → Buf (Elt F) ℓ) (s : Fin 50)
    (hs : ∀ c : Dev nD, (m ((c.tc : Thread nD τ).loc main_arg11) : IVec S8192 32) (ix1 (0 : Fin 8192)) = BitVec.ofNat 32 s.val) :
    Hyps m (ok m) := by
  refine Hyps.of fun c t => ?_
  show k0_chk1 (grid0.coords t) (word m)
  rw [word_eq m s hs]
  exact chk_closed t s

end Cert.KernelIdeal.Tbl

end
-- ==== Proof.KerPiece.lean ====
/-
  What one grid point's body stores into the output block, entry by entry, at the ideal values.

  The body adds seven matrix products and a bias row.  Entry `(p, k)` of the stored block is
  `Σ_q x0[p,q]·x6[q,k] + Σ_q x1[p,q]·x7[q,k] + Σ_q x2[p,q]·x8[q,k] + Σ_q x3[p,q]·x9[q,k] + Σ_q x4[p,q]·x10[q,k]
   + Σ_q x5[p,q]·x11[q,k] + Σ_e L[p,e]·x12[e,k] + x13[k]`, added from the left, where `x0 … x13` are the point's
  input blocks and `L` is what the body's own copy brought into the scratch: row `2048·i + p` of the sequence
  array at the sequence position the table's word names.  A change of float format is the identity here, a
  product into a zero accumulator is the plain sum, and the one store covers the block whole.
-/
import proofs.«402649_j67920612818961_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384
noncomputable section

namespace Cert.KernelIdeal.KerPiece

open Cert.KernelIdeal Cert.KernelIdeal.Gen Idealize.ShloMosaic Idealize.ShloMosaic.TcCoe Idealize.ShloMosaic.ValueIdx Idealize.SL.Sem Idealize.ShloMosaic.Tactic

/-- The sequence array the body copies from, at its literal type. -/
abbrev seqArr (c : Dev nD) (fh0 : HbBuf0 (F := Ideal) c hbM0_0) : S8192x50x256.Idx → EReal := fh0

variable {F : FTy → Type} [FloatOps F]

/-- The two zero offsets of a whole rank-2 block. -/
theorem hz2 : (![0, 0] : Fin 2 → Nat) = fun _ => 0 := funext fun a => by fin_cases a <;> rfl
/-- The zero offset of a whole rank-1 block. -/
theorem hz1 : (![0] : Fin 1 → Nat) = fun _ => 0 := funext fun a => by fin_cases a <;> rfl

/-- A load of a whole buffer after one write of the whole buffer reads what was written. -/
theorem readCov_whole_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl _ w

/-- The rows the body's own copy brings into the scratch: the sequence array read through the
    2048 × 1 × 256 window at the body's offsets, the unit axis dropped. -/
def dmaRows (c : Dev nD) (i : grid0.Coords) (xt0 : TbBuf0 (F := F) c tbM0_0) (fh0 : HbBuf0 (F := F) c hbM0_0)
    (k0_hw1 : k0_chk1 i (tbM0_0.view.readAt (Elt F) (Rect.unit (s := S1) ![0] S1.size inb_S1_S1_0).toLoadRect xt0 (Shape.Idx.first (numel1_S1.symm ▸ Nat.one_pos)))) : Vec F S2048x256 .f32 :=
  View.read (Elt F) (((Memref.whole main_arg0).slice (Rect.unit (s := S8192x50x256) (k0_off1 i (tbM0_0.view.readAt (Elt F) (Rect.unit (s := S1) ![0] S1.size inb_S1_S1_0).toLoadRect xt0 (Shape.Idx.first (numel1_S1.symm ▸ Nat.one_pos)))) S2048x1x256.size (k0_off1_inb i (tbM0_0.view.readAt (Elt F) (Rect.unit (s := S1) ![0] S1.size inb_S1_S1_0).toLoadRect xt0 (Shape.Idx.first (numel1_S1.symm ▸ Nat.one_pos))) k0_hw1)) (fun _ => rfl)).squeeze S2048x256 squeezes_S2048x1x256_S2048x256).view fh0

/-- What the one covering store leaves in the output block: the body's arithmetic over the point's input
    blocks and the copied rows. Each load of a whole input buffer reads the buffer's contents, the load of the
    scratch after the copy reads what the copy wrote, and the one store covers the block. -/
theorem piece (c : Dev nD) (i : grid0.Coords) (arg3 : Memref sig .tc .vmem S2048x32 .f32) (harg3 : arg3.IsWhole) (arg4 : Memref sig .tc .vmem S2048x7 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x8 .f32) (harg7 : arg7.IsWhole) (arg8 : Memref sig .tc .vmem S2048x8 .f32) (harg8 : arg8.IsWhole) (arg9 : Memref sig .tc .vmem S32x256 .bf16) (harg9 : arg9.IsWhole) (arg10 : Memref sig .tc .vmem S7x256 .bf16) (harg10 : arg10.IsWhole) (arg11 : Memref sig .tc .vmem S8x256 .bf16) (harg11 : arg11.IsWhole) (arg12 : Memref sig .tc .vmem S8x256 .bf16) (harg12 : arg12.IsWhole) (arg13 : Memref sig .tc .vmem S8x256 .bf16) (harg13 : arg13.IsWhole) (arg14 : Memref sig .tc .vmem S8x256 .bf16) (harg14 : arg14.IsWhole) (arg15 : Memref sig .tc .vmem S256x256 .bf16) (harg15 : arg15.IsWhole) (arg16 : Memref sig .tc .vmem S256 .f32) (harg16 : arg16.IsWhole) (arg17 : Memref sig .tc .vmem S2048x256 .f32) (harg17 : arg17.IsWhole) (arg18 : Memref sig .tc .vmem S2048x256 .f32) (harg18 : arg18.IsWhole)
    (x0 : Vec F S2048x32 .f32) (x1 : Vec F S2048x7 .f32) (x2 : Vec F S2048x8 .f32) (x3 : Vec F S2048x8 .f32) (x4 : Vec F S2048x8 .f32) (x5 : Vec F S2048x8 .f32) (x6 : Vec F S32x256 .bf16) (x7 : Vec F S7x256 .bf16) (x8 : Vec F S8x256 .bf16) (x9 : Vec F S8x256 .bf16) (x10 : Vec F S8x256 .bf16) (x11 : Vec F S8x256 .bf16) (x12 : Vec F S256x256 .bf16) (x13 : Vec F S256 .f32) (xt0 : TbBuf0 (F := F) c tbM0_0) (fh0 : HbBuf0 (F := F) c hbM0_0) (k0_hw1 : k0_chk1 i (tbM0_0.view.readAt (Elt F) (Rect.unit (s := S1) ![0] S1.size inb_S1_S1_0).toLoadRect xt0 (Shape.Idx.first (numel1_S1.symm ▸ Nat.one_pos)))) :
    out0_A_14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 xt0 fh0 k0_hw1 = k0_pay1 (k0_pay2 x0 x6 x1 x7 x2 x8 x3 x9) (k0_pay3 x4) x10 x5 x11 (dmaRows c i xt0 fh0 k0_hw1) x12 x13 := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 xt0 fh0 k0_hw1)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S2048x32) hz2, View.ld_unit_zero (S := S2048x7) hz2, View.ld_unit_zero (S := S2048x8) hz2, View.ld_unit_zero (S := S32x256) hz2, View.ld_unit_zero (S := S7x256) hz2, View.ld_unit_zero (S := S8x256) hz2, View.ld_unit_zero (S := S256x256) hz2, View.ld_unit_zero (S := S256) hz1,
    readCov_whole_unit_zero (S := S2048x256) _ hz2]
  rfl

/-- The window's first offset: grid point `n` starts at batch row `2048·n` (no wrap: `n < 4`). -/
theorem off_row (n : Nat) (h : n < 4) : (Scalar.muli (BitVec.ofNat 32 n) 2048#32).toNat = 2048 * n := by
  interval_cases n <;> rfl

/-- Index `(p, e)` of a 2048 × 256 array sits at the row-major position of `(p, 0, e)` in 2048 × 1 × 256. -/
theorem reshape_row (h : (⟨2, ![2048, 256]⟩ : Shape).numel = (⟨3, ![2048, 1, 256]⟩ : Shape).numel) (p : Fin 2048) (e : Fin 256) :
    Shape.reshapeEquiv h (ix2 p e) = ix3 p (0 : Fin 1) e :=
  Shape.reshapeEquiv_eq_of_rowMajor h (by
    rw [Shape.rowMajor_val_three, Shape.rowMajor_val_two]
    show ((p.val * 1 + 0) * 256 + e.val) = p.val * 256 + e.val
    omega)

/-- Entry `(p, e)` of the copied rows is the sequence array at batch row `2048·i + p`, sequence position the
    table's word, column `e`. -/
theorem dmaRows_apply (c : Dev nD) (i : grid0.Coords) (xt0 : TbBuf0 (F := Ideal) c tbM0_0) (fh0 : HbBuf0 (F := Ideal) c hbM0_0)
    (k0_hw1 : k0_chk1 i (tbM0_0.view.readAt (Elt Ideal) (Rect.unit (s := S1) ![0] S1.size inb_S1_S1_0).toLoadRect xt0 (Shape.Idx.first (numel1_S1.symm ▸ Nat.one_pos)))) (p : Fin 2048) (e : Fin 256)
    (hrow : 2048 * (i 0).val + p.val < 8192)
    (hw : ((tbM0_0.view.readAt (Elt Ideal) (Rect.unit (s := S1) ![0] S1.size inb_S1_S1_0).toLoadRect xt0 (Shape.Idx.first (numel1_S1.symm ▸ Nat.one_pos))) : BitVec 32).toNat < 50) :
    (dmaRows (F := Ideal) c i xt0 fh0 k0_hw1 : S2048x256.Idx → EReal) (ix2 p e)
      = seqArr c fh0 (ix3 ⟨2048 * (i 0).val + p.val, hrow⟩ ⟨((tbM0_0.view.readAt (Elt Ideal) (Rect.unit (s := S1) ![0] S1.size inb_S1_S1_0).toLoadRect xt0 (Shape.Idx.first (numel1_S1.symm ▸ Nat.one_pos))) : BitVec 32).toNat, hw⟩ e) := by
  have hi : (i 0).val < 4 := (i 0).isLt
  unfold dmaRows
  show seqArr c fh0 ((Rect.unit (s := S8192x50x256) (k0_off1 i (tbM0_0.view.readAt (Elt Ideal) (Rect.unit (s := S1) ![0] S1.size inb_S1_S1_0).toLoadRect xt0 (Shape.Idx.first (numel1_S1.symm ▸ Nat.one_pos)))) S2048x1x256.size (k0_off1_inb i (tbM0_0.view.readAt (Elt Ideal) (Rect.unit (s := S1) ![0] S1.size inb_S1_S1_0).toLoadRect xt0 (Shape.Idx.first (numel1_S1.symm ▸ Nat.one_pos))) k0_hw1)).emb (Shape.reshapeEquiv squeezes_S2048x1x256_S2048x256.numel_eq (ix2 p e))) = _
  rw [reshape_row]
  refine congrArg (seqArr c fh0) (funext fun a => Fin.ext ?_)
  match a with
  | ⟨0, _⟩ =>
    show (Scalar.muli (BitVec.ofNat 32 (i 0).val) 2048#32).toNat + 1 * p.val = 2048 * (i 0).val + p.val
    rw [off_row _ hi]; omega
  | ⟨1, _⟩ =>
    show ((tbM0_0.view.readAt (Elt Ideal) (Rect.unit (s := S1) ![0] S1.size inb_S1_S1_0).toLoadRect xt0 (Shape.Idx.first (numel1_S1.symm ▸ Nat.one_pos))) : BitVec 32).toNat + 1 * 0 = ((tbM0_0.view.readAt (Elt Ideal) (Rect.unit (s := S1) ![0] S1.size inb_S1_S1_0).toLoadRect xt0 (Shape.Idx.first (numel1_S1.symm ▸ Nat.one_pos))) : BitVec 32).toNat
    omega
  | ⟨2, _⟩ =>
    show 0 + 1 * e.val = e.val
    omega

/-- A product of an `m × K` by a `K × n` matrix into the zero accumulator, read at `(a, b)`, is the sum over
    the contracted coordinate of the products of the entries. At the ideal values. -/
theorem matmul_zero_apply {m K n : Nat} {φ₁ φ₂ : FTy}
    (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂)
    (a : Fin m) (b : Fin n) :
    matmul (F := Ideal) (⟨[1], [0], [0], [1], [], [], w⟩ : DotDims ⟨2, ![m, K]⟩ ⟨2, ![K, n]⟩ ⟨2, ![m, n]⟩) prec A B
        (constant (F := Ideal) ⟨2, ![m, n]⟩ .f32 0x00000000#32) (ix2 a b)
      = ∑ c : Fin K, A (ix2 a c) * B (ix2 c b) := by
  show FloatOps.matmul _ prec A B (constant _ .f32 0x00000000#32) (ix2 a b) = _
  rw [Ideal.matmul_constant_zero_apply,
    ← Equiv.sum_comp (contrEquiv1 (⟨[1], [0], [0], [1], [], [], w⟩ : DotDims ⟨2, ![m, K]⟩ ⟨2, ![K, n]⟩ ⟨2, ![m, n]⟩) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The 2048 × 32 by 32 × 256 product at `(p, k)`: the change of float format and the cast to the same shape are the identity. -/
theorem mm32 (A : FVec Ideal S2048x32 .f32) (B : FVec Ideal S32x256 .bf16) (p : Fin 2048) (k : Fin 256) :
    (matmul (F := Ideal) dot_S2048x32_S32x256_S2048x256_1_0_0_1_n_n none (truncf .bf16 A bitsLt_bf16_f32)
      (shapeCast S32x256 B shapeCasts_S32x256_S32x256) (constant (F := Ideal) S2048x256 .f32 0x00000000#32) : S2048x256.Idx → EReal) (ix2 p k)
      = ∑ q : Fin 32, (A (ix2 p q) : EReal) * (B (ix2 q k) : EReal) := by
  rw [shapeCast_self]
  exact matmul_zero_apply dot_S2048x32_S32x256_S2048x256_1_0_0_1_n_n_wf none (truncf .bf16 A bitsLt_bf16_f32) B p k

/-- The 2048 × 7 by 7 × 256 product at `(p, k)`. -/
theorem mm7 (A : FVec Ideal S2048x7 .f32) (B : FVec Ideal S7x256 .bf16) (p : Fin 2048) (k : Fin 256) :
    (matmul (F := Ideal) dot_S2048x7_S7x256_S2048x256_1_0_0_1_n_n none (truncf .bf16 A bitsLt_bf16_f32)
      (shapeCast S7x256 B shapeCasts_S7x256_S7x256) (constant (F := Ideal) S2048x256 .f32 0x00000000#32) : S2048x256.Idx → EReal) (ix2 p k)
      = ∑ q : Fin 7, (A (ix2 p q) : EReal) * (B (ix2 q k) : EReal) := by
  rw [shapeCast_self]
  exact matmul_zero_apply dot_S2048x7_S7x256_S2048x256_1_0_0_1_n_n_wf none (truncf .bf16 A bitsLt_bf16_f32) B p k

/-- The 2048 × 8 by 8 × 256 product at `(p, k)`. -/
theorem mm8 (A : FVec Ideal S2048x8 .f32) (B : FVec Ideal S8x256 .bf16) (p : Fin 2048) (k : Fin 256) :
    (matmul (F := Ideal) dot_S2048x8_S8x256_S2048x256_1_0_0_1_n_n none (truncf .bf16 A bitsLt_bf16_f32)
      (shapeCast S8x256 B shapeCasts_S8x256_S8x256) (constant (F := Ideal) S2048x256 .f32 0x00000000#32) : S2048x256.Idx → EReal) (ix2 p k)
      = ∑ q : Fin 8, (A (ix2 p q) : EReal) * (B (ix2 q k) : EReal) := by
  rw [shapeCast_self]
  exact matmul_zero_apply dot_S2048x8_S8x256_S2048x256_1_0_0_1_n_n_wf none (truncf .bf16 A bitsLt_bf16_f32) B p k

/-- The 2048 × 256 by 256 × 256 product at `(p, k)`. -/
theorem mm256 (A : FVec Ideal S2048x256 .f32) (B : FVec Ideal S256x256 .bf16) (p : Fin 2048) (k : Fin 256) :
    (matmul (F := Ideal) dot_S2048x256_S256x256_S2048x256_1_0_0_1_n_n none (truncf .bf16 A bitsLt_bf16_f32)
      (shapeCast S256x256 B shapeCasts_S256x256_S256x256) (constant (F := Ideal) S2048x256 .f32 0x00000000#32) : S2048x256.Idx → EReal) (ix2 p k)
      = ∑ q : Fin 256, (A (ix2 p q) : EReal) * (B (ix2 q k) : EReal) := by
  rw [shapeCast_self]
  exact matmul_zero_apply dot_S2048x256_S256x256_S2048x256_1_0_0_1_n_n_wf none (truncf .bf16 A bitsLt_bf16_f32) B p k

/-- The bias row, given a leading unit axis and repeated down the 2048 rows, read at `(p, k)`, is the bias at `k`. -/
theorem bias_apply (b : Vec Ideal S256 .f32) (p : Fin 2048) (k : Fin 256) :
    (broadcastTo S2048x256 (shapeCast S1x256 b shapeCasts_S256_S1x256) broadcasts_S1x256_S2048x256 : S2048x256.Idx → EReal) (ix2 p k)
      = (b (ix1 k) : EReal) :=
  (broadcastTo_1b_ab_apply _ broadcasts_S1x256_S2048x256 p k).trans
    ((shapeCast_addUnit_apply ![256] b shapeCasts_S256_S1x256 (ix2 (0 : Fin 1) k)).trans
      (congrArg b (funext fun a => by match a with | ⟨0, _⟩ => rfl)))

/-- The stored value at `(p, k)`: the seven products and the bias, added from the left. -/
theorem pay_apply (x0 : Vec Ideal S2048x32 .f32) (x1 : Vec Ideal S2048x7 .f32) (x2 : Vec Ideal S2048x8 .f32) (x3 : Vec Ideal S2048x8 .f32) (x4 : Vec Ideal S2048x8 .f32) (x5 : Vec Ideal S2048x8 .f32) (x6 : Vec Ideal S32x256 .bf16) (x7 : Vec Ideal S7x256 .bf16) (x8 : Vec Ideal S8x256 .bf16) (x9 : Vec Ideal S8x256 .bf16) (x10 : Vec Ideal S8x256 .bf16) (x11 : Vec Ideal S8x256 .bf16) (x12 : Vec Ideal S256x256 .bf16) (x13 : Vec Ideal S256 .f32)
    (L : Vec Ideal S2048x256 .f32) (p : Fin 2048) (k : Fin 256) :
    (k0_pay1 (F := Ideal) (k0_pay2 x0 x6 x1 x7 x2 x8 x3 x9) (k0_pay3 x4) x10 x5 x11 L x12 x13 : S2048x256.Idx → EReal) (ix2 p k)
      = (((((((∑ q : Fin 32, (x0 (ix2 p q) : EReal) * (x6 (ix2 q k) : EReal))
          + ∑ q : Fin 7, (x1 (ix2 p q) : EReal) * (x7 (ix2 q k) : EReal))
          + ∑ q : Fin 8, (x2 (ix2 p q) : EReal) * (x8 (ix2 q k) : EReal))
          + ∑ q : Fin 8, (x3 (ix2 p q) : EReal) * (x9 (ix2 q k) : EReal))
          + ∑ q : Fin 8, (x4 (ix2 p q) : EReal) * (x10 (ix2 q k) : EReal))
          + ∑ q : Fin 8, (x5 (ix2 p q) : EReal) * (x11 (ix2 q k) : EReal))
          + ∑ e : Fin 256, (L (ix2 p e) : EReal) * (x12 (ix2 e k) : EReal))
        + (x13 (ix1 k) : EReal) := by
  unfold k0_pay1 k0_pay2 k0_pay3
  dsimp only
  exact congrArg₂ (· + ·) (congrArg₂ (· + ·) (congrArg₂ (· + ·) (congrArg₂ (· + ·) (congrArg₂ (· + ·) (congrArg₂ (· + ·)
    (congrArg₂ (· + ·) (mm32 x0 x6 p k) (mm7 x1 x7 p k)) (mm8 x2 x8 p k)) (mm8 x3 x9 p k)) (mm8 x4 x10 p k)) (mm8 x5 x11 p k))
    (mm256 L x12 p k)) (bias_apply x13 p k)

/-- Entry `(p, k)` of the block a grid point stores: the seven partial products and the bias, added from the left;
    the last product is over the rows the body's own copy reads from the sequence array `fh0`, at batch row
    `2048·i + p` and at the sequence position `w` the table's word names. -/
theorem out_apply (c : Dev nD) (i : grid0.Coords) (arg3 : Memref sig .tc .vmem S2048x32 .f32) (harg3 : arg3.IsWhole) (arg4 : Memref sig .tc .vmem S2048x7 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x8 .f32) (harg7 : arg7.IsWhole) (arg8 : Memref sig .tc .vmem S2048x8 .f32) (harg8 : arg8.IsWhole) (arg9 : Memref sig .tc .vmem S32x256 .bf16) (harg9 : arg9.IsWhole) (arg10 : Memref sig .tc .vmem S7x256 .bf16) (harg10 : arg10.IsWhole) (arg11 : Memref sig .tc .vmem S8x256 .bf16) (harg11 : arg11.IsWhole) (arg12 : Memref sig .tc .vmem S8x256 .bf16) (harg12 : arg12.IsWhole) (arg13 : Memref sig .tc .vmem S8x256 .bf16) (harg13 : arg13.IsWhole) (arg14 : Memref sig .tc .vmem S8x256 .bf16) (harg14 : arg14.IsWhole) (arg15 : Memref sig .tc .vmem S256x256 .bf16) (harg15 : arg15.IsWhole) (arg16 : Memref sig .tc .vmem S256 .f32) (harg16 : arg16.IsWhole) (arg17 : Memref sig .tc .vmem S2048x256 .f32) (harg17 : arg17.IsWhole) (arg18 : Memref sig .tc .vmem S2048x256 .f32) (harg18 : arg18.IsWhole)
    (x0 : Vec Ideal S2048x32 .f32) (x1 : Vec Ideal S2048x7 .f32) (x2 : Vec Ideal S2048x8 .f32) (x3 : Vec Ideal S2048x8 .f32) (x4 : Vec Ideal S2048x8 .f32) (x5 : Vec Ideal S2048x8 .f32) (x6 : Vec Ideal S32x256 .bf16) (x7 : Vec Ideal S7x256 .bf16) (x8 : Vec Ideal S8x256 .bf16) (x9 : Vec Ideal S8x256 .bf16) (x10 : Vec Ideal S8x256 .bf16) (x11 : Vec Ideal S8x256 .bf16) (x12 : Vec Ideal S256x256 .bf16) (x13 : Vec Ideal S256 .f32) (xt0 : TbBuf0 (F := Ideal) c tbM0_0) (fh0 : HbBuf0 (F := Ideal) c hbM0_0) (k0_hw1 : k0_chk1 i (tbM0_0.view.readAt (Elt Ideal) (Rect.unit (s := S1) ![0] S1.size inb_S1_S1_0).toLoadRect xt0 (Shape.Idx.first (numel1_S1.symm ▸ Nat.one_pos))))
    (p : Fin 2048) (k : Fin 256)
    (hrow : 2048 * (i 0).val + p.val < 8192)
    (hw : (tbM0_0.view.readAt (Elt Ideal) (Rect.unit (s := S1) ![0] S1.size inb_S1_S1_0).toLoadRect xt0 (Shape.Idx.first (numel1_S1.symm ▸ Nat.one_pos)) : BitVec 32).toNat < 50) :
    (out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 xt0 fh0 k0_hw1 : S2048x256.Idx → EReal) (ix2 p k)
      = (((((((∑ q : Fin 32, (x0 (ix2 p q) : EReal) * (x6 (ix2 q k) : EReal))
          + ∑ q : Fin 7, (x1 (ix2 p q) : EReal) * (x7 (ix2 q k) : EReal))
          + ∑ q : Fin 8, (x2 (ix2 p q) : EReal) * (x8 (ix2 q k) : EReal))
          + ∑ q : Fin 8, (x3 (ix2 p q) : EReal) * (x9 (ix2 q k) : EReal))
          + ∑ q : Fin 8, (x4 (ix2 p q) : EReal) * (x10 (ix2 q k) : EReal))
          + ∑ q : Fin 8, (x5 (ix2 p q) : EReal) * (x11 (ix2 q k) : EReal))
          + ∑ e : Fin 256, (seqArr c fh0 (ix3 ⟨2048 * (i 0).val + p.val, hrow⟩ ⟨(tbM0_0.view.readAt (Elt Ideal) (Rect.unit (s := S1) ![0] S1.size inb_S1_S1_0).toLoadRect xt0 (Shape.Idx.first (numel1_S1.symm ▸ Nat.one_pos)) : BitVec 32).toNat, hw⟩ e)) * (x12 (ix2 e k) : EReal))
        + (x13 (ix1 k) : EReal) := by
  refine (congrFun (piece (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 xt0 fh0 k0_hw1) (ix2 p k)).trans ?_
  refine (pay_apply x0 x1 x2 x3 x4 x5 x6 x7 x8 x9 x10 x11 x12 x13 (dmaRows (F := Ideal) c i xt0 fh0 k0_hw1) p k).trans ?_
  refine congrArg₂ (· + ·) (congrArg₂ (· + ·) rfl ?_) rfl
  exact Finset.sum_congr rfl fun e _ =>
    congrArg (· * (x12 (ix2 e k) : EReal)) (dmaRows_apply c i xt0 fh0 k0_hw1 p e hrow hw)

end Cert.KernelIdeal.KerPiece

end
-- ==== Proof.KerHost.lean ====
/-
  What the kernel's region finds in the arrays the host prepared before it, entry by entry, at the ideal values.

  Before the region the host cuts `W` (256 × 327) into its first 71 columns and its last 256, transposes both,
  cuts the 71 rows of the first into the six feature groups, and divides the capacity group's rows by `cap`,
  the long-crane group's rows by `tlc` and the last two groups by 8; every change of float format is the
  identity here.  So entry `(q, k)` of each prepared array is an entry of row `k` of `W`, divided or not.
  The arrays the host does not touch are found as launched.
-/
import proofs.«402649_j67920612818961_3_alg».proof.Proof.Gen.KernelIdeal.Frame
import proofs.«402649_j67920612818961_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384
noncomputable section

namespace Cert.KernelIdeal.KerHost

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The weights and the two divisor rows as launched, at their literal types. -/
abbrev Wm (c : Dev nD) : S256x327.Idx → EReal := (m ((c.tc : Thread nD τ).loc main_arg9))
abbrev capm (c : Dev nD) : S32.Idx → EReal := (m ((c.tc : Thread nD τ).loc main_arg8))
abbrev tlcm (c : Dev nD) : S7.Idx → EReal := (m ((c.tc : Thread nD τ).loc main_arg3))

/-! ## Reading the host's operations at an entry -/

section Layout
variable {α : Type}

/-- The first 71 columns of a 256 × 327 array, transposed: entry `(j, k)` is entry `(k, j)` of the array. -/
theorem headT_apply (x : S256x327.Idx → α) (j : Fin 71) (k : Fin 256) :
    transpose S71x256 [1, 0] (extractStridedSlice S256x71 ![0, 0] x slices_S256x327_S256x71_0_0) transposes_S256x71_S71x256_1_0 (ix2 j k)
      = x (ix2 k ⟨j.val, by omega⟩) := by
  rw [transpose_ix2_apply]
  exact slice2_axis1_apply 0 x _ k j _ (Nat.zero_add _).symm

/-- The last 256 columns of a 256 × 327 array, transposed: entry `(e, k)` is entry `(k, 71 + e)` of the array. -/
theorem tailT_apply (x : S256x327.Idx → α) (e : Fin 256) (k : Fin 256) :
    transpose S256x256 [1, 0] (extractStridedSlice S256x256 ![0, 71] x slices_S256x327_S256x256_0_71) transposes_S256x256_S256x256_1_0 (ix2 e k)
      = x (ix2 k ⟨71 + e.val, by omega⟩) := by
  rw [transpose_ix2_apply]
  exact slice2_axis1_apply 71 x _ k e _ rfl

/-- A vector of length `n` made a column and repeated along 256 columns: entry `(q, k)` is entry `q` of the vector. -/
theorem col_apply {n : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, 256]⟩ ![0, 1]) (q : Fin n) (k : Fin 256) :
    broadcastInDim ⟨2, ![n, 256]⟩ ![0, 1] h2 (broadcastInDim ⟨2, ![n, 1]⟩ ![0] h1 v) (ix2 q k) = v (ix1 q) := by
  rw [broadcastInDim_apply ![0, 1] h2 _ (ix2 q k) (ix2 q (0 : Fin 1)) (fun a => by
    match a with
    | ⟨0, _⟩ =>
      show q.val = if n = 1 then 0 else q.val
      split
      · have := q.isLt; omega
      · rfl
    | ⟨1, _⟩ => rfl)]
  exact broadcastInDim_apply ![0] h1 v (ix2 q (0 : Fin 1)) (ix1 q) (fun a => by
    match a with
    | ⟨0, _⟩ =>
      show q.val = if n = 1 then 0 else q.val
      split
      · have := q.isLt; omega
      · rfl)

end Layout

/-! ## The arrays the host prepared, whole -/

/-- The first 71 columns of `W`, transposed. -/
abbrev headT (c : Dev nD) : S71x256.Idx → EReal :=
  transpose S71x256 [1, 0] (extractStridedSlice S256x71 ![0, 0] (Wm m c) slices_S256x327_S256x71_0_0) transposes_S256x71_S71x256_1_0

/-- Entry `(j, k)` of it is entry `(k, j)` of `W`. -/
theorem headT_eq (c : Dev nD) (j : Fin 71) (k : Fin 256) : headT m c (ix2 j k) = Wm m c (ix2 k ⟨j.val, by omega⟩) :=
  headT_apply (Wm m c) j k

/-- The constant 8 at every entry of an 8 × 256 array. -/
abbrev eights : S8x256.Idx → EReal :=
  broadcastInDim S8x256 ![] bcast_S_S8x256 (constant (F := Ideal) S_ .f32 0x41000000#32)

theorem eights_apply (j : S8x256.Idx) : eights j = Cert.Spec.eight := rfl

theorem V_v12_eq (c : Dev nD) :
    (V m c main_v12 : S32x256.Idx → EReal)
      = truncf (F := Ideal) .bf16 (Host.divf (F := Ideal) (extractStridedSlice S32x256 ![0, 0] (headT m c) slices_S71x256_S32x256_0_0)
          (broadcastInDim S32x256 ![0, 1] bcast_S32x1_S32x256_0_1 (broadcastInDim S32x1 ![0] bcast_S32_S32x1_0 (capm m c)))) bitsLt_bf16_f32 := by
  dsimp only [V]
  simp only [hostOps0, hostOps0_1, hostOps0_2, List.flatten_cons, List.flatten_nil, List.append_nil, List.cons_append, List.nil_append]
  after_results <;> rfl

theorem V_v17_eq (c : Dev nD) :
    (V m c main_v17 : S7x256.Idx → EReal)
      = truncf (F := Ideal) .bf16 (Host.divf (F := Ideal) (extractStridedSlice S7x256 ![32, 0] (headT m c) slices_S71x256_S7x256_32_0)
          (broadcastInDim S7x256 ![0, 1] bcast_S7x1_S7x256_0_1 (broadcastInDim S7x1 ![0] bcast_S7_S7x1_0 (tlcm m c)))) bitsLt_bf16_f32 := by
  dsimp only [V]
  simp only [hostOps0, hostOps0_1, hostOps0_2, List.flatten_cons, List.flatten_nil, List.append_nil, List.cons_append, List.nil_append]
  after_results <;> rfl

theorem V_v19_eq (c : Dev nD) :
    (V m c main_v19 : S8x256.Idx → EReal)
      = truncf (F := Ideal) .bf16 (extractStridedSlice S8x256 ![39, 0] (headT m c) slices_S71x256_S8x256_39_0) bitsLt_bf16_f32 := by
  dsimp only [V]
  simp only [hostOps0, hostOps0_1, hostOps0_2, List.flatten_cons, List.flatten_nil, List.append_nil, List.cons_append, List.nil_append]
  after_results <;> rfl

theorem V_v21_eq (c : Dev nD) :
    (V m c main_v21 : S8x256.Idx → EReal)
      = truncf (F := Ideal) .bf16 (extractStridedSlice S8x256 ![47, 0] (headT m c) slices_S71x256_S8x256_47_0) bitsLt_bf16_f32 := by
  dsimp only [V]
  simp only [hostOps0, hostOps0_1, hostOps0_2, List.flatten_cons, List.flatten_nil, List.append_nil, List.cons_append, List.nil_append]
  after_results <;> rfl

theorem V_v25_eq (c : Dev nD) :
    (V m c main_v25 : S8x256.Idx → EReal)
      = truncf (F := Ideal) .bf16 (Host.divf (F := Ideal) (extractStridedSlice S8x256 ![55, 0] (headT m c) slices_S71x256_S8x256_55_0) eights) bitsLt_bf16_f32 := by
  dsimp only [V]
  simp only [hostOps0, hostOps0_1, hostOps0_2, List.flatten_cons, List.flatten_nil, List.append_nil, List.cons_append, List.nil_append]
  after_results <;> rfl

theorem V_v29_eq (c : Dev nD) :
    (V m c main_v29 : S8x256.Idx → EReal)
      = truncf (F := Ideal) .bf16 (Host.divf (F := Ideal) (extractStridedSlice S8x256 ![63, 0] (headT m c) slices_S71x256_S8x256_63_0) eights) bitsLt_bf16_f32 := by
  dsimp only [V]
  simp only [hostOps0, hostOps0_1, hostOps0_2, List.flatten_cons, List.flatten_nil, List.append_nil, List.cons_append, List.nil_append]
  after_results <;> rfl

theorem V_v30_eq (c : Dev nD) :
    (V m c main_v30 : S256x256.Idx → EReal)
      = truncf (F := Ideal) .bf16 (transpose S256x256 [1, 0] (extractStridedSlice S256x256 ![0, 71] (Wm m c) slices_S256x327_S256x256_0_71) transposes_S256x256_S256x256_1_0) bitsLt_bf16_f32 := by
  dsimp only [V]
  simp only [hostOps0, hostOps0_1, hostOps0_2, List.flatten_cons, List.flatten_nil, List.append_nil, List.cons_append, List.nil_append]
  after_results <;> rfl

/-! ## The arrays the host prepared, entry by entry -/

/-- The capacity group's weights: columns 0 … 31 of `W`, each divided by its capacity. -/
theorem V_v12_apply (c : Dev nD) (q : Fin 32) (k : Fin 256) :
    (V m c main_v12 : S32x256.Idx → EReal) (ix2 q k) = Ideal.div (Wm m c (ix2 k ⟨q.val, by omega⟩)) (capm m c (ix1 q)) := by
  rw [V_v12_eq, truncf_apply]
  show Ideal.div _ _ = _
  rw [slice2_axis0_apply 0 (headT m c) slices_S71x256_S32x256_0_0 q k ⟨q.val, by omega⟩ (Nat.zero_add _).symm,
    headT_eq, col_apply]
/-- The long-crane group's weights: columns 32 … 38, each divided by its target. -/
theorem V_v17_apply (c : Dev nD) (q : Fin 7) (k : Fin 256) :
    (V m c main_v17 : S7x256.Idx → EReal) (ix2 q k) = Ideal.div (Wm m c (ix2 k ⟨32 + q.val, by omega⟩)) (tlcm m c (ix1 q)) := by
  rw [V_v17_eq, truncf_apply]
  show Ideal.div _ _ = _
  rw [slice2_axis0_apply 32 (headT m c) slices_S71x256_S7x256_32_0 q k ⟨32 + q.val, by omega⟩ rfl,
    headT_eq, col_apply]
/-- Columns 39 … 46 as they are. -/
theorem V_v19_apply (c : Dev nD) (q : Fin 8) (k : Fin 256) :
    (V m c main_v19 : S8x256.Idx → EReal) (ix2 q k) = Wm m c (ix2 k ⟨39 + q.val, by omega⟩) := by
  rw [V_v19_eq, truncf_apply,
    slice2_axis0_apply 39 (headT m c) slices_S71x256_S8x256_39_0 q k ⟨39 + q.val, by omega⟩ rfl, headT_eq]
/-- Columns 47 … 54 as they are. -/
theorem V_v21_apply (c : Dev nD) (q : Fin 8) (k : Fin 256) :
    (V m c main_v21 : S8x256.Idx → EReal) (ix2 q k) = Wm m c (ix2 k ⟨47 + q.val, by omega⟩) := by
  rw [V_v21_eq, truncf_apply,
    slice2_axis0_apply 47 (headT m c) slices_S71x256_S8x256_47_0 q k ⟨47 + q.val, by omega⟩ rfl, headT_eq]
/-- Columns 55 … 62 divided by 8. -/
theorem V_v25_apply (c : Dev nD) (q : Fin 8) (k : Fin 256) :
    (V m c main_v25 : S8x256.Idx → EReal) (ix2 q k) = Ideal.div (Wm m c (ix2 k ⟨55 + q.val, by omega⟩)) Cert.Spec.eight := by
  rw [V_v25_eq, truncf_apply]
  show Ideal.div _ _ = _
  rw [slice2_axis0_apply 55 (headT m c) slices_S71x256_S8x256_55_0 q k ⟨55 + q.val, by omega⟩ rfl,
    headT_eq, eights_apply]
/-- Columns 63 … 70 divided by 8. -/
theorem V_v29_apply (c : Dev nD) (q : Fin 8) (k : Fin 256) :
    (V m c main_v29 : S8x256.Idx → EReal) (ix2 q k) = Ideal.div (Wm m c (ix2 k ⟨63 + q.val, by omega⟩)) Cert.Spec.eight := by
  rw [V_v29_eq, truncf_apply]
  show Ideal.div _ _ = _
  rw [slice2_axis0_apply 63 (headT m c) slices_S71x256_S8x256_63_0 q k ⟨63 + q.val, by omega⟩ rfl,
    headT_eq, eights_apply]
/-- The embedding weights: columns 71 … 326, transposed. -/
theorem V_v30_apply (c : Dev nD) (e : Fin 256) (k : Fin 256) :
    (V m c main_v30 : S256x256.Idx → EReal) (ix2 e k) = Wm m c (ix2 k ⟨71 + e.val, by omega⟩) := by
  rw [V_v30_eq, truncf_apply, tailT_apply]

end Cert.KernelIdeal.KerHost

end
-- ==== Proof.KerBlocks.lean ====
/-
  Where each window's block sits in its array, at each of the four grid points, and so what the body is handed:
  block t of the six row-blocked feature arrays is rows 2048 t … 2048 t + 2047 of the argument as launched; the seven
  weight windows and the bias window cover their arrays whole at every point; block t of the output window is rows
  2048 t … 2048 t + 2047 of the output array.  A block's coordinate in the array is always the block index times the
  block's size plus the coordinate inside the block.
-/
import proofs.«402649_j67920612818961_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KerBlocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The grid's one coordinate at point t is t. -/
theorem coord0 : ∀ t : Fin grid0.N, (grid0.coords t 0).val = t.val := by decide +kernel

/-- Window 0's index map over the four points: block (t, 0). -/
theorem tr1 : ∀ t : Fin grid0.N, cc0_transform_1 (grid0.coords t) 0 = t.val ∧ cc0_transform_1 (grid0.coords t) 1 = 0 := by decide +kernel

/-- Entry (p, q) of window 0's block at point t sits at row 2048 t + p, column q of its array. -/
theorem emb0 (a : (pcfg0 (F := Ideal)).Adm) (t : Fin (cfg0 a).N) (p : Fin 2048) (q : Fin 32) (h : 2048 * t.val + p.val < 8192) :
    (((cfg0 a).win 0).blk t).view.emb (ix2 p q) = (ix2 ⟨2048 * t.val + p.val, h⟩ q : S8192x32.Idx) := by
  obtain ⟨e0, e1⟩ := tr1 t
  funext b; apply Fin.ext
  match b with
  | ⟨0, _⟩ => show cc0_transform_1 (grid0.coords t) 0 * 2048 + 1 * p.val = 2048 * t.val + p.val; omega
  | ⟨1, _⟩ => show cc0_transform_1 (grid0.coords t) 1 * 32 + 1 * q.val = q.val; omega

/-- Window 0's block at point t is rows 2048 t … 2048 t + 2047 of the argument as launched. -/
theorem iblk0_apply (hO : Ok m) (c : Dev nD) (t : Fin (cfgM m hO).N) (p : Fin 2048) (q : Fin 32) (h : 2048 * t.val + p.val < 8192) :
    (iblk m hO c 0 t : Vec Ideal S2048x32 .f32) (ix2 p q) = (m ((c.tc : Thread nD τ).loc main_arg1) : S8192x32.Idx → EReal) (ix2 ⟨2048 * t.val + p.val, h⟩ q) := by
  show (V m c main_arg1 : S8192x32.Idx → EReal) ((((cfgM m hO).win 0).blk t).view.emb (ix2 p q)) = _
  refine (congrArg (V m c main_arg1 : S8192x32.Idx → EReal) (emb0 (adm m hO) t p q h)).trans ?_
  exact congrFun (V_main_arg1 m c) _

/-- Window 1's index map over the four points: block (t, 0). -/
theorem tr2 : ∀ t : Fin grid0.N, cc0_transform_2 (grid0.coords t) 0 = t.val ∧ cc0_transform_2 (grid0.coords t) 1 = 0 := by decide +kernel

/-- Entry (p, q) of window 1's block at point t sits at row 2048 t + p, column q of its array. -/
theorem emb1 (a : (pcfg0 (F := Ideal)).Adm) (t : Fin (cfg0 a).N) (p : Fin 2048) (q : Fin 7) (h : 2048 * t.val + p.val < 8192) :
    (((cfg0 a).win 1).blk t).view.emb (ix2 p q) = (ix2 ⟨2048 * t.val + p.val, h⟩ q : S8192x7.Idx) := by
  obtain ⟨e0, e1⟩ := tr2 t
  funext b; apply Fin.ext
  match b with
  | ⟨0, _⟩ => show cc0_transform_2 (grid0.coords t) 0 * 2048 + 1 * p.val = 2048 * t.val + p.val; omega
  | ⟨1, _⟩ => show cc0_transform_2 (grid0.coords t) 1 * 7 + 1 * q.val = q.val; omega

/-- Window 1's block at point t is rows 2048 t … 2048 t + 2047 of the argument as launched. -/
theorem iblk1_apply (hO : Ok m) (c : Dev nD) (t : Fin (cfgM m hO).N) (p : Fin 2048) (q : Fin 7) (h : 2048 * t.val + p.val < 8192) :
    (iblk m hO c 1 t : Vec Ideal S2048x7 .f32) (ix2 p q) = (m ((c.tc : Thread nD τ).loc main_arg2) : S8192x7.Idx → EReal) (ix2 ⟨2048 * t.val + p.val, h⟩ q) := by
  show (V m c main_arg2 : S8192x7.Idx → EReal) ((((cfgM m hO).win 1).blk t).view.emb (ix2 p q)) = _
  refine (congrArg (V m c main_arg2 : S8192x7.Idx → EReal) (emb1 (adm m hO) t p q h)).trans ?_
  exact congrFun (V_main_arg2 m c) _

/-- Window 2's index map over the four points: block (t, 0). -/
theorem tr3 : ∀ t : Fin grid0.N, cc0_transform_3 (grid0.coords t) 0 = t.val ∧ cc0_transform_3 (grid0.coords t) 1 = 0 := by decide +kernel

/-- Entry (p, q) of window 2's block at point t sits at row 2048 t + p, column q of its array. -/
theorem emb2 (a : (pcfg0 (F := Ideal)).Adm) (t : Fin (cfg0 a).N) (p : Fin 2048) (q : Fin 8) (h : 2048 * t.val + p.val < 8192) :
    (((cfg0 a).win 2).blk t).view.emb (ix2 p q) = (ix2 ⟨2048 * t.val + p.val, h⟩ q : S8192x8.Idx) := by
  obtain ⟨e0, e1⟩ := tr3 t
  funext b; apply Fin.ext
  match b with
  | ⟨0, _⟩ => show cc0_transform_3 (grid0.coords t) 0 * 2048 + 1 * p.val = 2048 * t.val + p.val; omega
  | ⟨1, _⟩ => show cc0_transform_3 (grid0.coords t) 1 * 8 + 1 * q.val = q.val; omega

/-- Window 2's block at point t is rows 2048 t … 2048 t + 2047 of the argument as launched. -/
theorem iblk2_apply (hO : Ok m) (c : Dev nD) (t : Fin (cfgM m hO).N) (p : Fin 2048) (q : Fin 8) (h : 2048 * t.val + p.val < 8192) :
    (iblk m hO c 2 t : Vec Ideal S2048x8 .f32) (ix2 p q) = (m ((c.tc : Thread nD τ).loc main_arg4) : S8192x8.Idx → EReal) (ix2 ⟨2048 * t.val + p.val, h⟩ q) := by
  show (V m c main_arg4 : S8192x8.Idx → EReal) ((((cfgM m hO).win 2).blk t).view.emb (ix2 p q)) = _
  refine (congrArg (V m c main_arg4 : S8192x8.Idx → EReal) (emb2 (adm m hO) t p q h)).trans ?_
  exact congrFun (V_main_arg4 m c) _

/-- Window 3's index map over the four points: block (t, 0). -/
theorem tr4 : ∀ t : Fin grid0.N, cc0_transform_4 (grid0.coords t) 0 = t.val ∧ cc0_transform_4 (grid0.coords t) 1 = 0 := by decide +kernel

/-- Entry (p, q) of window 3's block at point t sits at row 2048 t + p, column q of its array. -/
theorem emb3 (a : (pcfg0 (F := Ideal)).Adm) (t : Fin (cfg0 a).N) (p : Fin 2048) (q : Fin 8) (h : 2048 * t.val + p.val < 8192) :
    (((cfg0 a).win 3).blk t).view.emb (ix2 p q) = (ix2 ⟨2048 * t.val + p.val, h⟩ q : S8192x8.Idx) := by
  obtain ⟨e0, e1⟩ := tr4 t
  funext b; apply Fin.ext
  match b with
  | ⟨0, _⟩ => show cc0_transform_4 (grid0.coords t) 0 * 2048 + 1 * p.val = 2048 * t.val + p.val; omega
  | ⟨1, _⟩ => show cc0_transform_4 (grid0.coords t) 1 * 8 + 1 * q.val = q.val; omega

/-- Window 3's block at point t is rows 2048 t … 2048 t + 2047 of the argument as launched. -/
theorem iblk3_apply (hO : Ok m) (c : Dev nD) (t : Fin (cfgM m hO).N) (p : Fin 2048) (q : Fin 8) (h : 2048 * t.val + p.val < 8192) :
    (iblk m hO c 3 t : Vec Ideal S2048x8 .f32) (ix2 p q) = (m ((c.tc : Thread nD τ).loc main_arg5) : S8192x8.Idx → EReal) (ix2 ⟨2048 * t.val + p.val, h⟩ q) := by
  show (V m c main_arg5 : S8192x8.Idx → EReal) ((((cfgM m hO).win 3).blk t).view.emb (ix2 p q)) = _
  refine (congrArg (V m c main_arg5 : S8192x8.Idx → EReal) (emb3 (adm m hO) t p q h)).trans ?_
  exact congrFun (V_main_arg5 m c) _

/-- Window 4's index map over the four points: block (t, 0). -/
theorem tr5 : ∀ t : Fin grid0.N, cc0_transform_5 (grid0.coords t) 0 = t.val ∧ cc0_transform_5 (grid0.coords t) 1 = 0 := by decide +kernel

/-- Entry (p, q) of window 4's block at point t sits at row 2048 t + p, column q of its array. -/
theorem emb4 (a : (pcfg0 (F := Ideal)).Adm) (t : Fin (cfg0 a).N) (p : Fin 2048) (q : Fin 8) (h : 2048 * t.val + p.val < 8192) :
    (((cfg0 a).win 4).blk t).view.emb (ix2 p q) = (ix2 ⟨2048 * t.val + p.val, h⟩ q : S8192x8.Idx) := by
  obtain ⟨e0, e1⟩ := tr5 t
  funext b; apply Fin.ext
  match b with
  | ⟨0, _⟩ => show cc0_transform_5 (grid0.coords t) 0 * 2048 + 1 * p.val = 2048 * t.val + p.val; omega
  | ⟨1, _⟩ => show cc0_transform_5 (grid0.coords t) 1 * 8 + 1 * q.val = q.val; omega

/-- Window 4's block at point t is rows 2048 t … 2048 t + 2047 of the argument as launched. -/
theorem iblk4_apply (hO : Ok m) (c : Dev nD) (t : Fin (cfgM m hO).N) (p : Fin 2048) (q : Fin 8) (h : 2048 * t.val + p.val < 8192) :
    (iblk m hO c 4 t : Vec Ideal S2048x8 .f32) (ix2 p q) = (m ((c.tc : Thread nD τ).loc main_arg6) : S8192x8.Idx → EReal) (ix2 ⟨2048 * t.val + p.val, h⟩ q) := by
  show (V m c main_arg6 : S8192x8.Idx → EReal) ((((cfgM m hO).win 4).blk t).view.emb (ix2 p q)) = _
  refine (congrArg (V m c main_arg6 : S8192x8.Idx → EReal) (emb4 (adm m hO) t p q h)).trans ?_
  exact congrFun (V_main_arg6 m c) _

/-- Window 5's index map over the four points: block (t, 0). -/
theorem tr6 : ∀ t : Fin grid0.N, cc0_transform_6 (grid0.coords t) 0 = t.val ∧ cc0_transform_6 (grid0.coords t) 1 = 0 := by decide +kernel

/-- Entry (p, q) of window 5's block at point t sits at row 2048 t + p, column q of its array. -/
theorem emb5 (a : (pcfg0 (F := Ideal)).Adm) (t : Fin (cfg0 a).N) (p : Fin 2048) (q : Fin 8) (h : 2048 * t.val + p.val < 8192) :
    (((cfg0 a).win 5).blk t).view.emb (ix2 p q) = (ix2 ⟨2048 * t.val + p.val, h⟩ q : S8192x8.Idx) := by
  obtain ⟨e0, e1⟩ := tr6 t
  funext b; apply Fin.ext
  match b with
  | ⟨0, _⟩ => show cc0_transform_6 (grid0.coords t) 0 * 2048 + 1 * p.val = 2048 * t.val + p.val; omega
  | ⟨1, _⟩ => show cc0_transform_6 (grid0.coords t) 1 * 8 + 1 * q.val = q.val; omega

/-- Window 5's block at point t is rows 2048 t … 2048 t + 2047 of the argument as launched. -/
theorem iblk5_apply (hO : Ok m) (c : Dev nD) (t : Fin (cfgM m hO).N) (p : Fin 2048) (q : Fin 8) (h : 2048 * t.val + p.val < 8192) :
    (iblk m hO c 5 t : Vec Ideal S2048x8 .f32) (ix2 p q) = (m ((c.tc : Thread nD τ).loc main_arg7) : S8192x8.Idx → EReal) (ix2 ⟨2048 * t.val + p.val, h⟩ q) := by
  show (V m c main_arg7 : S8192x8.Idx → EReal) ((((cfgM m hO).win 5).blk t).view.emb (ix2 p q)) = _
  refine (congrArg (V m c main_arg7 : S8192x8.Idx → EReal) (emb5 (adm m hO) t p q h)).trans ?_
  exact congrFun (V_main_arg7 m c) _

/-- Window 6's index map over the four points: the origin. -/
theorem tr7 : ∀ t : Fin grid0.N, cc0_transform_7 (grid0.coords t) 0 = 0 ∧ cc0_transform_7 (grid0.coords t) 1 = 0 := by decide +kernel

/-- Window 6's block is its whole array: entry (q, k) sits at (q, k). -/
theorem emb6 (a : (pcfg0 (F := Ideal)).Adm) (t : Fin (cfg0 a).N) (q : Fin 32) (k : Fin 256) :
    (((cfg0 a).win 6).blk t).view.emb (ix2 q k) = (ix2 q k : S32x256.Idx) := by
  obtain ⟨e0, e1⟩ := tr7 t
  funext b; apply Fin.ext
  match b with
  | ⟨0, _⟩ => show cc0_transform_7 (grid0.coords t) 0 * 32 + 1 * q.val = q.val; omega
  | ⟨1, _⟩ => show cc0_transform_7 (grid0.coords t) 1 * 256 + 1 * k.val = k.val; omega

/-- Window 6's block at every point is the prepared array as the region finds it. -/
theorem iblk6_apply (hO : Ok m) (c : Dev nD) (t : Fin (cfgM m hO).N) (q : Fin 32) (k : Fin 256) :
    (iblk m hO c 6 t : Vec Ideal S32x256 .bf16) (ix2 q k) = (V m c main_v12 : S32x256.Idx → EReal) (ix2 q k) := by
  show (V m c main_v12 : S32x256.Idx → EReal) ((((cfgM m hO).win 6).blk t).view.emb (ix2 q k)) = _
  exact congrArg (V m c main_v12 : S32x256.Idx → EReal) (emb6 (adm m hO) t q k)

/-- Window 7's index map over the four points: the origin. -/
theorem tr8 : ∀ t : Fin grid0.N, cc0_transform_8 (grid0.coords t) 0 = 0 ∧ cc0_transform_8 (grid0.coords t) 1 = 0 := by decide +kernel

/-- Window 7's block is its whole array: entry (q, k) sits at (q, k). -/
theorem emb7 (a : (pcfg0 (F := Ideal)).Adm) (t : Fin (cfg0 a).N) (q : Fin 7) (k : Fin 256) :
    (((cfg0 a).win 7).blk t).view.emb (ix2 q k) = (ix2 q k : S7x256.Idx) := by
  obtain ⟨e0, e1⟩ := tr8 t
  funext b; apply Fin.ext
  match b with
  | ⟨0, _⟩ => show cc0_transform_8 (grid0.coords t) 0 * 7 + 1 * q.val = q.val; omega
  | ⟨1, _⟩ => show cc0_transform_8 (grid0.coords t) 1 * 256 + 1 * k.val = k.val; omega

/-- Window 7's block at every point is the prepared array as the region finds it. -/
theorem iblk7_apply (hO : Ok m) (c : Dev nD) (t : Fin (cfgM m hO).N) (q : Fin 7) (k : Fin 256) :
    (iblk m hO c 7 t : Vec Ideal S7x256 .bf16) (ix2 q k) = (V m c main_v17 : S7x256.Idx → EReal) (ix2 q k) := by
  show (V m c main_v17 : S7x256.Idx → EReal) ((((cfgM m hO).win 7).blk t).view.emb (ix2 q k)) = _
  exact congrArg (V m c main_v17 : S7x256.Idx → EReal) (emb7 (adm m hO) t q k)

/-- Window 8's index map over the four points: the origin. -/
theorem tr9 : ∀ t : Fin grid0.N, cc0_transform_9 (grid0.coords t) 0 = 0 ∧ cc0_transform_9 (grid0.coords t) 1 = 0 := by decide +kernel

/-- Window 8's block is its whole array: entry (q, k) sits at (q, k). -/
theorem emb8 (a : (pcfg0 (F := Ideal)).Adm) (t : Fin (cfg0 a).N) (q : Fin 8) (k : Fin 256) :
    (((cfg0 a).win 8).blk t).view.emb (ix2 q k) = (ix2 q k : S8x256.Idx) := by
  obtain ⟨e0, e1⟩ := tr9 t
  funext b; apply Fin.ext
  match b with
  | ⟨0, _⟩ => show cc0_transform_9 (grid0.coords t) 0 * 8 + 1 * q.val = q.val; omega
  | ⟨1, _⟩ => show cc0_transform_9 (grid0.coords t) 1 * 256 + 1 * k.val = k.val; omega

/-- Window 8's block at every point is the prepared array as the region finds it. -/
theorem iblk8_apply (hO : Ok m) (c : Dev nD) (t : Fin (cfgM m hO).N) (q : Fin 8) (k : Fin 256) :
    (iblk m hO c 8 t : Vec Ideal S8x256 .bf16) (ix2 q k) = (V m c main_v19 : S8x256.Idx → EReal) (ix2 q k) := by
  show (V m c main_v19 : S8x256.Idx → EReal) ((((cfgM m hO).win 8).blk t).view.emb (ix2 q k)) = _
  exact congrArg (V m c main_v19 : S8x256.Idx → EReal) (emb8 (adm m hO) t q k)

/-- Window 9's index map over the four points: the origin. -/
theorem tr10 : ∀ t : Fin grid0.N, cc0_transform_10 (grid0.coords t) 0 = 0 ∧ cc0_transform_10 (grid0.coords t) 1 = 0 := by decide +kernel

/-- Window 9's block is its whole array: entry (q, k) sits at (q, k). -/
theorem emb9 (a : (pcfg0 (F := Ideal)).Adm) (t : Fin (cfg0 a).N) (q : Fin 8) (k : Fin 256) :
    (((cfg0 a).win 9).blk t).view.emb (ix2 q k) = (ix2 q k : S8x256.Idx) := by
  obtain ⟨e0, e1⟩ := tr10 t
  funext b; apply Fin.ext
  match b with
  | ⟨0, _⟩ => show cc0_transform_10 (grid0.coords t) 0 * 8 + 1 * q.val = q.val; omega
  | ⟨1, _⟩ => show cc0_transform_10 (grid0.coords t) 1 * 256 + 1 * k.val = k.val; omega

/-- Window 9's block at every point is the prepared array as the region finds it. -/
theorem iblk9_apply (hO : Ok m) (c : Dev nD) (t : Fin (cfgM m hO).N) (q : Fin 8) (k : Fin 256) :
    (iblk m hO c 9 t : Vec Ideal S8x256 .bf16) (ix2 q k) = (V m c main_v21 : S8x256.Idx → EReal) (ix2 q k) := by
  show (V m c main_v21 : S8x256.Idx → EReal) ((((cfgM m hO).win 9).blk t).view.emb (ix2 q k)) = _
  exact congrArg (V m c main_v21 : S8x256.Idx → EReal) (emb9 (adm m hO) t q k)

/-- Window 10's index map over the four points: the origin. -/
theorem tr11 : ∀ t : Fin grid0.N, cc0_transform_11 (grid0.coords t) 0 = 0 ∧ cc0_transform_11 (grid0.coords t) 1 = 0 := by decide +kernel

/-- Window 10's block is its whole array: entry (q, k) sits at (q, k). -/
theorem emb10 (a : (pcfg0 (F := Ideal)).Adm) (t : Fin (cfg0 a).N) (q : Fin 8) (k : Fin 256) :
    (((cfg0 a).win 10).blk t).view.emb (ix2 q k) = (ix2 q k : S8x256.Idx) := by
  obtain ⟨e0, e1⟩ := tr11 t
  funext b; apply Fin.ext
  match b with
  | ⟨0, _⟩ => show cc0_transform_11 (grid0.coords t) 0 * 8 + 1 * q.val = q.val; omega
  | ⟨1, _⟩ => show cc0_transform_11 (grid0.coords t) 1 * 256 + 1 * k.val = k.val; omega

/-- Window 10's block at every point is the prepared array as the region finds it. -/
theorem iblk10_apply (hO : Ok m) (c : Dev nD) (t : Fin (cfgM m hO).N) (q : Fin 8) (k : Fin 256) :
    (iblk m hO c 10 t : Vec Ideal S8x256 .bf16) (ix2 q k) = (V m c main_v25 : S8x256.Idx → EReal) (ix2 q k) := by
  show (V m c main_v25 : S8x256.Idx → EReal) ((((cfgM m hO).win 10).blk t).view.emb (ix2 q k)) = _
  exact congrArg (V m c main_v25 : S8x256.Idx → EReal) (emb10 (adm m hO) t q k)

/-- Window 11's index map over the four points: the origin. -/
theorem tr12 : ∀ t : Fin grid0.N, cc0_transform_12 (grid0.coords t) 0 = 0 ∧ cc0_transform_12 (grid0.coords t) 1 = 0 := by decide +kernel

/-- Window 11's block is its whole array: entry (q, k) sits at (q, k). -/
theorem emb11 (a : (pcfg0 (F := Ideal)).Adm) (t : Fin (cfg0 a).N) (q : Fin 8) (k : Fin 256) :
    (((cfg0 a).win 11).blk t).view.emb (ix2 q k) = (ix2 q k : S8x256.Idx) := by
  obtain ⟨e0, e1⟩ := tr12 t
  funext b; apply Fin.ext
  match b with
  | ⟨0, _⟩ => show cc0_transform_12 (grid0.coords t) 0 * 8 + 1 * q.val = q.val; omega
  | ⟨1, _⟩ => show cc0_transform_12 (grid0.coords t) 1 * 256 + 1 * k.val = k.val; omega

/-- Window 11's block at every point is the prepared array as the region finds it. -/
theorem iblk11_apply (hO : Ok m) (c : Dev nD) (t : Fin (cfgM m hO).N) (q : Fin 8) (k : Fin 256) :
    (iblk m hO c 11 t : Vec Ideal S8x256 .bf16) (ix2 q k) = (V m c main_v29 : S8x256.Idx → EReal) (ix2 q k) := by
  show (V m c main_v29 : S8x256.Idx → EReal) ((((cfgM m hO).win 11).blk t).view.emb (ix2 q k)) = _
  exact congrArg (V m c main_v29 : S8x256.Idx → EReal) (emb11 (adm m hO) t q k)

/-- Window 12's index map over the four points: the origin. -/
theorem tr13 : ∀ t : Fin grid0.N, cc0_transform_13 (grid0.coords t) 0 = 0 ∧ cc0_transform_13 (grid0.coords t) 1 = 0 := by decide +kernel

/-- Window 12's block is its whole array: entry (q, k) sits at (q, k). -/
theorem emb12 (a : (pcfg0 (F := Ideal)).Adm) (t : Fin (cfg0 a).N) (q : Fin 256) (k : Fin 256) :
    (((cfg0 a).win 12).blk t).view.emb (ix2 q k) = (ix2 q k : S256x256.Idx) := by
  obtain ⟨e0, e1⟩ := tr13 t
  funext b; apply Fin.ext
  match b with
  | ⟨0, _⟩ => show cc0_transform_13 (grid0.coords t) 0 * 256 + 1 * q.val = q.val; omega
  | ⟨1, _⟩ => show cc0_transform_13 (grid0.coords t) 1 * 256 + 1 * k.val = k.val; omega

/-- Window 12's block at every point is the prepared array as the region finds it. -/
theorem iblk12_apply (hO : Ok m) (c : Dev nD) (t : Fin (cfgM m hO).N) (q : Fin 256) (k : Fin 256) :
    (iblk m hO c 12 t : Vec Ideal S256x256 .bf16) (ix2 q k) = (V m c main_v30 : S256x256.Idx → EReal) (ix2 q k) := by
  show (V m c main_v30 : S256x256.Idx → EReal) ((((cfgM m hO).win 12).blk t).view.emb (ix2 q k)) = _
  exact congrArg (V m c main_v30 : S256x256.Idx → EReal) (emb12 (adm m hO) t q k)

/-- The bias window's index map over the four points: the origin. -/
theorem tr14 : ∀ t : Fin grid0.N, cc0_transform_14 (grid0.coords t) 0 = 0 := by decide +kernel

/-- The bias window's block is its whole array. -/
theorem emb13 (a : (pcfg0 (F := Ideal)).Adm) (t : Fin (cfg0 a).N) (k : Fin 256) :
    (((cfg0 a).win 13).blk t).view.emb (ix1 k) = (ix1 k : S256.Idx) := by
  have e0 := tr14 t
  funext b; apply Fin.ext
  match b with
  | ⟨0, _⟩ => show cc0_transform_14 (grid0.coords t) 0 * 256 + 1 * k.val = k.val; omega

/-- The bias window's block at every point is the bias as launched. -/
theorem iblk13_apply (hO : Ok m) (c : Dev nD) (t : Fin (cfgM m hO).N) (k : Fin 256) :
    (iblk m hO c 13 t : Vec Ideal S256 .f32) (ix1 k) = (m ((c.tc : Thread nD τ).loc main_arg10) : S256.Idx → EReal) (ix1 k) := by
  show (V m c main_arg10 : S256.Idx → EReal) ((((cfgM m hO).win 13).blk t).view.emb (ix1 k)) = _
  refine (congrArg (V m c main_arg10 : S256.Idx → EReal) (emb13 (adm m hO) t k)).trans ?_
  exact congrFun (V_main_arg10 m c) _

/-- The output window's index map over the four points: block (t, 0). -/
theorem tr15 : ∀ t : Fin grid0.N, cc0_transform_15 (grid0.coords t) 0 = t.val ∧ cc0_transform_15 (grid0.coords t) 1 = 0 := by decide +kernel

/-- Entry (p, k) of the output window's block at point t sits at row 2048 t + p, column k of the output array. -/
theorem emb14 (a : (pcfg0 (F := Ideal)).Adm) (t : Fin (cfg0 a).N) (p : Fin 2048) (k : Fin 256) (h : 2048 * t.val + p.val < 8192) :
    (((cfg0 a).win 14).blk t).view.emb (ix2 p k) = (ix2 ⟨2048 * t.val + p.val, h⟩ k : S8192x256.Idx) := by
  obtain ⟨e0, e1⟩ := tr15 t
  funext b; apply Fin.ext
  match b with
  | ⟨0, _⟩ => show cc0_transform_15 (grid0.coords t) 0 * 2048 + 1 * p.val = 2048 * t.val + p.val; omega
  | ⟨1, _⟩ => show cc0_transform_15 (grid0.coords t) 1 * 256 + 1 * k.val = k.val; omega

end Cert.KernelIdeal.KerBlocks

end
-- ==== Proof.KerPoint.lean ====
/-
  What one grid point leaves in the output block, read at the argument arrays.  The body's seven partial products
  are over the point's blocks: rows 2048 t … 2048 t + 2047 of the six feature arrays, the prepared weight groups (each an
  entry of W, divided where the host divides), the rows of the sequence array at the time step the table's word names,
  and the bias.  Entry (p, k) is therefore the weight-side arrangement at row 2048 t + p and column k.
-/
import proofs.«402649_j67920612818961_3_alg».proof.Proof.Gen.KernelIdeal.Frame
import proofs.«402649_j67920612818961_3_alg».proof.Proof.TblKI
import proofs.«402649_j67920612818961_3_alg».proof.Proof.KerPiece
import proofs.«402649_j67920612818961_3_alg».proof.Proof.KerHost
import proofs.«402649_j67920612818961_3_alg».proof.Proof.Spec
import proofs.«402649_j67920612818961_3_alg».proof.Proof.KerBlocks
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KerPoint

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (s : Fin 50)

/-- The table's word, read as a number, is the time step. -/
theorem word_toNat (hs : ∀ c : Dev nD, (m ((c.tc : Thread nD τ).loc main_arg11) : IVec S8192 32) (ix1 (0 : Fin 8192)) = BitVec.ofNat 32 s.val) :
    (Tbl.word m).toNat = s.val := by
  rw [Tbl.word_eq m s hs, BitVec.toNat_ofNat]
  exact Nat.mod_eq_of_lt (by have := s.isLt; omega)

/-- Entry (p, k) of what grid point t leaves in the output's staging buffer is the weight-side arrangement at row
    2048 t + p and column k. -/
theorem point (hs : ∀ c : Dev nD, (m ((c.tc : Thread nD τ).loc main_arg11) : IVec S8192 32) (ix1 (0 : Fin 8192)) = BitVec.ofNat 32 s.val)
    (c : Dev nD) (t : Fin (cfgM m (Tbl.ok m)).N) (p : Fin 2048) (k : Fin 256) (h : 2048 * t.val + p.val < 8192) :
    (outsAt0 m (Tbl.ok m) (Tbl.hyps m s hs) c t : S2048x256.Idx → EReal) (ix2 p k)
      = Cert.Spec.Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) s ⟨2048 * t.val + p.val, h⟩ k := by
  have hw : (Tbl.word m).toNat < 50 := by rw [word_toNat m s hs]; exact s.isLt
  have hrow : 2048 * (grid0.coords t 0).val + p.val < 8192 := by rw [KerBlocks.coord0 t]; exact h
  have e1 : (⟨2048 * (grid0.coords t 0).val + p.val, hrow⟩ : Fin 8192) = ⟨2048 * t.val + p.val, h⟩ :=
    Fin.ext (by show 2048 * (grid0.coords t 0).val + p.val = 2048 * t.val + p.val; rw [KerBlocks.coord0 t])
  have e2 : (⟨(Tbl.word m).toNat, hw⟩ : Fin 50) = s := Fin.ext (word_toNat m s hs)
  have w6 : ∀ q : Fin 32, (iblk m (Tbl.ok m) c 6 t : Vec Ideal S32x256 .bf16) (ix2 q k) = Ideal.div (KerHost.Wm m c (ix2 k ⟨q.val, by omega⟩)) (KerHost.capm m c (ix1 q)) :=
    fun q => (KerBlocks.iblk6_apply m (Tbl.ok m) c t q k).trans (KerHost.V_v12_apply m c q k)
  have w7 : ∀ q : Fin 7, (iblk m (Tbl.ok m) c 7 t : Vec Ideal S7x256 .bf16) (ix2 q k) = Ideal.div (KerHost.Wm m c (ix2 k ⟨32 + q.val, by omega⟩)) (KerHost.tlcm m c (ix1 q)) :=
    fun q => (KerBlocks.iblk7_apply m (Tbl.ok m) c t q k).trans (KerHost.V_v17_apply m c q k)
  have w8 : ∀ q : Fin 8, (iblk m (Tbl.ok m) c 8 t : Vec Ideal S8x256 .bf16) (ix2 q k) = KerHost.Wm m c (ix2 k ⟨39 + q.val, by omega⟩) :=
    fun q => (KerBlocks.iblk8_apply m (Tbl.ok m) c t q k).trans (KerHost.V_v19_apply m c q k)
  have w9 : ∀ q : Fin 8, (iblk m (Tbl.ok m) c 9 t : Vec Ideal S8x256 .bf16) (ix2 q k) = KerHost.Wm m c (ix2 k ⟨47 + q.val, by omega⟩) :=
    fun q => (KerBlocks.iblk9_apply m (Tbl.ok m) c t q k).trans (KerHost.V_v21_apply m c q k)
  have w10 : ∀ q : Fin 8, (iblk m (Tbl.ok m) c 10 t : Vec Ideal S8x256 .bf16) (ix2 q k) = Ideal.div (KerHost.Wm m c (ix2 k ⟨55 + q.val, by omega⟩)) Cert.Spec.eight :=
    fun q => (KerBlocks.iblk10_apply m (Tbl.ok m) c t q k).trans (KerHost.V_v25_apply m c q k)
  have w11 : ∀ q : Fin 8, (iblk m (Tbl.ok m) c 11 t : Vec Ideal S8x256 .bf16) (ix2 q k) = Ideal.div (KerHost.Wm m c (ix2 k ⟨63 + q.val, by omega⟩)) Cert.Spec.eight :=
    fun q => (KerBlocks.iblk11_apply m (Tbl.ok m) c t q k).trans (KerHost.V_v29_apply m c q k)
  have w12 : ∀ q : Fin 256, (iblk m (Tbl.ok m) c 12 t : Vec Ideal S256x256 .bf16) (ix2 q k) = KerHost.Wm m c (ix2 k ⟨71 + q.val, by omega⟩) :=
    fun q => (KerBlocks.iblk12_apply m (Tbl.ok m) c t q k).trans (KerHost.V_v30_apply m c q k)
  unfold outsAt0
  refine (KerPiece.out_apply c (grid0.coords t) (ms0_0 m (Tbl.ok m) t) (hs0_0 m (Tbl.ok m) t) (ms0_1 m (Tbl.ok m) t) (hs0_1 m (Tbl.ok m) t) (ms0_2 m (Tbl.ok m) t) (hs0_2 m (Tbl.ok m) t) (ms0_3 m (Tbl.ok m) t) (hs0_3 m (Tbl.ok m) t) (ms0_4 m (Tbl.ok m) t) (hs0_4 m (Tbl.ok m) t) (ms0_5 m (Tbl.ok m) t) (hs0_5 m (Tbl.ok m) t) (ms0_6 m (Tbl.ok m) t) (hs0_6 m (Tbl.ok m) t) (ms0_7 m (Tbl.ok m) t) (hs0_7 m (Tbl.ok m) t) (ms0_8 m (Tbl.ok m) t) (hs0_8 m (Tbl.ok m) t) (ms0_9 m (Tbl.ok m) t) (hs0_9 m (Tbl.ok m) t) (ms0_10 m (Tbl.ok m) t) (hs0_10 m (Tbl.ok m) t) (ms0_11 m (Tbl.ok m) t) (hs0_11 m (Tbl.ok m) t) (ms0_12 m (Tbl.ok m) t) (hs0_12 m (Tbl.ok m) t) (ms0_13 m (Tbl.ok m) t) (hs0_13 m (Tbl.ok m) t) (ms0_14 m (Tbl.ok m) t) (hs0_14 m (Tbl.ok m) t) scM0_0 (Memref.isWhole_whole _) (iblk m (Tbl.ok m) c 0 t) (iblk m (Tbl.ok m) c 1 t) (iblk m (Tbl.ok m) c 2 t) (iblk m (Tbl.ok m) c 3 t) (iblk m (Tbl.ok m) c 4 t) (iblk m (Tbl.ok m) c 5 t) (iblk m (Tbl.ok m) c 6 t) (iblk m (Tbl.ok m) c 7 t) (iblk m (Tbl.ok m) c 8 t) (iblk m (Tbl.ok m) c 9 t) (iblk m (Tbl.ok m) c 10 t) (iblk m (Tbl.ok m) c 11 t) (iblk m (Tbl.ok m) c 12 t) (iblk m (Tbl.ok m) c 13 t) (tbl m 0) (V m c main_arg0) (Hyps.c0 (Tbl.hyps m s hs) c t) p k hrow hw).trans ?_
  unfold Cert.Spec.Gk
  simp only [KerBlocks.iblk0_apply m (Tbl.ok m) c t p _ h, KerBlocks.iblk1_apply m (Tbl.ok m) c t p _ h, KerBlocks.iblk2_apply m (Tbl.ok m) c t p _ h, KerBlocks.iblk3_apply m (Tbl.ok m) c t p _ h, KerBlocks.iblk4_apply m (Tbl.ok m) c t p _ h, KerBlocks.iblk5_apply m (Tbl.ok m) c t p _ h,
    w6, w7, w8, w9, w10, w11, w12, KerBlocks.iblk13_apply m (Tbl.ok m) c t]
  rw [e1, e2, V_main_arg0 m c]

end Cert.KernelIdeal.KerPoint

end
-- ==== Proof.KerValue.lean ====
/-
  The idealized kernel's run with its result named: when the time step's first word is the number `s < 50`,
  every weakly fair execution terminates with the output array at `Spec.Gk … s` of the argument arrays — block
  `i` of 2048 rows is what grid point `i` stores: the seven partial products of the point's row blocks with the
  weight groups, the last one over the rows `lat[2048·i …, s, :]` that the body's own copy brought into the
  scratch, plus the bias — and the arguments end as they were.
-/
import proofs.«402649_j67920612818961_3_alg».proof.Proof.Gen.KernelIdeal.Frame
import proofs.«402649_j67920612818961_3_alg».proof.Proof.TblKI
import proofs.«402649_j67920612818961_3_alg».proof.Proof.KerPiece
import proofs.«402649_j67920612818961_3_alg».proof.Proof.KerHost
import proofs.«402649_j67920612818961_3_alg».proof.Proof.KerBlocks
import proofs.«402649_j67920612818961_3_alg».proof.Proof.KerPoint
import proofs.«402649_j67920612818961_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.ShloMosaic.ValueIdx Idealize.SL.Sem

section

variable (m : (ℓ : Loc nD τ sig) → Buf (Elt Ideal) ℓ) (ρ : Dev nD → PrngReg) (s : Fin 50)
  (hs : ∀ c : Dev nD, (m ((c.tc : Thread nD τ).loc main_arg11) : IVec S8192 32) (ix1 (0 : Fin 8192)) = BitVec.ofNat 32 s.val)

/-- The output array the run ends with: the weight-side arrangement of the argument arrays at the time step, index by index. -/
abbrev G (c : Dev nD) : S8192x256.Idx → EReal :=
  fun j => Cert.Spec.Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) s (j 0) (j 1)

/-- What grid point t writes back is block t of that array. -/
theorem flushed_eq (c : Dev nD) (t : Fin (cfgM m (Tbl.ok m)).N) :
    (dats m (Tbl.ok m) (Tbl.hyps m s hs) 0 c).flushed 14 t
      = (((cfgM m (Tbl.ok m)).win 14).blk t).view.read (Elt Ideal) (G m s c) := by
  show ((cfgM m (Tbl.ok m)).win 14).cut (grid0.coords t) ((dats m (Tbl.ok m) (Tbl.hyps m s hs) 0 c).after 14 t) = _
  rw [after0_14]
  refine funext fun (y : (⟨2, ![2048, 256]⟩ : Shape).Idx) => ?_
  obtain ⟨p, k, rfl⟩ : ∃ (p : Fin 2048) (k : Fin 256), y = ix2 p k := ⟨y 0, y 1, eq_ix2 y⟩
  have h : 2048 * t.val + p.val < 8192 := by
    have h4 : t.val < 4 := (show (cfgM m (Tbl.ok m)).N = 4 from N_0) ▸ t.isLt
    have := p.isLt
    omega
  show (outsAt0 m (Tbl.ok m) (Tbl.hyps m s hs) c t : S2048x256.Idx → EReal) (ix2 p k)
    = G m s c ((((cfgM m (Tbl.ok m)).win 14).blk t).view.emb (ix2 p k))
  refine (KerPoint.point m s hs c t p k h).trans ?_
  exact (congrArg (G m s c) (KerBlocks.emb14 (adm m (Tbl.ok m)) t p k h)).symm

/-- An index of the output array is in point t's block iff its row is among the block's 2048 rows. -/
theorem mem_blk (a : (pcfg0 (F := Ideal)).Adm) (t : Fin (cfg0 a).N) (i : S8192x256.Idx) :
    i ∈ (((cfg0 a).win 14).blk t).view.set ↔ ∀ b : Fin 2, cc0_transform_15 (grid0.coords t) b * S2048x256.size b ≤ (i b).val ∧ (i b).val < cc0_transform_15 (grid0.coords t) b * S2048x256.size b + S2048x256.size b :=
  (Finset.ext_iff.mp (View.set_slice_whole main_v31 (((cfg0 a).win 14).rect t)) i).trans Rect.mem_set_unit

/-- Every index of the output array lies in the block of the point its row divided by 2048 names. -/
theorem cover (a : (pcfg0 (F := Ideal)).Adm) (i : S8192x256.Idx) :
    ∃ t : Fin (cfg0 a).N, ((cfg0 a).win 14).flush t = true ∧ i ∈ (((cfg0 a).win 14).blk t).view.set := by
  have hi0 : (i 0).val < 8192 := idx2_lt0 i
  have hi1 : (i 1).val < 256 := idx2_lt1 i
  have hN : (cfg0 a).N = 4 := N_0
  have ht : (i 0).val / 2048 < grid0.N := by rw [N_0]; omega
  obtain ⟨e0, e1⟩ := KerBlocks.tr15 ⟨(i 0).val / 2048, ht⟩
  refine ⟨⟨(i 0).val / 2048, ht⟩, flush0_14 a _, (mem_blk a ⟨(i 0).val / 2048, ht⟩ i).mpr fun b => ?_⟩
  match b with
  | ⟨0, _⟩ =>
    show cc0_transform_15 (grid0.coords ⟨(i 0).val / 2048, ht⟩) 0 * 2048 ≤ (i 0).val ∧ (i 0).val < cc0_transform_15 (grid0.coords ⟨(i 0).val / 2048, ht⟩) 0 * 2048 + 2048
    rw [e0]; show (i 0).val / 2048 * 2048 ≤ (i 0).val ∧ (i 0).val < (i 0).val / 2048 * 2048 + 2048; omega
  | ⟨1, _⟩ =>
    show cc0_transform_15 (grid0.coords ⟨(i 0).val / 2048, ht⟩) 1 * 256 ≤ (i 1).val ∧ (i 1).val < cc0_transform_15 (grid0.coords ⟨(i 0).val / 2048, ht⟩) 1 * 256 + 256
    rw [e1]; omega

/-- So the output array ends holding the arrangement everywhere. -/
theorem final (c : Dev nD) :
    (dats m (Tbl.ok m) (Tbl.hyps m s hs) 0 c).arrAt 14 (cfgM m (Tbl.ok m)).N = G m s c :=
  (dats m (Tbl.ok m) (Tbl.hyps m s hs) 0 c).arrAt_eq_of_cover 14 (G m s c) (fun t _ => flushed_eq m s hs c t) (cover (adm m (Tbl.ok m)))

end

/-- The kernel's run, its output array named. -/
theorem run (m : (ℓ : Loc nD τ sig) → Buf (Elt Ideal) ℓ) (ρ : Dev nD → PrngReg) (s : Fin 50)
    (hs : ∀ c : Dev nD, (m ((c.tc : Thread nD τ).loc main_arg11) : IVec S8192 32) (ix1 (0 : Fin 8192)) = BitVec.ofNat 32 s.val) :
    θ_run (defs (F := Ideal)) (onTc (τ := τ) (main (F := Ideal))) ⟨m, fun _ => 0, ρ⟩ fun r => ∀ c : Dev nD,
      r.2.mem ((c.tc : Thread nD τ).loc main_v31) = (fun j => Cert.Spec.Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) s (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono (fun r h c => ⟨((h c).1 14).trans (final m s hs c),
      ((h c).2 main_arg0 (by decide : main_arg0 ∈ Pipeline.restRefs sig spec0)).trans (V_main_arg0 m c),
      ((h c).1 0).trans (((dats m (Tbl.ok m) (Tbl.hyps m s hs) 0 c).arrAt_in 0 rfl _).trans ((A_eq m (Tbl.ok m) (Tbl.hyps m s hs) c 0).trans (V_main_arg1 m c))),
      ((h c).1 1).trans (((dats m (Tbl.ok m) (Tbl.hyps m s hs) 0 c).arrAt_in 1 rfl _).trans ((A_eq m (Tbl.ok m) (Tbl.hyps m s hs) c 1).trans (V_main_arg2 m c))),
      ((h c).2 main_arg3 (by decide : main_arg3 ∈ Pipeline.restRefs sig spec0)).trans (V_main_arg3 m c),
      ((h c).1 2).trans (((dats m (Tbl.ok m) (Tbl.hyps m s hs) 0 c).arrAt_in 2 rfl _).trans ((A_eq m (Tbl.ok m) (Tbl.hyps m s hs) c 2).trans (V_main_arg4 m c))),
      ((h c).1 3).trans (((dats m (Tbl.ok m) (Tbl.hyps m s hs) 0 c).arrAt_in 3 rfl _).trans ((A_eq m (Tbl.ok m) (Tbl.hyps m s hs) c 3).trans (V_main_arg5 m c))),
      ((h c).1 4).trans (((dats m (Tbl.ok m) (Tbl.hyps m s hs) 0 c).arrAt_in 4 rfl _).trans ((A_eq m (Tbl.ok m) (Tbl.hyps m s hs) c 4).trans (V_main_arg6 m c))),
      ((h c).1 5).trans (((dats m (Tbl.ok m) (Tbl.hyps m s hs) 0 c).arrAt_in 5 rfl _).trans ((A_eq m (Tbl.ok m) (Tbl.hyps m s hs) c 5).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).1 13).trans (((dats m (Tbl.ok m) (Tbl.hyps m s hs) 0 c).arrAt_in 13 rfl _).trans ((A_eq m (Tbl.ok m) (Tbl.hyps m s hs) c 13).trans (V_main_arg10 m c))),
      ((h c).2 main_arg11 (by decide : main_arg11 ∈ Pipeline.restRefs sig spec0)).trans (V_main_arg11 m c)⟩)
    (run_main m ρ (Tbl.ok m) (Tbl.hyps m s hs))

end Cert.KernelIdeal.KerValue

end
-- ==== Proof.RefTerm.lean ====
/-
  The reference's result as one term of its argument arrays, operation by operation.

  `takeOut lat t` is `lat[:, t, :]` as the host computes it: a negative `t` is moved up by 50, the row is
  gathered at that index, and where the index is outside `[0, 49]` the quiet-NaN pattern is put instead.
  `refOut` normalises the feature groups, lays them and the taken row side by side into the 327-entry context
  row, multiplies by the transpose of `W` and adds the bias.
-/
import proofs.«402649_j67920612818961_3_alg».proof.ReferenceIdeal
import Idealize.ShloMosaic.PureOps.Ideal

noncomputable section

namespace Cert.ReferenceIdeal.RefValue

open Idealize.ShloMosaic Cert.ReferenceIdeal
open Cert.ReferenceIdeal.Facts₀ Cert.ReferenceIdeal.Facts

variable [Cert.ReferenceIdeal.Facts]

/-- `lat[:, t, :]` with the index normalisation of the take and its fill outside the range. -/
def takeOut (lat : FVec Ideal S8192x50x256 .f32) (t : IVec S_ 32) : FVec Ideal S8192x256 .f32 :=
  let idx : IVec S_ 32 := select (cmpi .slt t (constantI S_ 32 0#32)) (addi t (constantI S_ 32 50#32)) t
  let idx1 : IVec S1 32 := broadcastInDim S1 ![] bcast_S_S1 idx
  let ge0 : IVec S1 1 := cmpi .sge idx1 (broadcastInDim S1 ![] bcast_S_S1 (constantI S_ 32 0#32))
  let le49 : IVec S1 1 := cmpi .sle idx1 (constantI S1 32 49#32)
  let ok : IVec S_ 1 := Host.reduce IntOp.andi (andi ge0 le49) (constantI S_ 1 1#1) reducesTo_S1_S_d0 h_S_
  select (broadcastInDim S8192x256 ![] bcast_S_S8192x256 ok)
    (Host.gather gather_S8192x50x256_S1_S8192x256_01_1_n_n_1_0_81921256 lat idx1)
    (broadcastInDim S8192x256 ![] bcast_S_S8192x256 (constant (F := Ideal) S_ .f32 0x7FC00000#32))

/-- The reference's result array as a term of its twelve argument arrays. -/
def refOut (a0 : FVec Ideal S8192x50x256 .f32) (a1 : FVec Ideal S8192x32 .f32) (a2 : FVec Ideal S8192x7 .f32)
    (a3 : FVec Ideal S7 .f32) (a4 a5 a6 a7 : FVec Ideal S8192x8 .f32) (a8 : FVec Ideal S32 .f32)
    (a9 : FVec Ideal S256x327 .f32) (a10 : FVec Ideal S256 .f32) (a11 : IVec S8192 32) : FVec Ideal S8192x256 .f32 :=
  let t : IVec S_ 32 := shapeCast S_ (extractStridedSlice S1 ![0] a11 slices_S8192_S1_0) shapeCasts_S1_S_
  let v2 : FVec Ideal S8192x256 .f32 := takeOut a0 t
  let v5 : FVec Ideal S8192x32 .f32 := Host.divf a1 (broadcastInDim S8192x32 ![0, 1] bcast_S1x32_S8192x32_0_1 (broadcastInDim S1x32 ![1] bcast_S32_S1x32_1 a8))
  let v8 : FVec Ideal S8192x7 .f32 := Host.divf a2 (broadcastInDim S8192x7 ![0, 1] bcast_S1x7_S8192x7_0_1 (broadcastInDim S1x7 ![1] bcast_S7_S1x7_1 a3))
  let v10 : FVec Ideal S8192x8 .f32 := Host.divf a6 (broadcastInDim S8192x8 ![] bcast_S_S8192x8 (constant (F := Ideal) S_ .f32 0x41000000#32))
  let v12 : FVec Ideal S8192x8 .f32 := Host.divf a7 (broadcastInDim S8192x8 ![] bcast_S_S8192x8 (constant (F := Ideal) S_ .f32 0x41000000#32))
  let v13 : FVec Ideal S8192x71 .f32 := concatenate S8192x71 1 [⟨S8192x32, v5⟩, ⟨S8192x7, v8⟩, ⟨S8192x8, a4⟩, ⟨S8192x8, a5⟩, ⟨S8192x8, v10⟩, ⟨S8192x8, v12⟩] concatenates_S8192x32_S8192x7_S8192x8_S8192x8_S8192x8_S8192x8_S8192x71_d1
  let v14 : FVec Ideal S8192x327 .f32 := concatenate S8192x327 1 [⟨S8192x71, v13⟩, ⟨S8192x256, v2⟩] concatenates_S8192x71_S8192x256_S8192x327_d1
  let v15 : FVec Ideal S327x256 .f32 := transpose S327x256 [1, 0] a9 transposes_S256x327_S327x256_1_0
  let v16 : FVec Ideal S8192x256 .f32 := Host.dotGeneral dot_S8192x327_S327x256_S8192x256_1_0_0_1_n_n none v14 v15
  addf v16 (broadcastInDim S8192x256 ![0, 1] bcast_S1x256_S8192x256_0_1 (broadcastInDim S1x256 ![1] bcast_S256_S1x256_1 a10))

end Cert.ReferenceIdeal.RefValue

end
-- ==== Proof.RefRun.lean ====
/-
  The reference program runs: every weakly fair execution of its @main terminates, the result array ends at
  `refOut` of the argument arrays as launched, and the arguments end as they were.  @main is a straight line of
  host operations once the two outlined functions it calls are unfolded at their calls; the run is the library's
  run of such a line, and the result is read off the fold of the operations.
-/
import proofs.«402649_j67920612818961_3_alg».proof.Proof.Gen.ReferenceIdeal
import proofs.«402649_j67920612818961_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- The first thirty-three operations of @main in program order, the two outlined functions unfolded where they are
    called: the slice and reshape that read the time index; the take (the index compared with zero, moved up by
    fifty when negative through the outlined function's select, broadcast to one entry, tested against the range `[0, 49]`,
    the test reduced by `and`, the gather at the index, and the select between the gathered row and the quiet-NaN
    fill); then the four divisions with their broadcast divisors. -/
abbrev opsA : List (HloOp τ sig (Elt F)) :=
  [ unary main_arg11 main_v0 ((extractStridedSlice S1 ![0] · slices_S8192_S1_0) : (⟨S8192, .i32⟩ : BufTy).Contents (Elt F) → (⟨S1, .i32⟩ : BufTy).Contents (Elt F)),
    reshape main_v0 main_v1 rfl shapeCasts_S1_S_,
    TRef.nullary main_call0.c (constantI S_ 32 0#32),
    TRef.binary (.of main_v1 : TRef sig ⟨S_, .i32⟩) main_call0.c main_call0.v0 (cmpi .slt),
    TRef.nullary main_call0.c_0 (constantI S_ 32 50#32),
    TRef.binary (.of main_v1 : TRef sig ⟨S_, .i32⟩) main_call0.c_0 main_call0.v1 addi,
    TRef.ternary main_call0.v0 main_call0.v1 (.of main_v1 : TRef sig ⟨S_, .i32⟩) main_call0.call0.v0 select,
    TRef.unary main_call0.call0.v0 main_call0.v3 (broadcastInDim S1 ![] bcast_S_S1),
    TRef.nullary main_call0.c_1 (constantI S1 32 49#32),
    TRef.nullary main_call0.c_2 (constantI S_ 32 0#32),
    TRef.unary main_call0.c_2 main_call0.v4 (broadcastInDim S1 ![] bcast_S_S1),
    TRef.binary main_call0.v3 main_call0.v4 main_call0.v5 (cmpi .sge),
    TRef.binary main_call0.v3 main_call0.c_1 main_call0.v6 (cmpi .sle),
    TRef.binary main_call0.v5 main_call0.v6 main_call0.v7 andi,
    TRef.nullary main_call0.c_3 (constantI S_ 1 1#1),
    TRef.binary main_call0.v7 main_call0.c_3 main_call0.v8 (fun x v => Host.reduce IntOp.andi x v reducesTo_S1_S_d0 h_S_),
    TRef.binary (.of main_arg0 : TRef sig ⟨S8192x50x256, .f32⟩) main_call0.v3 main_call0.v9 (fun x i => Host.gather gather_S8192x50x256_S1_S8192x256_01_1_n_n_1_0_81921256 x i),
    TRef.unary main_call0.v8 main_call0.v10 (broadcastInDim S8192x256 ![] bcast_S_S8192x256),
    TRef.nullary main_call0.cst (constant S_ .f32 0x7FC00000#32),
    TRef.unary main_call0.cst main_call0.v11 (broadcastInDim S8192x256 ![] bcast_S_S8192x256),
    TRef.ternary main_call0.v10 main_call0.v9 main_call0.v11 main_call0.v12 select,
    unary main_arg8 main_v3 (broadcastInDim S1x32 ![1] bcast_S32_S1x32_1 : (⟨S32, .f32⟩ : BufTy).Contents (Elt F) → (⟨S1x32, .f32⟩ : BufTy).Contents (Elt F)),
    unary main_v3 main_v4 (broadcastInDim S8192x32 ![0, 1] bcast_S1x32_S8192x32_0_1 : (⟨S1x32, .f32⟩ : BufTy).Contents (Elt F) → (⟨S8192x32, .f32⟩ : BufTy).Contents (Elt F)),
    binary main_arg1 main_v4 main_v5 (Host.divf : (⟨S8192x32, .f32⟩ : BufTy).Contents (Elt F) → (⟨S8192x32, .f32⟩ : BufTy).Contents (Elt F) → (⟨S8192x32, .f32⟩ : BufTy).Contents (Elt F)),
    unary main_arg3 main_v6 (broadcastInDim S1x7 ![1] bcast_S7_S1x7_1 : (⟨S7, .f32⟩ : BufTy).Contents (Elt F) → (⟨S1x7, .f32⟩ : BufTy).Contents (Elt F)),
    unary main_v6 main_v7 (broadcastInDim S8192x7 ![0, 1] bcast_S1x7_S8192x7_0_1 : (⟨S1x7, .f32⟩ : BufTy).Contents (Elt F) → (⟨S8192x7, .f32⟩ : BufTy).Contents (Elt F)),
    binary main_arg2 main_v7 main_v8 (Host.divf : (⟨S8192x7, .f32⟩ : BufTy).Contents (Elt F) → (⟨S8192x7, .f32⟩ : BufTy).Contents (Elt F) → (⟨S8192x7, .f32⟩ : BufTy).Contents (Elt F)),
    nullary main_cst (constant S_ .f32 0x41000000#32),
    unary main_cst main_v9 (broadcastInDim S8192x8 ![] bcast_S_S8192x8 : (⟨S_, .f32⟩ : BufTy).Contents (Elt F) → (⟨S8192x8, .f32⟩ : BufTy).Contents (Elt F)),
    binary main_arg6 main_v9 main_v10 (Host.divf : (⟨S8192x8, .f32⟩ : BufTy).Contents (Elt F) → (⟨S8192x8, .f32⟩ : BufTy).Contents (Elt F) → (⟨S8192x8, .f32⟩ : BufTy).Contents (Elt F)),
    nullary main_cst_0 (constant S_ .f32 0x41000000#32),
    unary main_cst_0 main_v11 (broadcastInDim S8192x8 ![] bcast_S_S8192x8 : (⟨S_, .f32⟩ : BufTy).Contents (Elt F) → (⟨S8192x8, .f32⟩ : BufTy).Contents (Elt F)),
    binary main_arg7 main_v11 main_v12 (Host.divf : (⟨S8192x8, .f32⟩ : BufTy).Contents (Elt F) → (⟨S8192x8, .f32⟩ : BufTy).Contents (Elt F) → (⟨S8192x8, .f32⟩ : BufTy).Contents (Elt F)) ]

/-- The last seven: the two concatenations, the transpose, the product, the bias's two broadcasts and the sum. -/
abbrev opsB : List (HloOp τ sig (Elt F)) :=
  [ nary ![main_v5, main_v8, main_arg4, main_arg5, main_v10, main_v12] main_v13 (fun u => concatenate S8192x71 1 [⟨S8192x32, u 0⟩, ⟨S8192x7, u 1⟩, ⟨S8192x8, u 2⟩, ⟨S8192x8, u 3⟩, ⟨S8192x8, u 4⟩, ⟨S8192x8, u 5⟩] concatenates_S8192x32_S8192x7_S8192x8_S8192x8_S8192x8_S8192x8_S8192x71_d1),
    binary main_v13 main_v2 main_v14 ((fun a b => concatenate S8192x327 1 [⟨S8192x71, a⟩, ⟨S8192x256, b⟩] concatenates_S8192x71_S8192x256_S8192x327_d1) : (⟨S8192x71, .f32⟩ : BufTy).Contents (Elt F) → (⟨S8192x256, .f32⟩ : BufTy).Contents (Elt F) → (⟨S8192x327, .f32⟩ : BufTy).Contents (Elt F)),
    unary main_arg9 main_v15 ((transpose S327x256 [1, 0] · transposes_S256x327_S327x256_1_0) : (⟨S256x327, .f32⟩ : BufTy).Contents (Elt F) → (⟨S327x256, .f32⟩ : BufTy).Contents (Elt F)),
    binary main_v14 main_v15 main_v16 ((fun l r => Host.dotGeneral dot_S8192x327_S327x256_S8192x256_1_0_0_1_n_n none l r) : (⟨S8192x327, .f32⟩ : BufTy).Contents (Elt F) → (⟨S327x256, .f32⟩ : BufTy).Contents (Elt F) → (⟨S8192x256, .f32⟩ : BufTy).Contents (Elt F)),
    unary main_arg10 main_v17 (broadcastInDim S1x256 ![1] bcast_S256_S1x256_1 : (⟨S256, .f32⟩ : BufTy).Contents (Elt F) → (⟨S1x256, .f32⟩ : BufTy).Contents (Elt F)),
    unary main_v17 main_v18 (broadcastInDim S8192x256 ![0, 1] bcast_S1x256_S8192x256_0_1 : (⟨S1x256, .f32⟩ : BufTy).Contents (Elt F) → (⟨S8192x256, .f32⟩ : BufTy).Contents (Elt F)),
    binary main_v16 main_v18 main_v19 (addf : (⟨S8192x256, .f32⟩ : BufTy).Contents (Elt F) → (⟨S8192x256, .f32⟩ : BufTy).Contents (Elt F) → (⟨S8192x256, .f32⟩ : BufTy).Contents (Elt F)) ]

/-- The forty operations of @main in program order. -/
abbrev ops : List (HloOp τ sig (Elt F)) := opsA ++ opsB

-- the chain of forty binds is deeper than the default recursion bound
set_option maxRecDepth 1024 in
/-- @main is that straight line: the outlined functions' definitions unfolded at their calls, both sides are one chain of
    host steps once sequencing is reassociated. -/
theorem main_eq (c : Dev nD) : main (F := F) c = seq ops := by
  rw [seq_append]
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., reshape_bufs_sub .., nullary_bufs_sub .., binary_bufs_sub .., nullary_bufs_sub .., binary_bufs_sub .., ternary_bufs_sub .., unary_bufs_sub .., nullary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nary_bufs_sub .., binary_bufs_sub .., unary_bufs_sub .., binary_bufs_sub .., unary_bufs_sub .., unary_bufs_sub .., binary_bufs_sub ..⟩

/-- From any memory with zero counters every weakly fair execution of @main terminates, and every final state has
    each TensorCore buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold of two lines run one after the other is the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

end Line

/-! ## The fold read buffer by buffer -/

section Reads

variable {F : FTy → Type} [FloatOps F]

/-- The buffers the line writes: one per operation, in order. -/
abbrev written : List (Ref sig .tc) :=
  [main_v0, main_v1, main_call0_c, main_call0_v0, main_call0_c_0, main_call0_v1, main_call0_v2, main_call0_v3, main_call0_c_1, main_call0_c_2, main_call0_v4, main_call0_v5, main_call0_v6, main_call0_v7, main_call0_c_3, main_call0_v8, main_call0_v9, main_call0_v10, main_call0_cst, main_call0_v11, main_v2, main_v3, main_v4, main_v5, main_v6, main_v7, main_v8, main_cst, main_v9, main_v10, main_cst_0, main_v11, main_v12, main_v13, main_v14, main_v15, main_v16, main_v17, main_v18, main_v19]

/-- A single written buffer lies among a list's buffers once its reference lies in the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Each operation writes its own result buffer only, and that one is in the list. -/
theorem ops_writes : (ops : List (HloOp τ sig (Elt F))).Forall fun op =>
    op.writes ⊆ (written.map (Proc.devRef (τ := τ) .tc)).toFinset :=
  ⟨writes_sub_of_mem (y := main_v0) (by decide),
    writes_sub_of_mem (y := main_v1) (by decide),
    writes_sub_of_mem (y := main_call0_c) (by decide),
    writes_sub_of_mem (y := main_call0_v0) (by decide),
    writes_sub_of_mem (y := main_call0_c_0) (by decide),
    writes_sub_of_mem (y := main_call0_v1) (by decide),
    writes_sub_of_mem (y := main_call0_v2) (by decide),
    writes_sub_of_mem (y := main_call0_v3) (by decide),
    writes_sub_of_mem (y := main_call0_c_1) (by decide),
    writes_sub_of_mem (y := main_call0_c_2) (by decide),
    writes_sub_of_mem (y := main_call0_v4) (by decide),
    writes_sub_of_mem (y := main_call0_v5) (by decide),
    writes_sub_of_mem (y := main_call0_v6) (by decide),
    writes_sub_of_mem (y := main_call0_v7) (by decide),
    writes_sub_of_mem (y := main_call0_c_3) (by decide),
    writes_sub_of_mem (y := main_call0_v8) (by decide),
    writes_sub_of_mem (y := main_call0_v9) (by decide),
    writes_sub_of_mem (y := main_call0_v10) (by decide),
    writes_sub_of_mem (y := main_call0_cst) (by decide),
    writes_sub_of_mem (y := main_call0_v11) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_v7) (by decide),
    writes_sub_of_mem (y := main_v8) (by decide),
    writes_sub_of_mem (y := main_cst) (by decide),
    writes_sub_of_mem (y := main_v9) (by decide),
    writes_sub_of_mem (y := main_v10) (by decide),
    writes_sub_of_mem (y := main_cst_0) (by decide),
    writes_sub_of_mem (y := main_v11) (by decide),
    writes_sub_of_mem (y := main_v12) (by decide),
    writes_sub_of_mem (y := main_v13) (by decide),
    writes_sub_of_mem (y := main_v14) (by decide),
    writes_sub_of_mem (y := main_v15) (by decide),
    writes_sub_of_mem (y := main_v16) (by decide),
    writes_sub_of_mem (y := main_v17) (by decide),
    writes_sub_of_mem (y := main_v18) (by decide),
    writes_sub_of_mem (y := main_v19) (by decide)⟩

/-- A buffer the line does not write ends as it began. -/
theorem after_unwritten (V : Valuation τ sig (Elt F)) {r : Ref sig .tc} (hr : r ∉ written) :
    after ops V (Proc.devRef .tc r) = V (Proc.devRef .tc r) :=
  after_of_writes_sub ops V ops_writes hr

/-- The first quotient after the first part: the 32 features over their broadcast capacities. -/
theorem A_v5 (V : Valuation τ sig (Elt F)) :
    after opsA V (Proc.devRef .tc main_v5) = Host.divf (V (Proc.devRef .tc main_arg1)) (broadcastInDim S8192x32 ![0, 1] bcast_S1x32_S8192x32_0_1 (broadcastInDim S1x32 ![1] bcast_S32_S1x32_1 (V (Proc.devRef .tc main_arg8)))) := by
  simp (disch := decide) only [after_cons, after_nil,
    nullary_result', unary_result', binary_result', ternary_result', reshape_result',
    nullary_result_ne', unary_result_ne', binary_result_ne', ternary_result_ne', reshape_result_ne']

/-- The second quotient: the 7 features over their broadcast targets. -/
theorem A_v8 (V : Valuation τ sig (Elt F)) :
    after opsA V (Proc.devRef .tc main_v8) = Host.divf (V (Proc.devRef .tc main_arg2)) (broadcastInDim S8192x7 ![0, 1] bcast_S1x7_S8192x7_0_1 (broadcastInDim S1x7 ![1] bcast_S7_S1x7_1 (V (Proc.devRef .tc main_arg3)))) := by
  simp (disch := decide) only [after_cons, after_nil,
    nullary_result', unary_result', binary_result', ternary_result', reshape_result',
    nullary_result_ne', unary_result_ne', binary_result_ne', ternary_result_ne', reshape_result_ne']

/-- The third quotient: 8 features over the constant eight. -/
theorem A_v10 (V : Valuation τ sig (Elt F)) :
    after opsA V (Proc.devRef .tc main_v10) = Host.divf (V (Proc.devRef .tc main_arg6)) (broadcastInDim S8192x8 ![] bcast_S_S8192x8 (constant S_ .f32 0x41000000#32)) := by
  simp (disch := decide) only [after_cons, after_nil,
    nullary_result', unary_result', binary_result', ternary_result', reshape_result',
    nullary_result_ne', unary_result_ne', binary_result_ne', ternary_result_ne', reshape_result_ne']

/-- The fourth quotient: 8 features over the constant eight. -/
theorem A_v12 (V : Valuation τ sig (Elt F)) :
    after opsA V (Proc.devRef .tc main_v12) = Host.divf (V (Proc.devRef .tc main_arg7)) (broadcastInDim S8192x8 ![] bcast_S_S8192x8 (constant S_ .f32 0x41000000#32)) := by
  simp (disch := decide) only [after_cons, after_nil,
    nullary_result', unary_result', binary_result', ternary_result', reshape_result',
    nullary_result_ne', unary_result_ne', binary_result_ne', ternary_result_ne', reshape_result_ne']

/-- The arguments the second part reads are as they began after the first part. -/
theorem A_arg4 (V : Valuation τ sig (Elt F)) : after opsA V (Proc.devRef .tc main_arg4) = V (Proc.devRef .tc main_arg4) := by
  simp (disch := decide) only [after_cons, after_nil,
    nullary_result', unary_result', binary_result', ternary_result', reshape_result',
    nullary_result_ne', unary_result_ne', binary_result_ne', ternary_result_ne', reshape_result_ne']
theorem A_arg5 (V : Valuation τ sig (Elt F)) : after opsA V (Proc.devRef .tc main_arg5) = V (Proc.devRef .tc main_arg5) := by
  simp (disch := decide) only [after_cons, after_nil,
    nullary_result', unary_result', binary_result', ternary_result', reshape_result',
    nullary_result_ne', unary_result_ne', binary_result_ne', ternary_result_ne', reshape_result_ne']
theorem A_arg9 (V : Valuation τ sig (Elt F)) : after opsA V (Proc.devRef .tc main_arg9) = V (Proc.devRef .tc main_arg9) := by
  simp (disch := decide) only [after_cons, after_nil,
    nullary_result', unary_result', binary_result', ternary_result', reshape_result',
    nullary_result_ne', unary_result_ne', binary_result_ne', ternary_result_ne', reshape_result_ne']
theorem A_arg10 (V : Valuation τ sig (Elt F)) : after opsA V (Proc.devRef .tc main_arg10) = V (Proc.devRef .tc main_arg10) := by
  simp (disch := decide) only [after_cons, after_nil,
    nullary_result', unary_result', binary_result', ternary_result', reshape_result',
    nullary_result_ne', unary_result_ne', binary_result_ne', ternary_result_ne', reshape_result_ne']

/-- The six-operand concatenation's result buffer after it: the concatenation of the six operands' contents, each
    read at its own reference. -/
theorem concat6_result (hxs hy) (G : Valuation τ sig (Elt F)) :
    (nary (τ := τ) ![main_v5, main_v8, main_arg4, main_arg5, main_v10, main_v12] main_v13
        (fun u => concatenate S8192x71 1 [⟨S8192x32, u 0⟩, ⟨S8192x7, u 1⟩, ⟨S8192x8, u 2⟩, ⟨S8192x8, u 3⟩, ⟨S8192x8, u 4⟩, ⟨S8192x8, u 5⟩] concatenates_S8192x32_S8192x7_S8192x8_S8192x8_S8192x8_S8192x8_S8192x71_d1)
        hxs hy).result G (Proc.devRef .tc main_v13)
      = concatenate S8192x71 1 [⟨S8192x32, G (Proc.devRef .tc main_v5)⟩, ⟨S8192x7, G (Proc.devRef .tc main_v8)⟩,
          ⟨S8192x8, G (Proc.devRef .tc main_arg4)⟩, ⟨S8192x8, G (Proc.devRef .tc main_arg5)⟩,
          ⟨S8192x8, G (Proc.devRef .tc main_v10)⟩, ⟨S8192x8, G (Proc.devRef .tc main_v12)⟩]
          concatenates_S8192x32_S8192x7_S8192x8_S8192x8_S8192x8_S8192x8_S8192x71_d1 :=
  nary_result _ _ _ hxs hy G

/-- The result buffer after the second part, over any contents `W` before it: the product of the two-level
    concatenation with the transposed weights, plus the broadcast bias, each operand read from `W`. -/
theorem B_out (W : Valuation τ sig (Elt F)) :
    after opsB W (Proc.devRef .tc main_v19)
      = addf (Host.dotGeneral dot_S8192x327_S327x256_S8192x256_1_0_0_1_n_n none
          (concatenate S8192x327 1
            [⟨S8192x71, concatenate S8192x71 1 [⟨S8192x32, W (Proc.devRef .tc main_v5)⟩, ⟨S8192x7, W (Proc.devRef .tc main_v8)⟩,
                ⟨S8192x8, W (Proc.devRef .tc main_arg4)⟩, ⟨S8192x8, W (Proc.devRef .tc main_arg5)⟩,
                ⟨S8192x8, W (Proc.devRef .tc main_v10)⟩, ⟨S8192x8, W (Proc.devRef .tc main_v12)⟩]
                concatenates_S8192x32_S8192x7_S8192x8_S8192x8_S8192x8_S8192x8_S8192x71_d1⟩,
              ⟨S8192x256, W (Proc.devRef .tc main_v2)⟩]
            concatenates_S8192x71_S8192x256_S8192x327_d1)
          (transpose S327x256 [1, 0] (W (Proc.devRef .tc main_arg9)) transposes_S256x327_S327x256_1_0))
        (broadcastInDim S8192x256 ![0, 1] bcast_S1x256_S8192x256_0_1 (broadcastInDim S1x256 ![1] bcast_S256_S1x256_1 (W (Proc.devRef .tc main_arg10)))) := by
  simp (disch := decide) only [after_cons, after_nil,
    nullary_result', unary_result', binary_result', ternary_result', reshape_result',
    nullary_result_ne', unary_result_ne', binary_result_ne', ternary_result_ne', reshape_result_ne']
  rw [concat6_result]
  repeat (rw [nary_result_ne]; rotate_left; decide)

end Reads

attribute [local irreducible] Host.reduce Host.gather in
/-- The taken row after the first part is `takeOut` of the table and the time index read from the last argument:
    the fold unrolled at that buffer is the composed term of the take's operations, which is `takeOut`'s own
    term.  The reduction and the gather are kept closed: the equation never looks inside them. -/
theorem A_v2 (V : Valuation τ sig (Elt Ideal)) :
    after (opsA (F := Ideal)) V (Proc.devRef .tc main_v2)
      = takeOut (V (Proc.devRef .tc main_arg0)) (shapeCast S_ (extractStridedSlice S1 ![0] (V (Proc.devRef .tc main_arg11)) slices_S8192_S1_0) shapeCasts_S1_S_) := by
  simp (disch := decide) only [after_cons, after_nil,
    nullary_result', unary_result', binary_result', ternary_result', reshape_result',
    nullary_result_ne', unary_result_ne', binary_result_ne', ternary_result_ne', reshape_result_ne']
  rfl

/-- The fold of the operations at the result buffer is `refOut` of the arguments' contents: the second part's
    result over the first part's contents, each of which was read above. -/
theorem out_eq (V : Valuation τ sig (Elt Ideal)) :
    after (ops (F := Ideal)) V (main_v19 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_append', B_out, A_v5, A_v8, A_v10, A_v12, A_arg4, A_arg5, A_arg9, A_arg10, A_v2]
  rfl

/-- Every weakly fair execution of the reference terminates with its result at `refOut` of the arguments and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono
    (fun _ h c => ⟨(h c main_v19).trans (out_eq _),
      (h c main_arg0).trans (after_unwritten _ (by decide)),
      (h c main_arg1).trans (after_unwritten _ (by decide)),
      (h c main_arg2).trans (after_unwritten _ (by decide)),
      (h c main_arg3).trans (after_unwritten _ (by decide)),
      (h c main_arg4).trans (after_unwritten _ (by decide)),
      (h c main_arg5).trans (after_unwritten _ (by decide)),
      (h c main_arg6).trans (after_unwritten _ (by decide)),
      (h c main_arg7).trans (after_unwritten _ (by decide)),
      (h c main_arg8).trans (after_unwritten _ (by decide)),
      (h c main_arg9).trans (after_unwritten _ (by decide)),
      (h c main_arg10).trans (after_unwritten _ (by decide)),
      (h c main_arg11).trans (after_unwritten _ (by decide))⟩)
    (run_main (F := Ideal) m ρ)

end Cert.ReferenceIdeal.RefValue

end
-- ==== Proof.RefValue.lean ====
/-
  The reference's result, read index by index: when the time step's first word is the number `s < 50`, entry
  `(r, k)` of `refOut` is `Spec.Gr … s r k` — the take reads row `s` (no wrap, inside the range, so no fill),
  the two concatenations lay out the context row, the product with the transposed weights is the sum over its
  327 columns, and the bias is added.
-/
import proofs.«402649_j67920612818961_3_alg».proof.Proof.Gen.ReferenceIdeal
import proofs.«402649_j67920612818961_3_alg».proof.Proof.RefTerm
import proofs.«402649_j67920612818961_3_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

/-- The time step's first word, read through the slice and the cast to a scalar. -/
theorem t_apply (a11 : IVec S8192 32) (h1 : S8192.Slices ![0] S1) (h2 : S1.ShapeCasts S_) :
    shapeCast S_ (extractStridedSlice S1 ![0] a11 h1) h2 ix0 = a11 (ix1 (0 : Fin 8192)) := by
  refine (shapeCast_apply _ h2 ix0 (ix1 (0 : Fin 1)) ?_).trans ?_
  · rfl
  · exact extractStridedSlice_apply _ a11 h1 _ _ fun a => match a with | ⟨0, _⟩ => rfl

theorem slt_zero : ∀ s : Fin 50, IntOp.cmpi .slt (BitVec.ofNat 32 s.val) 0#32 = 0#1 := by decide
theorem sge_zero : ∀ s : Fin 50, IntOp.cmpi .sge (BitVec.ofNat 32 s.val) 0#32 = 1#1 := by decide
theorem sle_49 : ∀ s : Fin 50, IntOp.cmpi .sle (BitVec.ofNat 32 s.val) 49#32 = 1#1 := by decide

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l fun n hn => h n (List.mem_cons_of_mem _ hn)

theorem clamp_row : ∀ s : Fin 50, min (BitVec.ofNat 32 s.val).toInt.toNat (50 - 1) = s.val := by decide

section
variable [Facts₀] {α : Type}

/-- The gather that takes one row of the sequence axis: with the one start index the number `s < 50`, result entry
    `(r, e)` is the operand's entry `(r, s, e)` — axes 0 and 2 are offset axes read whole, axis 1 is collapsed and
    starts at the index, whose clamp into `[0, 49]` changes nothing. -/
theorem gather_row_apply (lat : S8192x50x256.Idx → α) (idx : IVec S1 32) (s : Fin 50)
    (hidx : idx (ix1 (0 : Fin 1)) = BitVec.ofNat 32 s.val) (r : Fin 8192) (e : Fin 256) :
    Host.gather gather_S8192x50x256_S1_S8192x256_01_1_n_n_1_0_81921256 lat idx (ix2 r e) = lat (ix3 r s e) := by
  unfold Host.gather
  congr 1
  funext a
  refine Fin.ext ?_
  match a with
  | ⟨0, _⟩ =>
    show gather_S8192x50x256_S1_S8192x256_01_1_n_n_1_0_81921256.start (ix2 r e) idx 0
      + gather_S8192x50x256_S1_S8192x256_01_1_n_n_1_0_81921256.batchCoord (ix2 r e) 0
      + gather_S8192x50x256_S1_S8192x256_01_1_n_n_1_0_81921256.offCoord (ix2 r e) 0 = r.val
    rw [show gather_S8192x50x256_S1_S8192x256_01_1_n_n_1_0_81921256.start (ix2 r e) idx 0 = 0 from rfl,
      show gather_S8192x50x256_S1_S8192x256_01_1_n_n_1_0_81921256.batchCoord (ix2 r e) 0 = 0 from rfl,
      Nat.zero_add]
    rfl
  | ⟨1, _⟩ =>
    show gather_S8192x50x256_S1_S8192x256_01_1_n_n_1_0_81921256.start (ix2 r e) idx 1
      + gather_S8192x50x256_S1_S8192x256_01_1_n_n_1_0_81921256.batchCoord (ix2 r e) 1
      + gather_S8192x50x256_S1_S8192x256_01_1_n_n_1_0_81921256.offCoord (ix2 r e) 1 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8192x50x256_S1_S8192x256_01_1_n_n_1_0_81921256.startIndexMap from
      List.mem_singleton.mpr rfl)]
    have hsi : gather_S8192x50x256_S1_S8192x256_01_1_n_n_1_0_81921256.siIdx (ix2 r e)
        ⟨List.idxOf (1 : Fin 3) gather_S8192x50x256_S1_S8192x256_01_1_n_n_1_0_81921256.startIndexMap,
          List.idxOf_lt_length_iff.2 (List.mem_singleton.mpr rfl)⟩ = ix1 (0 : Fin 1) := by
      funext b; refine Fin.ext ?_
      match b with
      | ⟨0, _⟩ => rfl
    rw [hsi, hidx]
    exact clamp_row s
  | ⟨2, _⟩ =>
    show gather_S8192x50x256_S1_S8192x256_01_1_n_n_1_0_81921256.start (ix2 r e) idx 2
      + gather_S8192x50x256_S1_S8192x256_01_1_n_n_1_0_81921256.batchCoord (ix2 r e) 2
      + gather_S8192x50x256_S1_S8192x256_01_1_n_n_1_0_81921256.offCoord (ix2 r e) 2 = e.val
    rw [show gather_S8192x50x256_S1_S8192x256_01_1_n_n_1_0_81921256.start (ix2 r e) idx 2 = 0 from rfl,
      show gather_S8192x50x256_S1_S8192x256_01_1_n_n_1_0_81921256.batchCoord (ix2 r e) 2 = 0 from rfl,
      Nat.zero_add]
    rfl

end

section
variable [Facts₀]

/-- With every start index the number `s < 50`, the range test's conjunction over the one-element index array is 1. -/
theorem ok_one (idx1 : IVec S1 32) (s : Fin 50) (h1 : ∀ i, idx1 i = BitVec.ofNat 32 s.val)
    (hb : S_.BroadcastsInDim S1 (![] : Fin 0 → Fin S1.rank)) (hred : S1.ReducesTo [0] S_) (hu : 0 < S_.numel) (j : S_.Idx) :
    Host.reduce IntOp.andi (andi (cmpi .sge idx1 (broadcastInDim S1 ![] hb (constantI S_ 32 0#32)))
      (cmpi .sle idx1 (constantI S1 32 49#32))) (constantI S_ 1 1#1) hred hu j = 1#1 := by
  rw [Host.reduce_eq_foldl]
  refine foldl_andi_one _ _ fun n _ => ?_
  show IntOp.andi (IntOp.cmpi .sge (idx1 n) 0#32) (IntOp.cmpi .sle (idx1 n) 49#32) = 1#1
  rw [h1 n, sge_zero, sle_49]
  decide

/-- The take at an index `s < 50` already normalised: the range test passes, so entry `(r, e)` is the gathered
    `lat (r, s, e)` and not the fill. -/
theorem take_core (lat : FVec Ideal S8192x50x256 .f32) (idx : IVec S_ 32) (s : Fin 50)
    (hidx : idx ix0 = BitVec.ofNat 32 s.val)
    (hb : S_.BroadcastsInDim S1 (![] : Fin 0 → Fin S1.rank)) (hred : S1.ReducesTo [0] S_) (hu : 0 < S_.numel)
    (hbb : S_.BroadcastsInDim S8192x256 (![] : Fin 0 → Fin S8192x256.rank)) (fill : FVec Ideal S8192x256 .f32)
    (r : Fin 8192) (e : Fin 256) :
    select (broadcastInDim S8192x256 ![] hbb
        (Host.reduce IntOp.andi (andi (cmpi .sge (broadcastInDim S1 ![] hb idx) (broadcastInDim S1 ![] hb (constantI S_ 32 0#32)))
          (cmpi .sle (broadcastInDim S1 ![] hb idx) (constantI S1 32 49#32))) (constantI S_ 1 1#1) hred hu))
      (Host.gather gather_S8192x50x256_S1_S8192x256_01_1_n_n_1_0_81921256 lat (broadcastInDim S1 ![] hb idx))
      fill (ix2 r e) = lat (ix3 r s e) := by
  have h1 : ∀ i, broadcastInDim S1 ![] hb idx i = BitVec.ofNat 32 s.val := fun i => by
    unfold broadcastInDim
    rw [eq_ix0 (fun a => _), hidx]
  rw [select_apply]
  rw [broadcastInDim_apply _ hbb _ (ix2 r e) ix0 (fun a => a.elim0), ok_one _ s h1 hb hred hu, select_one]
  exact gather_row_apply lat _ s (h1 _) r e

end

section
variable [Facts]

/-- `lat[:, t, :]` when the index is the number `s < 50`: no wrap, inside the range, the row `s`. -/
theorem takeOut_apply (lat : FVec Ideal S8192x50x256 .f32) (t : IVec S_ 32) (s : Fin 50)
    (ht : t ix0 = BitVec.ofNat 32 s.val) (r : Fin 8192) (e : Fin 256) :
    takeOut lat t (ix2 r e) = lat (ix3 r s e) := by
  unfold takeOut
  refine take_core lat _ s ?_ _ _ _ _ _ r e
  show Scalar.select (IntOp.cmpi .slt (t ix0) 0#32) (IntOp.addi (t ix0) 50#32) (t ix0) = _
  rw [ht, slt_zero, select_zero]

end

section
variable {α : Type}

/-- A vector laid along the second axis of a rectangle through a one-row matrix: entry `(r, q)` is the vector's entry `q`. -/
theorem bcast_cols_apply {m n : Nat} (x : (⟨1, ![n]⟩ : Shape).Idx → α)
    (h2 : (⟨1, ![n]⟩ : Shape).BroadcastsInDim ⟨2, ![1, n]⟩ ![1])
    (h1 : (⟨2, ![1, n]⟩ : Shape).BroadcastsInDim ⟨2, ![m, n]⟩ ![0, 1]) (r : Fin m) (q : Fin n) :
    broadcastInDim ⟨2, ![m, n]⟩ ![0, 1] h1 (broadcastInDim ⟨2, ![1, n]⟩ ![1] h2 x) (ix2 r q) = x (ix1 q) := by
  refine (broadcastInDim_apply _ h1 _ (ix2 r q) (ix2 (0 : Fin 1) q) ?_).trans
    (broadcastInDim_apply _ h2 _ (ix2 (0 : Fin 1) q) (ix1 q) ?_)
  · intro a
    match a with
    | ⟨0, _⟩ => rfl
    | ⟨1, _⟩ =>
      show q.val = if n = 1 then 0 else q.val
      split_ifs with h
      · have := q.isLt; omega
      · rfl
  · intro a
    match a with
    | ⟨0, _⟩ =>
      show q.val = if n = 1 then 0 else q.val
      split_ifs with h
      · have := q.isLt; omega
      · rfl

/-- Six blocks of columns side by side, of widths 32, 7, 8, 8, 8, 8: column `q` of the whole is column `q` less the
    widths before it of the block it falls in. -/
theorem cat6_apply (x1 : S8192x32.Idx → α) (x2 : S8192x7.Idx → α) (x3 x4 x5 x6 : S8192x8.Idx → α)
    (h : Shape.Concatenates [S8192x32, S8192x7, S8192x8, S8192x8, S8192x8, S8192x8] S8192x71 1)
    (r : Fin 8192) (q : Fin 71) :
    concatenate S8192x71 1 [⟨S8192x32, x1⟩, ⟨S8192x7, x2⟩, ⟨S8192x8, x3⟩, ⟨S8192x8, x4⟩, ⟨S8192x8, x5⟩, ⟨S8192x8, x6⟩] h (ix2 r q)
      = if h0 : q.val < 32 then x1 (ix2 r ⟨q.val, h0⟩)
        else if h1 : q.val < 39 then x2 (ix2 r ⟨q.val - 32, by omega⟩)
        else if h2 : q.val < 47 then x3 (ix2 r ⟨q.val - 39, by omega⟩)
        else if h3 : q.val < 55 then x4 (ix2 r ⟨q.val - 47, by omega⟩)
        else if h4 : q.val < 63 then x5 (ix2 r ⟨q.val - 55, by omega⟩)
        else x6 (ix2 r ⟨q.val - 63, by have := q.isLt; omega⟩) := by
  have off : ∀ {n : Nat} (i : (⟨2, ![8192, n]⟩ : Shape).Idx) (hr : (⟨2, ![8192, n]⟩ : Shape).rank = S8192x71.rank)
      (hi0 : (i 0).val = r.val) (b : Fin 2), b.cast hr ≠ (1 : Fin 2) → (i b).val = (ix2 r q (b.cast hr)).val := by
    intro n i hr hi0 b hb
    match b, hb with
    | ⟨0, _⟩, _ => exact hi0
    | ⟨1, _⟩, hb => exact absurd rfl hb
  by_cases h0 : q.val < 32
  · rw [dif_pos h0]
    have hq : q.val < 32 := h0
    exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 0 (show (0 : ℕ) < 6 by omega) S8192x32 x1 rfl rfl 0 rfl
      (ix2 r ⟨q.val, hq⟩) (off (ix2 r ⟨q.val, hq⟩) rfl rfl) (by show 0 + (q.val) = q.val; omega)
  rw [dif_neg h0]
  by_cases h1 : q.val < 39
  · rw [dif_pos h1]
    have hq : q.val - 32 < 7 := by omega
    exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 1 (show (1 : ℕ) < 6 by omega) S8192x7 x2 rfl rfl 32 rfl
      (ix2 r ⟨q.val - 32, hq⟩) (off (ix2 r ⟨q.val - 32, hq⟩) rfl rfl) (by show 32 + (q.val - 32) = q.val; omega)
  rw [dif_neg h1]
  by_cases h2 : q.val < 47
  · rw [dif_pos h2]
    have hq : q.val - 39 < 8 := by omega
    exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 2 (show (2 : ℕ) < 6 by omega) S8192x8 x3 rfl rfl 39 rfl
      (ix2 r ⟨q.val - 39, hq⟩) (off (ix2 r ⟨q.val - 39, hq⟩) rfl rfl) (by show 39 + (q.val - 39) = q.val; omega)
  rw [dif_neg h2]
  by_cases h3 : q.val < 55
  · rw [dif_pos h3]
    have hq : q.val - 47 < 8 := by omega
    exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 3 (show (3 : ℕ) < 6 by omega) S8192x8 x4 rfl rfl 47 rfl
      (ix2 r ⟨q.val - 47, hq⟩) (off (ix2 r ⟨q.val - 47, hq⟩) rfl rfl) (by show 47 + (q.val - 47) = q.val; omega)
  rw [dif_neg h3]
  by_cases h4 : q.val < 63
  · rw [dif_pos h4]
    have hq : q.val - 55 < 8 := by omega
    exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 4 (show (4 : ℕ) < 6 by omega) S8192x8 x5 rfl rfl 55 rfl
      (ix2 r ⟨q.val - 55, hq⟩) (off (ix2 r ⟨q.val - 55, hq⟩) rfl rfl) (by show 55 + (q.val - 55) = q.val; omega)
  rw [dif_neg h4]
  have hq : q.val - 63 < 8 := by have := q.isLt; omega
  exact concatenate_apply_piece (t := S8192x71) (1 : Fin 2) [⟨S8192x32, x1⟩, ⟨S8192x7, x2⟩, ⟨S8192x8, x3⟩, ⟨S8192x8, x4⟩, ⟨S8192x8, x5⟩, ⟨S8192x8, x6⟩] h (ix2 r q) 5 (show (5 : ℕ) < 6 by omega) S8192x8 x6 rfl rfl 63 rfl
      (ix2 r ⟨q.val - 63, hq⟩) (off (ix2 r ⟨q.val - 63, hq⟩) rfl rfl) (by show 63 + (q.val - 63) = q.val; omega)

/-- Two blocks of columns side by side, of widths 71 and 256. -/
theorem cat2_apply (x1 : S8192x71.Idx → α) (x2 : S8192x256.Idx → α)
    (h : Shape.Concatenates [S8192x71, S8192x256] S8192x327 1) (r : Fin 8192) (q : Fin 327) :
    concatenate S8192x327 1 [⟨S8192x71, x1⟩, ⟨S8192x256, x2⟩] h (ix2 r q)
      = if h5 : q.val < 71 then x1 (ix2 r ⟨q.val, h5⟩) else x2 (ix2 r ⟨q.val - 71, by have := q.isLt; omega⟩) := by
  by_cases h5 : q.val < 71
  · rw [dif_pos h5]
    exact concatenate_pair_apply_left 1 x1 x2 h _ rfl (ix2 r ⟨q.val, h5⟩) fun b => match b with
      | ⟨0, _⟩ => rfl
      | ⟨1, _⟩ => rfl
  · rw [dif_neg h5]
    exact concatenate_pair_apply_right 1 x1 x2 h _ rfl rfl (ix2 r ⟨q.val - 71, by have := q.isLt; omega⟩)
      (fun b hb => match b, hb with
        | ⟨0, _⟩, _ => rfl
        | ⟨1, _⟩, hb => absurd rfl hb)
      (by show (q.val - 71) + 71 = q.val; omega)

end

section
variable [Facts₀]

/-- The operand indices of the product, axis by axis: the left operand reads the result's row and the contraction
    position, the right operand the contraction position and the result's column. -/
theorem lhs_dot_0 (i : S8192x256.Idx) (q : dot_S8192x327_S327x256_S8192x256_1_0_0_1_n_n.contr.Idx) :
    (dot_S8192x327_S327x256_S8192x256_1_0_0_1_n_n.lhsIdx i q 0).val = (i 0).val := by
  unfold DotDims.lhsIdx
  rw [dif_neg (show ¬(0 : Fin S8192x327.rank) ∈ dot_S8192x327_S327x256_S8192x256_1_0_0_1_n_n.lhsBatch from List.not_mem_nil),
    dif_pos (show (0 : Fin S8192x327.rank) ∈ dot_S8192x327_S327x256_S8192x256_1_0_0_1_n_n.lhsNonContracting from List.mem_singleton.mpr rfl)]
  rfl

theorem lhs_dot_1 (i : S8192x256.Idx) (q : dot_S8192x327_S327x256_S8192x256_1_0_0_1_n_n.contr.Idx) :
    (dot_S8192x327_S327x256_S8192x256_1_0_0_1_n_n.lhsIdx i q 1).val = (q ⟨0, Nat.one_pos⟩).val :=
  dot_S8192x327_S327x256_S8192x256_1_0_0_1_n_n.lhsIdx_val_of_single rfl i q

theorem rhs_dot_0 (i : S8192x256.Idx) (q : dot_S8192x327_S327x256_S8192x256_1_0_0_1_n_n.contr.Idx) :
    (dot_S8192x327_S327x256_S8192x256_1_0_0_1_n_n.rhsIdx i q 0).val = (q ⟨0, Nat.one_pos⟩).val :=
  dot_S8192x327_S327x256_S8192x256_1_0_0_1_n_n.rhsIdx_val_of_single rfl i q

theorem rhs_dot_1 (i : S8192x256.Idx) (q : dot_S8192x327_S327x256_S8192x256_1_0_0_1_n_n.contr.Idx) :
    (dot_S8192x327_S327x256_S8192x256_1_0_0_1_n_n.rhsIdx i q 1).val = (i 1).val := by
  unfold DotDims.rhsIdx
  rw [dif_neg (show ¬(1 : Fin S327x256.rank) ∈ dot_S8192x327_S327x256_S8192x256_1_0_0_1_n_n.rhsBatch from List.not_mem_nil),
    dif_pos (show (1 : Fin S327x256.rank) ∈ dot_S8192x327_S327x256_S8192x256_1_0_0_1_n_n.rhsNonContracting from List.mem_singleton.mpr rfl)]
  rfl

/-- The product of a matrix of 327 columns with a matrix of 327 rows, entry by entry: the sum over the shared axis. -/
theorem dot_apply (x : FVec Ideal S8192x327 .f32) (y : FVec Ideal S327x256 .f32) (r : Fin 8192) (k : Fin 256) :
    Host.dotGeneral (F := Ideal) dot_S8192x327_S327x256_S8192x256_1_0_0_1_n_n none x y (ix2 r k)
      = ∑ q : Fin 327, x (ix2 r q) * y (ix2 q k) := by
  simp only [Host.dotGeneral]
  rw [Ideal.dotGeneral_apply, ← Equiv.sum_comp (ValueIdx.contrEquiv1 dot_S8192x327_S327x256_S8192x256_1_0_0_1_n_n 327 rfl rfl).symm]
  refine Finset.sum_congr rfl fun q _ => ?_
  have hk := ValueIdx.contrEquiv1_symm_val dot_S8192x327_S327x256_S8192x256_1_0_0_1_n_n 327 rfl rfl q
  have el : dot_S8192x327_S327x256_S8192x256_1_0_0_1_n_n.lhsIdx (ix2 r k) ((ValueIdx.contrEquiv1 dot_S8192x327_S327x256_S8192x256_1_0_0_1_n_n 327 rfl rfl).symm q) = ix2 r q :=
    funext fun a => Fin.ext (by
      match a with
      | ⟨0, _⟩ => exact lhs_dot_0 _ _
      | ⟨1, _⟩ => exact (lhs_dot_1 _ _).trans hk)
  have er : dot_S8192x327_S327x256_S8192x256_1_0_0_1_n_n.rhsIdx (ix2 r k) ((ValueIdx.contrEquiv1 dot_S8192x327_S327x256_S8192x256_1_0_0_1_n_n 327 rfl rfl).symm q) = ix2 q k :=
    funext fun a => Fin.ext (by
      match a with
      | ⟨0, _⟩ => exact (rhs_dot_0 _ _).trans hk
      | ⟨1, _⟩ => exact rhs_dot_1 _ _)
  rw [el, er]

end

/-- A feature block divided, column by column, by a vector laid along the columns: entry `(r, q)` is the quotient of
    the block's entry by the vector's entry `q`. -/
theorem quot_cols_apply {n : Nat} (a : FVec Ideal ⟨2, ![8192, n]⟩ .f32) (c : FVec Ideal ⟨1, ![n]⟩ .f32)
    (h2 : (⟨1, ![n]⟩ : Shape).BroadcastsInDim ⟨2, ![1, n]⟩ ![1])
    (h1 : (⟨2, ![1, n]⟩ : Shape).BroadcastsInDim ⟨2, ![8192, n]⟩ ![0, 1]) (r : Fin 8192) (q : Fin n) :
    Host.divf a (broadcastInDim ⟨2, ![8192, n]⟩ ![0, 1] h1 (broadcastInDim ⟨2, ![1, n]⟩ ![1] h2 c)) (ix2 r q)
      = Ideal.div (a (ix2 r q)) (c (ix1 q)) := by
  show Ideal.div (a (ix2 r q)) (broadcastInDim ⟨2, ![8192, n]⟩ ![0, 1] h1 (broadcastInDim ⟨2, ![1, n]⟩ ![1] h2 c) (ix2 r q)) = _
  rw [bcast_cols_apply]

/-- A feature block divided by the constant 8. -/
theorem quot_eight_apply (a : FVec Ideal S8192x8 .f32) (h : S_.BroadcastsInDim S8192x8 (![] : Fin 0 → Fin S8192x8.rank))
    (r : Fin 8192) (q : Fin 8) :
    Host.divf a (broadcastInDim S8192x8 ![] h (constant (F := Ideal) S_ .f32 0x41000000#32)) (ix2 r q)
      = Ideal.div (a (ix2 r q)) Cert.Spec.eight := rfl

section
variable [Facts]

/-- The context row, entry by entry: the two concatenations lay the normalised feature groups and the taken row
    side by side, which is the case split of `Spec.ctx`. -/
theorem ctx_apply (a0 : FVec Ideal S8192x50x256 .f32) (a1 : FVec Ideal S8192x32 .f32) (a2 : FVec Ideal S8192x7 .f32)
    (a3 : FVec Ideal S7 .f32) (a4 a5 a6 a7 : FVec Ideal S8192x8 .f32) (a8 : FVec Ideal S32 .f32)
    (t : IVec S_ 32) (s : Fin 50) (ht : t ix0 = BitVec.ofNat 32 s.val)
    (hb1 : S1x32.BroadcastsInDim S8192x32 ![0, 1]) (hb2 : S32.BroadcastsInDim S1x32 ![1])
    (hb3 : S1x7.BroadcastsInDim S8192x7 ![0, 1]) (hb4 : S7.BroadcastsInDim S1x7 ![1])
    (hb5 : S_.BroadcastsInDim S8192x8 (![] : Fin 0 → Fin S8192x8.rank))
    (hc6 : Shape.Concatenates [S8192x32, S8192x7, S8192x8, S8192x8, S8192x8, S8192x8] S8192x71 1)
    (hc2 : Shape.Concatenates [S8192x71, S8192x256] S8192x327 1) (r : Fin 8192) (q : Fin 327) :
    concatenate S8192x327 1 [⟨S8192x71, concatenate S8192x71 1
        [⟨S8192x32, Host.divf a1 (broadcastInDim S8192x32 ![0, 1] hb1 (broadcastInDim S1x32 ![1] hb2 a8))⟩,
         ⟨S8192x7, Host.divf a2 (broadcastInDim S8192x7 ![0, 1] hb3 (broadcastInDim S1x7 ![1] hb4 a3))⟩,
         ⟨S8192x8, a4⟩, ⟨S8192x8, a5⟩,
         ⟨S8192x8, Host.divf a6 (broadcastInDim S8192x8 ![] hb5 (constant (F := Ideal) S_ .f32 0x41000000#32))⟩,
         ⟨S8192x8, Host.divf a7 (broadcastInDim S8192x8 ![] hb5 (constant (F := Ideal) S_ .f32 0x41000000#32))⟩] hc6⟩,
       ⟨S8192x256, takeOut a0 t⟩] hc2 (ix2 r q)
      = Cert.Spec.ctx a0 a1 a2 a3 a4 a5 a6 a7 a8 s r q := by
  unfold Cert.Spec.ctx
  rw [cat2_apply]
  by_cases h5 : q.val < 71
  · conv_lhs => rw [dif_pos h5, cat6_apply]
    by_cases h0 : q.val < 32
    · conv_lhs => rw [dif_pos h0]
      conv_rhs => rw [dif_pos h0]
      exact quot_cols_apply a1 a8 hb2 hb1 r ⟨q.val, h0⟩
    conv_lhs => rw [dif_neg h0]
    conv_rhs => rw [dif_neg h0]
    by_cases h1 : q.val < 39
    · conv_lhs => rw [dif_pos h1]
      conv_rhs => rw [dif_pos h1]
      exact quot_cols_apply a2 a3 hb4 hb3 r ⟨q.val - 32, by omega⟩
    conv_lhs => rw [dif_neg h1]
    conv_rhs => rw [dif_neg h1]
    by_cases h2 : q.val < 47
    · conv_lhs => rw [dif_pos h2]
      conv_rhs => rw [dif_pos h2]
    conv_lhs => rw [dif_neg h2]
    conv_rhs => rw [dif_neg h2]
    by_cases h3 : q.val < 55
    · conv_lhs => rw [dif_pos h3]
      conv_rhs => rw [dif_pos h3]
    conv_lhs => rw [dif_neg h3]
    conv_rhs => rw [dif_neg h3]
    by_cases h4 : q.val < 63
    · conv_lhs => rw [dif_pos h4]
      conv_rhs => rw [dif_pos h4]
      exact quot_eight_apply a6 hb5 r ⟨q.val - 55, by omega⟩
    conv_lhs => rw [dif_neg h4]
    conv_rhs => rw [dif_neg h4, dif_pos h5]
    exact quot_eight_apply a7 hb5 r ⟨q.val - 63, by omega⟩
  · rw [dif_neg h5, dif_neg (show ¬ q.val < 32 by omega), dif_neg (show ¬ q.val < 39 by omega),
      dif_neg (show ¬ q.val < 47 by omega), dif_neg (show ¬ q.val < 55 by omega), dif_neg (show ¬ q.val < 63 by omega),
      dif_neg h5]
    exact takeOut_apply a0 t s ht r ⟨q.val - 71, by have := q.isLt; omega⟩

/-- The reference's result, entry by entry. -/
theorem refOut_apply (a0 : FVec Ideal S8192x50x256 .f32) (a1 : FVec Ideal S8192x32 .f32) (a2 : FVec Ideal S8192x7 .f32)
    (a3 : FVec Ideal S7 .f32) (a4 a5 a6 a7 : FVec Ideal S8192x8 .f32) (a8 : FVec Ideal S32 .f32)
    (a9 : FVec Ideal S256x327 .f32) (a10 : FVec Ideal S256 .f32) (a11 : IVec S8192 32)
    (s : Fin 50) (hs : a11 (ix1 (0 : Fin 8192)) = BitVec.ofNat 32 s.val) (r : Fin 8192) (k : Fin 256) :
    refOut a0 a1 a2 a3 a4 a5 a6 a7 a8 a9 a10 a11 (ix2 r k)
      = Cert.Spec.Gr a0 a1 a2 a3 a4 a5 a6 a7 a8 a9 a10 s r k := by
  unfold refOut Cert.Spec.Gr
  dsimp only
  rw [addf_apply, dot_apply, bcast_cols_apply]
  congr 1
  refine Finset.sum_congr rfl fun q _ => ?_
  rw [transpose_ix2_apply]
  congr 1
  exact ctx_apply a0 a1 a2 a3 a4 a5 a6 a7 a8 _ s ((t_apply a11 _ _).trans hs) _ _ _ _ _ _ _ r q

end

/-- With the time step's first word the number `s < 50`, the reference's result is `Spec.Gr` at row `s`. -/
theorem refOut_eq (a0 : FVec Ideal S8192x50x256 .f32) (a1 : FVec Ideal S8192x32 .f32) (a2 : FVec Ideal S8192x7 .f32)
    (a3 : FVec Ideal S7 .f32) (a4 a5 a6 a7 : FVec Ideal S8192x8 .f32) (a8 : FVec Ideal S32 .f32)
    (a9 : FVec Ideal S256x327 .f32) (a10 : FVec Ideal S256 .f32) (a11 : IVec S8192 32)
    (s : Fin 50) (hs : a11 (ix1 (0 : Fin 8192)) = BitVec.ofNat 32 s.val) :
    refOut a0 a1 a2 a3 a4 a5 a6 a7 a8 a9 a10 a11
      = fun j => Cert.Spec.Gr a0 a1 a2 a3 a4 a5 a6 a7 a8 a9 a10 s (j 0) (j 1) := by
  funext j
  obtain ⟨r, k, rfl⟩ : ∃ (r : Fin 8192) (k : Fin 256), j = ix2 r k := ⟨j 0, j 1, eq_ix2 j⟩
  exact refOut_apply a0 a1 a2 a3 a4 a5 a6 a7 a8 a9 a10 a11 s hs r k

end Cert.ReferenceIdeal.RefValue

end
-- ==== Proof.lean ====
/-
  The certificate: the kernel and its reference compute one function over the extended reals.

  Under the precondition the time step's first word is a number `s < 50` and no divisor is zero.  The kernel's
  frames hold because the slice its body copies lies inside the sequence array (the clamp leaves `s` alone).
  The idealized kernel ends with its output at `Spec.Gk … s`: seven partial products per block, each divisor on
  the weight.  The idealized reference ends with its output at `Spec.Gr … s`: the context row, each divisor on
  the feature, times the weights.  The two are one function when no divisor is zero (`Spec.Gk_eq_Gr`): a
  quotient by a nonzero number is the product with its inverse, and products and sums of extended reals
  commute and associate.  The ideal pass rewrote nothing, so the idealization conjunct is trivial.
-/
import proofs.«402649_j67920612818961_3_alg».proof.Defs
import proofs.«402649_j67920612818961_3_alg».proof.Proof.Gen.Kernel
import proofs.«402649_j67920612818961_3_alg».proof.Proof.Gen.Kernel.Frame
import proofs.«402649_j67920612818961_3_alg».proof.Proof.Gen.KernelIdeal
import proofs.«402649_j67920612818961_3_alg».proof.Proof.Gen.KernelIdeal.Frame
import proofs.«402649_j67920612818961_3_alg».proof.Proof.Gen.ReferenceIdeal
import proofs.«402649_j67920612818961_3_alg».proof.Proof.Gen.Pre_finite_inputs
import proofs.«402649_j67920612818961_3_alg».proof.Proof.Spec
import proofs.«402649_j67920612818961_3_alg».proof.Proof.PreFacts
import proofs.«402649_j67920612818961_3_alg».proof.Proof.TblK
import proofs.«402649_j67920612818961_3_alg».proof.Proof.TblKI
import proofs.«402649_j67920612818961_3_alg».proof.Proof.KerValue
import proofs.«402649_j67920612818961_3_alg».proof.Proof.RefRun
import proofs.«402649_j67920612818961_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and keeps its arguments: its body's copy stays inside the sequence array. -/
theorem frame_k : Cert.frame_Kernel := fun m ρ hpre => by
  obtain ⟨s, hs0⟩ := Cert.PreFacts.step_of_pre (F := Bits) _ _ _ _ _ _ _ _ _ _ _ _ (hpre 0)
  have hs : ∀ c : Dev Cert.Kernel.nD, (m ((c.tc : Thread Cert.Kernel.nD Cert.Kernel.τ).loc Cert.Kernel.main_arg11) : IVec Cert.Kernel.S8192 32) (ix1 (0 : Fin 8192)) = BitVec.ofNat 32 s.val :=
    fun c => by obtain rfl : c = 0 := Subsingleton.elim _ _; exact hs0
  exact Cert.Kernel.Gen.frame m ρ (Cert.Kernel.Tbl.ok m) (Cert.Kernel.Tbl.hyps m s hs)

/-- The idealized kernel runs and keeps its arguments, for the same reason. -/
theorem frame_ki : Cert.frame_KernelIdeal := fun m ρ hpre => by
  obtain ⟨s, hs0⟩ := Cert.PreFacts.step_of_pre (F := Ideal) _ _ _ _ _ _ _ _ _ _ _ _ (hpre 0)
  have hs : ∀ c : Dev Cert.KernelIdeal.nD, (m ((c.tc : Thread Cert.KernelIdeal.nD Cert.KernelIdeal.τ).loc Cert.KernelIdeal.main_arg11) : IVec Cert.KernelIdeal.S8192 32) (ix1 (0 : Fin 8192)) = BitVec.ofNat 32 s.val :=
    fun c => by obtain rfl : c = 0 := Subsingleton.elim _ _; exact hs0
  exact Cert.KernelIdeal.Gen.frame m ρ (Cert.KernelIdeal.Tbl.ok m) (Cert.KernelIdeal.Tbl.hyps m s hs)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both idealized programs end with the same result array: the
    kernel's arrangement of the sums and the reference's are one function when no divisor is zero. -/
theorem algebraic : Cert.algebraic_KernelIdeal_ReferenceIdeal := by
  intro m ρ m' ρ' hpre hagree
  obtain ⟨s, hs0⟩ := Cert.PreFacts.step_of_pre (F := Ideal) _ _ _ _ _ _ _ _ _ _ _ _ (hpre 0)
  have hs : ∀ c : Dev Cert.KernelIdeal.nD, (m ((c.tc : Thread Cert.KernelIdeal.nD Cert.KernelIdeal.τ).loc Cert.KernelIdeal.main_arg11) : IVec Cert.KernelIdeal.S8192 32) (ix1 (0 : Fin 8192)) = BitVec.ofNat 32 s.val :=
    fun c => by obtain rfl : c = 0 := Subsingleton.elim _ _; exact hs0
  refine ⟨fun c => (fun j => Cert.Spec.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) s (j 0) (j 1)),
    Cert.KernelIdeal.KerValue.run m ρ s hs, ?_⟩
  refine (θ_run Cert.ReferenceIdeal.defs _ _).mono (fun r h c => ⟨(h c).1.trans ?_, (h c).2⟩)
    (Cert.ReferenceIdeal.RefValue.run m' ρ')
  obtain ⟨e0, e1, e2, e3, e4, e5, e6, e7, e8, e9, e10, e11⟩ := hagree c
  rw [e0, e1, e2, e3, e4, e5, e6, e7, e8, e9, e10, e11]
  rw [Cert.ReferenceIdeal.RefValue.refOut_eq _ _ _ _ _ _ _ _ _ _ _ _ s (hs c)]
  funext j
  exact (Cert.Spec.Gk_eq_Gr _ _ _ _ _ _ _ _ _ _ _
    (Cert.PreFacts.cap_ne_of_pre _ _ _ _ _ _ _ _ _ _ _ _ (hpre c)) (Cert.PreFacts.tlc_ne_of_pre _ _ _ _ _ _ _ _ _ _ _ _ (hpre c)) s (j 0) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
